-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S1600000 32) (main_v33 : IVec S_ 1) : IVec S_ 1 :=
  let main_c_12 : IVec S_ 32 := constantI S_ 32 0#32
  let main_v34 : IVec S1600000 32 := broadcastInDim S1600000 ![] bcast_S_S1600000 main_c_12
  let main_v35 : IVec S1600000 1 := cmpi .sge main_arg1 main_v34
  let main_c_13 : IVec S_ 32 := constantI S_ 32 99999#32
  let main_v36 : IVec S1600000 32 := broadcastInDim S1600000 ![] bcast_S_S1600000 main_c_13
  let main_v37 : IVec S1600000 1 := cmpi .sle main_arg1 main_v36
  let main_v38 : IVec S1600000 1 := andi main_v35 main_v37
  let main_c_14 : IVec S_ 1 := constantI S_ 1 1#1
  let main_v39 : IVec S_ 1 := (fun x v => Host.reduce IntOp.andi x v reducesTo_S1600000_S_d0 h_S_) main_v38 main_c_14
  let main_v40 : IVec S_ 1 := andi main_v33 main_v39
  main_v40

def fn_part1 {F : FTy → Type} [FloatOps F] (main_arg1 : IVec S1600000 32) (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1 : Shape := ⟨1, ![1]⟩
abbrev S1x1 : Shape := ⟨2, ![1, 1]⟩
abbrev S1600000x128 : Shape := ⟨2, ![1600000, 128]⟩
abbrev S2000x128 : Shape := ⟨2, ![2000, 128]⟩
abbrev S2000x1 : Shape := ⟨2, ![2000, 1]⟩
abbrev S1x128 : Shape := ⟨2, ![1, 128]⟩
abbrev S100000x64 : Shape := ⟨2, ![100000, 64]⟩
abbrev S2000x64 : Shape := ⟨2, ![2000, 64]⟩
abbrev S1x64 : Shape := ⟨2, ![1, 64]⟩
abbrev S2000 : Shape := ⟨1, ![2000]⟩

abbrev nBuf : Space → Nat
  | .hbm => 121
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1, .i32⟩
  | .hbm, ⟨46, _⟩ => ⟨S_, .i32⟩
  | .hbm, ⟨47, _⟩ => ⟨S1600000x1, .i32⟩
  | .hbm, ⟨48, _⟩ => ⟨S1600000x1, .i1⟩
  | .hbm, ⟨49, _⟩ => ⟨S1x1, .i32⟩
  | .hbm, ⟨50, _⟩ => ⟨S1600000x1, .i32⟩
  | .hbm, ⟨51, _⟩ => ⟨S1600000x1, .i1⟩
  | .hbm, ⟨52, _⟩ => ⟨S1600000x1, .i1⟩
  | .hbm, ⟨53, _⟩ => ⟨S_, .i1⟩
  | .hbm, ⟨54, _⟩ => ⟨S1600000, .i1⟩
  | .hbm, ⟨55, _⟩ => ⟨S1600000x128, .f32⟩
  | .hbm, ⟨56, _⟩ => ⟨S1600000x128, .i1⟩
  | .hbm, ⟨57, _⟩ => ⟨S_, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1, .i32⟩
  | .hbm, ⟨74, _⟩ => ⟨S_, .i32⟩
  | .hbm, ⟨75, _⟩ => ⟨S1600000x1, .i32⟩
  | .hbm, ⟨76, _⟩ => ⟨S1600000x1, .i1⟩
  | .hbm, ⟨77, _⟩ => ⟨S1x1, .i32⟩
  | .hbm, ⟨78, _⟩ => ⟨S1600000x1, .i32⟩
  | .hbm, ⟨79, _⟩ => ⟨S1600000x1, .i1⟩
  | .hbm, ⟨80, _⟩ => ⟨S1600000x1, .i1⟩
  | .hbm, ⟨81, _⟩ => ⟨S_, .i1⟩
  | .hbm, ⟨82, _⟩ => ⟨S1600000, .i1⟩
  | .hbm, ⟨83, _⟩ => ⟨S1600000x128, .f32⟩
  | .hbm, ⟨84, _⟩ => ⟨S1600000x128, .i1⟩
  | .hbm, ⟨85, _⟩ => ⟨S_, .f32⟩
  | .hbm, ⟨86, _⟩ => ⟨S1600000x128, .f32⟩
  | .hbm, ⟨87, _⟩ => ⟨S1600000x128, .f32⟩
  | .hbm, ⟨88, _⟩ => ⟨S_, .f32⟩
  | .hbm, ⟨89, _⟩ => ⟨S100000x128, .f32⟩
  | .hbm, ⟨90, _⟩ => ⟨S1600000x1, .i32⟩
  | .hbm, ⟨91, _⟩ => ⟨S100000x128, .f32⟩
  | .hbm, ⟨92, _⟩ => ⟨S100000x128, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1, .i32⟩
  | .hbm, ⟨102, _⟩ => ⟨S_, .i32⟩
  | .hbm, ⟨103, _⟩ => ⟨S1600000x1, .i32⟩
  | .hbm, ⟨104, _⟩ => ⟨S1600000x1, .i1⟩
  | .hbm, ⟨105, _⟩ => ⟨S1x1, .i32⟩
  | .hbm, ⟨106, _⟩ => ⟨S1600000x1, .i32⟩
  | .hbm, ⟨107, _⟩ => ⟨S1600000x1, .i1⟩
  | .hbm, ⟨108, _⟩ => ⟨S1600000x1, .i1⟩
  | .hbm, ⟨109, _⟩ => ⟨S_, .i1⟩
  | .hbm, ⟨110, _⟩ => ⟨S1600000, .i1⟩
  | .hbm, ⟨111, _⟩ => ⟨S1600000x128, .f32⟩
  | .hbm, ⟨112, _⟩ => ⟨S1600000x128, .i1⟩
  | .hbm, ⟨113, _⟩ => ⟨S_, .f32⟩
  | .hbm, ⟨114, _⟩ => ⟨S1600000x128, .f32⟩
  | .hbm, ⟨115, _⟩ => ⟨S1600000x128, .f32⟩
  | .hbm, ⟨116, _⟩ => ⟨S_, .f32⟩
  | .hbm, ⟨117, _⟩ => ⟨S100000x128, .f32⟩
  | .hbm, ⟨118, _⟩ => ⟨S1600000x1, .i32⟩
  | .hbm, ⟨119, _⟩ => ⟨S100000x128, .f32⟩
  | .hbm, ⟨120, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S128x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x1, .f32⟩
  | .local _ .vmem, ⟨23, _⟩ => ⟨S2000x1, .f32⟩
  | .local _ .vmem, ⟨24, _⟩ => ⟨S128x64, .f32⟩
  | .local _ .vmem, ⟨25, _⟩ => ⟨S64, .f32⟩
  | .local _ .vmem, ⟨26, _⟩ => ⟨S2000x64, .f32⟩
  | .local _ .vmem, ⟨27, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_call2_cst : Ref sig .tc := ⟨.hbm, 57, rfl⟩
abbrev main_call2_v15 : Ref sig .tc := ⟨.hbm, 58, rfl⟩
abbrev main_v17 : Ref sig .tc := ⟨.hbm, 59, rfl⟩
abbrev main_cst_6 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_c_1 : Ref sig .tc := ⟨.hbm, 73, rfl⟩
abbrev main_call3_c_2 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_c_3 : Ref sig .tc := ⟨.hbm, 81, rfl⟩
abbrev main_call3_v12 : Ref sig .tc := ⟨.hbm, 82, rfl⟩
abbrev main_call3_v13 : Ref sig .tc := ⟨.hbm, 83, rfl⟩
abbrev main_call3_v14 : Ref sig .tc := ⟨.hbm, 84, rfl⟩
abbrev main_call3_cst : Ref sig .tc := ⟨.hbm, 85, rfl⟩
abbrev main_call3_v15 : Ref sig .tc := ⟨.hbm, 86, rfl⟩
abbrev main_v22 : Ref sig .tc := ⟨.hbm, 87, rfl⟩
abbrev main_cst_7 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_call4_c : Ref sig .tc := ⟨.hbm, 93, rfl⟩
abbrev main_call4_v0 : Ref sig .tc := ⟨.hbm, 94, rfl⟩
abbrev main_call4_v1 : Ref sig .tc := ⟨.hbm, 95, rfl⟩
abbrev main_call4_c_0 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_v5 : Ref sig .tc := ⟨.hbm, 100, rfl⟩
abbrev main_call4_c_1 : Ref sig .tc := ⟨.hbm, 101, rfl⟩
abbrev main_call4_c_2 : Ref sig .tc := ⟨.hbm, 102, rfl⟩
abbrev main_call4_v6 : Ref sig .tc := ⟨.hbm, 103, rfl⟩
abbrev main_call4_v7 : Ref sig .tc := ⟨.hbm, 104, rfl⟩
abbrev main_call4_v8 : Ref sig .tc := ⟨.hbm, 105, rfl⟩
abbrev main_call4_v9 : Ref sig .tc := ⟨.hbm, 106, rfl⟩
abbrev main_call4_v10 : Ref sig .tc := ⟨.hbm, 107, rfl⟩
abbrev main_call4_v11 : Ref sig .tc := ⟨.hbm, 108, rfl⟩
abbrev main_call4_c_3 : Ref sig .tc := ⟨.hbm, 109, rfl⟩
abbrev main_call4_v12 : Ref sig .tc := ⟨.hbm, 110, rfl⟩
abbrev main_call4_v13 : Ref sig .tc := ⟨.hbm, 111, rfl⟩
abbrev main_call4_v14 : Ref sig .tc := ⟨.hbm, 112, rfl⟩
abbrev main_call4_cst : Ref sig .tc := ⟨.hbm, 113, rfl⟩
abbrev main_call4_v15 : Ref sig .tc := ⟨.hbm, 114, rfl⟩
abbrev main_v27 : Ref sig .tc := ⟨.hbm, 115, rfl⟩
abbrev main_cst_8 : Ref sig .tc := ⟨.hbm, 116, rfl⟩
abbrev main_v28 : Ref sig .tc := ⟨.hbm, 117, rfl⟩
abbrev main_v29 : Ref sig .tc := ⟨.hbm, 118, rfl⟩
abbrev main_v30 : Ref sig .tc := ⟨.hbm, 119, rfl⟩
abbrev main_v31 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S100000x1_S100000x128_0_1 : S100000x1.BroadcastsInDim S100000x128 (![0, 1] : Fin 2 → Fin S100000x128.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v20) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v30) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x128, .f32⟩
  | .hbm, ⟨97, _⟩ => ⟨S_, .f32⟩
  | .hbm, ⟨98, _⟩ => ⟨S100000x128, .f32⟩
  | .hbm, ⟨99, _⟩ => ⟨S1600000x1, .i32⟩
  | .hbm, ⟨100, _⟩ => ⟨S100000x128, .f32⟩
  | .hbm, ⟨101, _⟩ => ⟨S100000x1, .f32⟩
  | .hbm, ⟨102, _⟩ => ⟨S100000x128, .f32⟩
  | .hbm, ⟨103, _⟩ => ⟨S100000x128, .f32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000x1, .f32⟩
  | .hbm, ⟨114, _⟩ => ⟨S100000x64, .f32⟩
  | .hbm, ⟨115, _⟩ => ⟨S100000x64, .f32⟩
  | .hbm, ⟨116, _⟩ => ⟨S100000x64, .f32⟩
  | .hbm, ⟨117, _⟩ => ⟨S_, .f32⟩
  | .hbm, ⟨118, _⟩ => ⟨S100000, .f32⟩
  | .hbm, ⟨119, _⟩ => ⟨S100000x1, .f32⟩
  | .hbm, ⟨120, _⟩ => ⟨S100000x1, .f32⟩
  | .hbm, ⟨121, _⟩ => ⟨S100000x64, .f32⟩
  | .hbm, ⟨122, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call3_cst : Ref sig .tc := ⟨.hbm, 82, rfl⟩
abbrev main_call3_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call4_cst : Ref sig .tc := ⟨.hbm, 108, rfl⟩
abbrev main_call4_v0 : Ref sig .tc := ⟨.hbm, 109, rfl⟩
abbrev main_call4_cst_0 : Ref sig .tc := ⟨.hbm, 110, rfl⟩
abbrev main_call4_v1 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_v6 : Ref sig .tc := ⟨.hbm, 116, rfl⟩
abbrev main_call4_cst_1 : Ref sig .tc := ⟨.hbm, 117, rfl⟩
abbrev main_call4_v7 : Ref sig .tc := ⟨.hbm, 118, rfl⟩
abbrev main_call4_v8 : Ref sig .tc := ⟨.hbm, 119, rfl⟩
abbrev main_call4_v9 : Ref sig .tc := ⟨.hbm, 120, rfl⟩
abbrev main_call4_v10 : Ref sig .tc := ⟨.hbm, 121, rfl⟩
abbrev main_v75 : Ref sig .tc := ⟨.hbm, 122, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The mathematics of the three graph-convolution layers, index by index over the extended reals.

  A layer takes the aggregated node features `agg` (one row per node), the column of in-degree scales `ndst`, a weight
  matrix `W` and a bias `b`; its linear part at node `i` and output feature `j` is
      lin i j = Σ_k (agg (i, k) · ndst (i, 0)) · W (k, j) + b j.
  The two hidden layers return `max (lin i j) 0 · nsrc (i, 0)` (the rectified value, pre-scaled by the out-degree
  scale for the next aggregation); the last layer returns the row-wise log-softmax
      (lin i j − m i) − log Σ_j' exp (lin i j' − m i),   m i = max_j' lin i j'  (folded from −∞).
-/
import Idealize.ShloMosaic.PureOps.Ideal
import Idealize.ShloMosaic.PureOps.Ideal.Laws
import Idealize.ShloMosaic.Lib.ValueIdx

noncomputable section

open scoped BigOperators

namespace Cert.GConv

open Idealize.ShloMosaic Idealize.ShloMosaic.ValueIdx

/-- The linear part of a layer at node `i`, output feature `j`. -/
def lin {R D M : Nat} (agg : FVec Ideal ⟨2, ![R, D]⟩ .f32) (ndst : FVec Ideal ⟨2, ![R, 1]⟩ .f32)
    (W : FVec Ideal ⟨2, ![D, M]⟩ .f32) (b : FVec Ideal ⟨1, ![M]⟩ .f32) (i : Fin R) (j : Fin M) : EReal :=
  (∑ k : Fin D, (agg (ix2 i k) * ndst (ix2 i 0)) * W (ix2 k j)) + b (ix1 j)

/-- A hidden layer's entry: the rectified linear part, scaled by the node's out-degree scale. -/
def reluAt {R D M : Nat} (agg : FVec Ideal ⟨2, ![R, D]⟩ .f32) (ndst nsrc : FVec Ideal ⟨2, ![R, 1]⟩ .f32)
    (W : FVec Ideal ⟨2, ![D, M]⟩ .f32) (b : FVec Ideal ⟨1, ![M]⟩ .f32) (i : Fin R) (j : Fin M) : EReal :=
  max (lin agg ndst W b i j) (Ideal.ofBits .f32 0x00000000#32) * nsrc (ix2 i 0)

/-- A hidden layer as a whole array. -/
def reluLayer {R D M : Nat} (agg : FVec Ideal ⟨2, ![R, D]⟩ .f32) (ndst nsrc : FVec Ideal ⟨2, ![R, 1]⟩ .f32)
    (W : FVec Ideal ⟨2, ![D, M]⟩ .f32) (b : FVec Ideal ⟨1, ![M]⟩ .f32) : FVec Ideal ⟨2, ![R, M]⟩ .f32 :=
  fun y => reluAt agg ndst nsrc W b (y 0) (y 1)

theorem reluLayer_apply {R D M : Nat} (agg : FVec Ideal ⟨2, ![R, D]⟩ .f32) (ndst nsrc : FVec Ideal ⟨2, ![R, 1]⟩ .f32)
    (W : FVec Ideal ⟨2, ![D, M]⟩ .f32) (b : FVec Ideal ⟨1, ![M]⟩ .f32) (i : Fin R) (j : Fin M) :
    reluLayer agg ndst nsrc W b (ix2 i j) = reluAt agg ndst nsrc W b i j := rfl

/-- Row `i`'s maximum of the linear part, folded from −∞. -/
def rowMax {R D M : Nat} (agg : FVec Ideal ⟨2, ![R, D]⟩ .f32) (ndst : FVec Ideal ⟨2, ![R, 1]⟩ .f32)
    (W : FVec Ideal ⟨2, ![D, M]⟩ .f32) (b : FVec Ideal ⟨1, ![M]⟩ .f32) (i : Fin R) : EReal :=
  (Finset.univ : Finset (Fin M)).fold max (Ideal.ofBits .f32 0xFF800000#32) (fun j => lin agg ndst W b i j)

/-- The shifted linear part. -/
def shifted {R D M : Nat} (agg : FVec Ideal ⟨2, ![R, D]⟩ .f32) (ndst : FVec Ideal ⟨2, ![R, 1]⟩ .f32)
    (W : FVec Ideal ⟨2, ![D, M]⟩ .f32) (b : FVec Ideal ⟨1, ![M]⟩ .f32) (i : Fin R) (j : Fin M) : EReal :=
  lin agg ndst W b i j - rowMax agg ndst W b i

/-- The last layer's entry: the row-wise log-softmax of the linear part. -/
def finalAt {R D M : Nat} (agg : FVec Ideal ⟨2, ![R, D]⟩ .f32) (ndst : FVec Ideal ⟨2, ![R, 1]⟩ .f32)
    (W : FVec Ideal ⟨2, ![D, M]⟩ .f32) (b : FVec Ideal ⟨1, ![M]⟩ .f32) (i : Fin R) (j : Fin M) : EReal :=
  shifted agg ndst W b i j - Ideal.log (∑ j' : Fin M, Ideal.exp (shifted agg ndst W b i j'))

/-- The last layer as a whole array. -/
def finalLayer {R D M : Nat} (agg : FVec Ideal ⟨2, ![R, D]⟩ .f32) (ndst : FVec Ideal ⟨2, ![R, 1]⟩ .f32)
    (W : FVec Ideal ⟨2, ![D, M]⟩ .f32) (b : FVec Ideal ⟨1, ![M]⟩ .f32) : FVec Ideal ⟨2, ![R, M]⟩ .f32 :=
  fun y => finalAt agg ndst W b (y 0) (y 1)

theorem finalLayer_apply {R D M : Nat} (agg : FVec Ideal ⟨2, ![R, D]⟩ .f32) (ndst : FVec Ideal ⟨2, ![R, 1]⟩ .f32)
    (W : FVec Ideal ⟨2, ![D, M]⟩ .f32) (b : FVec Ideal ⟨1, ![M]⟩ .f32) (i : Fin R) (j : Fin M) :
    finalLayer agg ndst W b (ix2 i j) = finalAt agg ndst W b i j := rfl

/-! ## A layer's entry depends on its node's rows only

  A block of consecutive nodes computes the same entries as the whole array: each definition reads `agg`, `ndst` and
  `nsrc` in row `i` alone. -/

theorem lin_congr {R R' D M : Nat} (agg : FVec Ideal ⟨2, ![R, D]⟩ .f32) (ndst : FVec Ideal ⟨2, ![R, 1]⟩ .f32)
    (agg' : FVec Ideal ⟨2, ![R', D]⟩ .f32) (ndst' : FVec Ideal ⟨2, ![R', 1]⟩ .f32)
    (W : FVec Ideal ⟨2, ![D, M]⟩ .f32) (b : FVec Ideal ⟨1, ![M]⟩ .f32) (i : Fin R) (p : Fin R')
    (hagg : ∀ k, agg' (ix2 p k) = agg (ix2 i k)) (hnd : ndst' (ix2 p 0) = ndst (ix2 i 0)) (j : Fin M) :
    lin agg' ndst' W b p j = lin agg ndst W b i j := by
  unfold lin
  simp only [hagg, hnd]

theorem reluAt_congr {R R' D M : Nat} (agg : FVec Ideal ⟨2, ![R, D]⟩ .f32) (ndst nsrc : FVec Ideal ⟨2, ![R, 1]⟩ .f32)
    (agg' : FVec Ideal ⟨2, ![R', D]⟩ .f32) (ndst' nsrc' : FVec Ideal ⟨2, ![R', 1]⟩ .f32)
    (W : FVec Ideal ⟨2, ![D, M]⟩ .f32) (b : FVec Ideal ⟨1, ![M]⟩ .f32) (i : Fin R) (p : Fin R')
    (hagg : ∀ k, agg' (ix2 p k) = agg (ix2 i k)) (hnd : ndst' (ix2 p 0) = ndst (ix2 i 0))
    (hns : nsrc' (ix2 p 0) = nsrc (ix2 i 0)) (j : Fin M) :
    reluAt agg' ndst' nsrc' W b p j = reluAt agg ndst nsrc W b i j := by
  unfold reluAt
  rw [lin_congr agg ndst agg' ndst' W b i p hagg hnd, hns]

theorem finalAt_congr {R R' D M : Nat} (agg : FVec Ideal ⟨2, ![R, D]⟩ .f32) (ndst : FVec Ideal ⟨2, ![R, 1]⟩ .f32)
    (agg' : FVec Ideal ⟨2, ![R', D]⟩ .f32) (ndst' : FVec Ideal ⟨2, ![R', 1]⟩ .f32)
    (W : FVec Ideal ⟨2, ![D, M]⟩ .f32) (b : FVec Ideal ⟨1, ![M]⟩ .f32) (i : Fin R) (p : Fin R')
    (hagg : ∀ k, agg' (ix2 p k) = agg (ix2 i k)) (hnd : ndst' (ix2 p 0) = ndst (ix2 i 0)) (j : Fin M) :
    finalAt agg' ndst' W b p j = finalAt agg ndst W b i j := by
  unfold finalAt shifted rowMax
  simp only [lin_congr agg ndst agg' ndst' W b i p hagg hnd]

/-! ## The whole network over an aggregation step

  `aggF` is the edge aggregation (gather the rows at the edges' sources, add them into the edges' targets); the network
  is three aggregations, each followed by a layer. -/

/-- The network's result from the scaled input features `h0`. -/
def network (aggF : FVec Ideal ⟨2, ![100000, 128]⟩ .f32 → FVec Ideal ⟨2, ![100000, 128]⟩ .f32)
    (h0 : FVec Ideal ⟨2, ![100000, 128]⟩ .f32) (ndst nsrc : FVec Ideal ⟨2, ![100000, 1]⟩ .f32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32)
    (W3 : FVec Ideal ⟨2, ![128, 64]⟩ .f32) (b3 : FVec Ideal ⟨1, ![64]⟩ .f32) : FVec Ideal ⟨2, ![100000, 64]⟩ .f32 :=
  finalLayer (aggF (reluLayer (aggF (reluLayer (aggF h0) ndst nsrc W1 b1)) ndst nsrc W2 b2)) ndst W3 b3

end Cert.GConv

end
-- ==== Proof.KerTake.lean ====
/-
  The gather step of the kernel program's aggregation, read through its host operations.

  Each aggregation first takes the rows of the node features at the edges' source indices: an index below zero is wrapped
  by the number of nodes, the row is gathered at the (wrapped) index, and a row whose wrapped index is not a node's is
  replaced by a fill value. The 23 host operations of that step are read here as one function of the features and the
  source indices, for each of the three aggregations.
-/
import proofs.«410822_j78529182040196_1_alg».proof.Proof.Gen.KernelIdeal.Launch
import Idealize.ShloMosaic.Lib.StableHlo.Run
import Idealize.ShloMosaic.Lib.Pipeline.Frame
import Idealize.ShloMosaic.PureOps.Ideal

noncomputable section

namespace Cert.GConv.KTake

open Cert.KernelIdeal Cert.KernelIdeal.Gen
open Idealize.ShloMosaic Idealize.ShloMosaic.TcCoe Idealize.ShloMosaic.StableHlo
open Idealize.SL.Sem

/-- The edges' source indices, an index below zero wrapped by the number of nodes, as a column. -/
def kIdx (src : IVec S1600000 32) : IVec S1600000x1 32 :=
  broadcastInDim S1600000x1 ![0] bcast_S1600000_S1600000x1_0
    (select (cmpi CmpIPredicate.slt src (broadcastInDim S1600000 ![] bcast_S_S1600000 (constantI S_ 32 0#32)))
      (addi src (broadcastInDim S1600000 ![] bcast_S_S1600000 (constantI S_ 32 100000#32))) src)

/-- Per edge, whether the wrapped source index is a node's: at least 0 and at most 99999. -/
def kMask (i5 : IVec S1600000x1 32) : IVec S1600000 1 :=
  Host.reduce IntOp.andi
    (andi (cmpi CmpIPredicate.sge i5 (broadcastInDim S1600000x1 ![] bcast_S_S1600000x1 (constantI S_ 32 0#32)))
      (cmpi CmpIPredicate.sle i5
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- The rows of `h` taken at the edges' sources: the gathered row where the wrapped index is a node's, the fill value
    elsewhere. -/
def kTake (h : FVec Ideal S100000x128 .f32) (src : IVec S1600000 32) : FVec Ideal S1600000x128 .f32 :=
  select (broadcastInDim S1600000x128 ![0] bcast_S1600000_S1600000x128_0 (kMask (kIdx src)))
    (Host.gather gather_S100000x128_S1600000x1_S1600000x128_1_0_n_n_0_1_1128 h (kIdx src))
    (broadcastInDim S1600000x128 ![] bcast_S_S1600000x128 (constant (F := Ideal) S_ .f32 0x7FC00000#32))

/-! ## The first aggregation's gather step -/

/-- Its first eight operations: the wrapped source indices as a column. -/
abbrev wrapOps0 : List (HloOp τ sig (Elt Ideal)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S1600000, .i32⟩) (broadcastInDim S1600000 ![] bcast_S_S1600000),
    StableHlo.TRef.binary (.of main_arg1 : StableHlo.TRef sig ⟨S1600000, .i32⟩) (.of main_call2_v0 : StableHlo.TRef sig ⟨S1600000, .i32⟩) (.of main_call2_v1 : StableHlo.TRef sig ⟨S1600000, .i1⟩) (cmpi .slt),
    StableHlo.TRef.nullary (.of main_call2_c_0 : StableHlo.TRef sig ⟨S_, .i32⟩) (constantI S_ 32 100000#32),
    StableHlo.TRef.unary (.of main_call2_c_0 : StableHlo.TRef sig ⟨S_, .i32⟩) (.of main_call2_v2 : StableHlo.TRef sig ⟨S1600000, .i32⟩) (broadcastInDim S1600000 ![] bcast_S_S1600000),
    StableHlo.TRef.binary (.of main_arg1 : StableHlo.TRef sig ⟨S1600000, .i32⟩) (.of main_call2_v2 : StableHlo.TRef sig ⟨S1600000, .i32⟩) (.of main_call2_v3 : StableHlo.TRef sig ⟨S1600000, .i32⟩) addi,
    StableHlo.TRef.ternary (.of main_call2_v1 : StableHlo.TRef sig ⟨S1600000, .i1⟩) (.of main_call2_v3 : StableHlo.TRef sig ⟨S1600000, .i32⟩) (.of main_arg1 : StableHlo.TRef sig ⟨S1600000, .i32⟩) (.of main_call2_v4 : StableHlo.TRef sig ⟨S1600000, .i32⟩) select,
    StableHlo.TRef.unary main_call2_call0.v0 (.of main_call2_v5 : StableHlo.TRef sig ⟨S1600000x1, .i32⟩) (broadcastInDim S1600000x1 ![0] bcast_S1600000_S1600000x1_0) ]

/-- Its next ten operations: per edge, whether the wrapped index is a node's. -/
abbrev maskOps0 : List (HloOp τ sig (Elt Ideal)) :=
  [ StableHlo.TRef.nullary (.of main_call2_c_1 : StableHlo.TRef sig ⟨S1, .i32⟩) (constantI S1 32 99999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S1600000x1, .i32⟩) (broadcastInDim S1600000x1 ![] bcast_S_S1600000x1),
    StableHlo.TRef.binary (.of main_call2_v5 : StableHlo.TRef sig ⟨S1600000x1, .i32⟩) (.of main_call2_v6 : StableHlo.TRef sig ⟨S1600000x1, .i32⟩) (.of main_call2_v7 : StableHlo.TRef sig ⟨S1600000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S1600000x1, .i32⟩) (broadcastInDim S1600000x1 ![0, 1] bcast_S1x1_S1600000x1_0_1),
    StableHlo.TRef.binary (.of main_call2_v5 : StableHlo.TRef sig ⟨S1600000x1, .i32⟩) (.of main_call2_v9 : StableHlo.TRef sig ⟨S1600000x1, .i32⟩) (.of main_call2_v10 : StableHlo.TRef sig ⟨S1600000x1, .i1⟩) (cmpi .sle),
    StableHlo.TRef.binary (.of main_call2_v7 : StableHlo.TRef sig ⟨S1600000x1, .i1⟩) (.of main_call2_v10 : StableHlo.TRef sig ⟨S1600000x1, .i1⟩) (.of main_call2_v11 : StableHlo.TRef sig ⟨S1600000x1, .i1⟩) andi,
    StableHlo.TRef.nullary (.of main_call2_c_3 : StableHlo.TRef sig ⟨S_, .i1⟩) (constantI S_ 1 1#1),
    StableHlo.TRef.binary (.of main_call2_v11 : StableHlo.TRef sig ⟨S1600000x1, .i1⟩) (.of main_call2_c_3 : StableHlo.TRef sig ⟨S_, .i1⟩) (.of main_call2_v12 : StableHlo.TRef sig ⟨S1600000, .i1⟩) (fun x v => Host.reduce IntOp.andi x v reducesTo_S1600000x1_S1600000_d1 h_S_) ]

/-- Its last five operations: the gathered rows, kept where the index is a node's and filled elsewhere. -/
abbrev pickOps0 : List (HloOp τ sig (Elt Ideal)) :=
  [ StableHlo.TRef.binary (.of main_v16 : StableHlo.TRef sig ⟨S100000x128, .f32⟩) (.of main_call2_v5 : StableHlo.TRef sig ⟨S1600000x1, .i32⟩) (.of main_call2_v13 : StableHlo.TRef sig ⟨S1600000x128, .f32⟩) (fun x i => Host.gather gather_S100000x128_S1600000x1_S1600000x128_1_0_n_n_0_1_1128 x i),
    StableHlo.TRef.unary (.of main_call2_v12 : StableHlo.TRef sig ⟨S1600000, .i1⟩) (.of main_call2_v14 : StableHlo.TRef sig ⟨S1600000x128, .i1⟩) (broadcastInDim S1600000x128 ![0] bcast_S1600000_S1600000x128_0),
    StableHlo.TRef.nullary (.of main_call2_cst : StableHlo.TRef sig ⟨S_, .f32⟩) (constant (F := Ideal) S_ .f32 0x7FC00000#32),
    StableHlo.TRef.unary (.of main_call2_cst : StableHlo.TRef sig ⟨S_, .f32⟩) (.of main_call2_v15 : StableHlo.TRef sig ⟨S1600000x128, .f32⟩) (broadcastInDim S1600000x128 ![] bcast_S_S1600000x128),
    StableHlo.TRef.ternary (.of main_call2_v14 : StableHlo.TRef sig ⟨S1600000x128, .i1⟩) (.of main_call2_v13 : StableHlo.TRef sig ⟨S1600000x128, .f32⟩) (.of main_call2_v15 : StableHlo.TRef sig ⟨S1600000x128, .f32⟩) (.of main_v17 : StableHlo.TRef sig ⟨S1600000x128, .f32⟩) select ]

/-- The step's operations are the three stretches in a row. -/
theorem ops0_eq : (hostOps0_5 (F := Ideal)) = wrapOps0 ++ maskOps0 ++ pickOps0 := rfl

/-- The first stretch leaves the wrapped index column of the source indices it found. -/
theorem wrap0_read (W : Valuation τ sig (Elt Ideal)) :
    StableHlo.after wrapOps0 W (Proc.devRef .tc main_call2_v5) = kIdx (W (Proc.devRef .tc main_arg1)) := by
  after_results
  simp only [TRef.ofBuf, TRef.toBuf, cast_eq]
  rfl

/-- The first stretch does not write the features. -/
theorem wrap0_keeps (W : Valuation τ sig (Elt Ideal)) :
    StableHlo.after wrapOps0 W (Proc.devRef .tc main_v16) = W (Proc.devRef .tc main_v16) := by
  after_results

/-- The second stretch leaves the mask of the index column it found. -/
theorem mask0_read (W : Valuation τ sig (Elt Ideal)) :
    StableHlo.after maskOps0 W (Proc.devRef .tc main_call2_v12) = kMask (W (Proc.devRef .tc main_call2_v5)) := by
  after_results
  simp only [TRef.ofBuf, TRef.toBuf, cast_eq]
  rfl

/-- The second stretch writes neither the index column nor the features. -/
theorem mask0_keeps_idx (W : Valuation τ sig (Elt Ideal)) :
    StableHlo.after maskOps0 W (Proc.devRef .tc main_call2_v5) = W (Proc.devRef .tc main_call2_v5) := by
  after_results

theorem mask0_keeps (W : Valuation τ sig (Elt Ideal)) :
    StableHlo.after maskOps0 W (Proc.devRef .tc main_v16) = W (Proc.devRef .tc main_v16) := by
  after_results

/-- The third stretch leaves the select of the gathered rows and the fill value under the mask it found. -/
theorem pick0_read (W : Valuation τ sig (Elt Ideal)) :
    StableHlo.after pickOps0 W (Proc.devRef .tc main_v17)
      = select (broadcastInDim S1600000x128 ![0] bcast_S1600000_S1600000x128_0 (W (Proc.devRef .tc main_call2_v12)))
          (Host.gather gather_S100000x128_S1600000x1_S1600000x128_1_0_n_n_0_1_1128 (W (Proc.devRef .tc main_v16))
            (W (Proc.devRef .tc main_call2_v5)))
          (broadcastInDim S1600000x128 ![] bcast_S_S1600000x128 (constant (F := Ideal) S_ .f32 0x7FC00000#32)) := by
  after_results
  simp only [TRef.ofBuf, TRef.toBuf, cast_eq]

/-- The first aggregation's gather step. -/
theorem take0 (W : Valuation τ sig (Elt Ideal)) :
    StableHlo.after (hostOps0_5 (F := Ideal)) W (Proc.devRef .tc main_v17)
      = kTake (W (Proc.devRef .tc main_v16)) (W (Proc.devRef .tc main_arg1)) := by
  rw [ops0_eq, StableHlo.after_append, StableHlo.after_append, pick0_read, mask0_read, mask0_keeps_idx, mask0_keeps,
    wrap0_read, wrap0_keeps]
  rfl

/-! ## The second aggregation's gather step -/

/-- Its first eight operations: the wrapped source indices as a column. -/
abbrev wrapOps1 : List (HloOp τ sig (Elt Ideal)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S1600000, .i32⟩) (broadcastInDim S1600000 ![] bcast_S_S1600000),
    StableHlo.TRef.binary (.of main_arg1 : StableHlo.TRef sig ⟨S1600000, .i32⟩) (.of main_call3_v0 : StableHlo.TRef sig ⟨S1600000, .i32⟩) (.of main_call3_v1 : StableHlo.TRef sig ⟨S1600000, .i1⟩) (cmpi .slt),
    StableHlo.TRef.nullary (.of main_call3_c_0 : StableHlo.TRef sig ⟨S_, .i32⟩) (constantI S_ 32 100000#32),
    StableHlo.TRef.unary (.of main_call3_c_0 : StableHlo.TRef sig ⟨S_, .i32⟩) (.of main_call3_v2 : StableHlo.TRef sig ⟨S1600000, .i32⟩) (broadcastInDim S1600000 ![] bcast_S_S1600000),
    StableHlo.TRef.binary (.of main_arg1 : StableHlo.TRef sig ⟨S1600000, .i32⟩) (.of main_call3_v2 : StableHlo.TRef sig ⟨S1600000, .i32⟩) (.of main_call3_v3 : StableHlo.TRef sig ⟨S1600000, .i32⟩) addi,
    StableHlo.TRef.ternary (.of main_call3_v1 : StableHlo.TRef sig ⟨S1600000, .i1⟩) (.of main_call3_v3 : StableHlo.TRef sig ⟨S1600000, .i32⟩) (.of main_arg1 : StableHlo.TRef sig ⟨S1600000, .i32⟩) (.of main_call3_v4 : StableHlo.TRef sig ⟨S1600000, .i32⟩) select,
    StableHlo.TRef.unary main_call3_call0.v0 (.of main_call3_v5 : StableHlo.TRef sig ⟨S1600000x1, .i32⟩) (broadcastInDim S1600000x1 ![0] bcast_S1600000_S1600000x1_0) ]

/-- Its next ten operations: per edge, whether the wrapped index is a node's. -/
abbrev maskOps1 : List (HloOp τ sig (Elt Ideal)) :=
  [ StableHlo.TRef.nullary (.of main_call3_c_1 : StableHlo.TRef sig ⟨S1, .i32⟩) (constantI S1 32 99999#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S1600000x1, .i32⟩) (broadcastInDim S1600000x1 ![] bcast_S_S1600000x1),
    StableHlo.TRef.binary (.of main_call3_v5 : StableHlo.TRef sig ⟨S1600000x1, .i32⟩) (.of main_call3_v6 : StableHlo.TRef sig ⟨S1600000x1, .i32⟩) (.of main_call3_v7 : StableHlo.TRef sig ⟨S1600000x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S1600000x1, .i32⟩) (broadcastInDim S1600000x1 ![0, 1] bcast_S1x1_S1600000x1_0_1),
    StableHlo.TRef.binary (.of main_call3_v5 : StableHlo.TRef sig ⟨S1600000x1, .i32⟩) (.of main_call3_v9 : StableHlo.TRef sig ⟨S1600000x1, .i32⟩) (.of main_call3_v10 : StableHlo.TRef sig ⟨S1600000x1, .i1⟩) (cmpi .sle),
    StableHlo.TRef.binary (.of main_call3_v7 : StableHlo.TRef sig ⟨S1600000x1, .i1⟩) (.of main_call3_v10 : StableHlo.TRef sig ⟨S1600000x1, .i1⟩) (.of main_call3_v11 : StableHlo.TRef sig ⟨S1600000x1, .i1⟩) andi,
    StableHlo.TRef.nullary (.of main_call3_c_3 : StableHlo.TRef sig ⟨S_, .i1⟩) (constantI S_ 1 1#1),
    StableHlo.TRef.binary (.of main_call3_v11 : StableHlo.TRef sig ⟨S1600000x1, .i1⟩) (.of main_call3_c_3 : StableHlo.TRef sig ⟨S_, .i1⟩) (.of main_call3_v12 : StableHlo.TRef sig ⟨S1600000, .i1⟩) (fun x v => Host.reduce IntOp.andi x v reducesTo_S1600000x1_S1600000_d1 h_S_) ]

/-- Its last five operations: the gathered rows, kept where the index is a node's and filled elsewhere. -/
abbrev pickOps1 : List (HloOp τ sig (Elt Ideal)) :=
  [ StableHlo.TRef.binary (.of main_v21 : StableHlo.TRef sig ⟨S100000x128, .f32⟩) (.of main_call3_v5 : StableHlo.TRef sig ⟨S1600000x1, .i32⟩) (.of main_call3_v13 : StableHlo.TRef sig ⟨S1600000x128, .f32⟩) (fun x i => Host.gather gather_S100000x128_S1600000x1_S1600000x128_1_0_n_n_0_1_1128 x i),
    StableHlo.TRef.unary (.of main_call3_v12 : StableHlo.TRef sig ⟨S1600000, .i1⟩) (.of main_call3_v14 : StableHlo.TRef sig ⟨S1600000x128, .i1⟩) (broadcastInDim S1600000x128 ![0] bcast_S1600000_S1600000x128_0),
    StableHlo.TRef.nullary (.of main_call3_cst : StableHlo.TRef sig ⟨S_, .f32⟩) (constant (F := Ideal) S_ .f32 0x7FC00000#32),
    StableHlo.TRef.unary (.of main_call3_cst : StableHlo.TRef sig ⟨S_, .f32⟩) (.of main_call3_v15 : StableHlo.TRef sig ⟨S1600000x128, .f32⟩) (broadcastInDim S1600000x128 ![] bcast_S_S1600000x128),
    StableHlo.TRef.ternary (.of main_call3_v14 : StableHlo.TRef sig ⟨S1600000x128, .i1⟩) (.of main_call3_v13 : StableHlo.TRef sig ⟨S1600000x128, .f32⟩) (.of main_call3_v15 : StableHlo.TRef sig ⟨S1600000x128, .f32⟩) (.of main_v22 : StableHlo.TRef sig ⟨S1600000x128, .f32⟩) select ]

/-- The step's operations are the three stretches in a row. -/
theorem ops1_eq : (hostOps1 (F := Ideal)) = wrapOps1 ++ maskOps1 ++ pickOps1 := rfl

/-- The first stretch leaves the wrapped index column of the source indices it found. -/
theorem wrap1_read (W : Valuation τ sig (Elt Ideal)) :
    StableHlo.after wrapOps1 W (Proc.devRef .tc main_call3_v5) = kIdx (W (Proc.devRef .tc main_arg1)) := by
  after_results
  simp only [TRef.ofBuf, TRef.toBuf, cast_eq]
  rfl

/-- The first stretch does not write the features. -/
theorem wrap1_keeps (W : Valuation τ sig (Elt Ideal)) :
    StableHlo.after wrapOps1 W (Proc.devRef .tc main_v21) = W (Proc.devRef .tc main_v21) := by
  after_results

/-- The second stretch leaves the mask of the index column it found. -/
theorem mask1_read (W : Valuation τ sig (Elt Ideal)) :
    StableHlo.after maskOps1 W (Proc.devRef .tc main_call3_v12) = kMask (W (Proc.devRef .tc main_call3_v5)) := by
  after_results
  simp only [TRef.ofBuf, TRef.toBuf, cast_eq]
  rfl

/-- The second stretch writes neither the index column nor the features. -/
theorem mask1_keeps_idx (W : Valuation τ sig (Elt Ideal)) :
    StableHlo.after maskOps1 W (Proc.devRef .tc main_call3_v5) = W (Proc.devRef .tc main_call3_v5) := by
  after_results

theorem mask1_keeps (W : Valuation τ sig (Elt Ideal)) :
    StableHlo.after maskOps1 W (Proc.devRef .tc main_v21) = W (Proc.devRef .tc main_v21) := by
  after_results

/-- The third stretch leaves the select of the gathered rows and the fill value under the mask it found. -/
theorem pick1_read (W : Valuation τ sig (Elt Ideal)) :
    StableHlo.after pickOps1 W (Proc.devRef .tc main_v22)
      = select (broadcastInDim S1600000x128 ![0] bcast_S1600000_S1600000x128_0 (W (Proc.devRef .tc main_call3_v12)))
          (Host.gather gather_S100000x128_S1600000x1_S1600000x128_1_0_n_n_0_1_1128 (W (Proc.devRef .tc main_v21))
            (W (Proc.devRef .tc main_call3_v5)))
          (broadcastInDim S1600000x128 ![] bcast_S_S1600000x128 (constant (F := Ideal) S_ .f32 0x7FC00000#32)) := by
  after_results
  simp only [TRef.ofBuf, TRef.toBuf, cast_eq]

/-- The second aggregation's gather step. -/
theorem take1 (W : Valuation τ sig (Elt Ideal)) :
    StableHlo.after (hostOps1 (F := Ideal)) W (Proc.devRef .tc main_v22)
      = kTake (W (Proc.devRef .tc main_v21)) (W (Proc.devRef .tc main_arg1)) := by
  rw [ops1_eq, StableHlo.after_append, StableHlo.after_append, pick1_read, mask1_read, mask1_keeps_idx, mask1_keeps,
    wrap1_read, wrap1_keeps]
  rfl

/-! ## The third aggregation's gather step -/

/-- Its first eight operations: the wrapped source indices as a column. -/
abbrev wrapOps2 : List (HloOp τ sig (Elt Ideal)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S1600000, .i32⟩) (broadcastInDim S1600000 ![] bcast_S_S1600000),
    StableHlo.TRef.binary (.of main_arg1 : StableHlo.TRef sig ⟨S1600000, .i32⟩) (.of main_call4_v0 : StableHlo.TRef sig ⟨S1600000, .i32⟩) (.of main_call4_v1 : StableHlo.TRef sig ⟨S1600000, .i1⟩) (cmpi .slt),
    StableHlo.TRef.nullary (.of main_call4_c_0 : StableHlo.TRef sig ⟨S_, .i32⟩) (constantI S_ 32 100000#32),
    StableHlo.TRef.unary (.of main_call4_c_0 : StableHlo.TRef sig ⟨S_, .i32⟩) (.of main_call4_v2 : StableHlo.TRef sig ⟨S1600000, .i32⟩) (broadcastInDim S1600000 ![] bcast_S_S1600000),
    StableHlo.TRef.binary (.of main_arg1 : StableHlo.TRef sig ⟨S1600000, .i32⟩) (.of main_call4_v2 : StableHlo.TRef sig ⟨S1600000, .i32⟩) (.of main_call4_v3 : StableHlo.TRef sig ⟨S1600000, .i32⟩) addi,
    StableHlo.TRef.ternary (.of main_call4_v1 : StableHlo.TRef sig ⟨S1600000, .i1⟩) (.of main_call4_v3 : StableHlo.TRef sig ⟨S1600000, .i32⟩) (.of main_arg1 : StableHlo.TRef sig ⟨S1600000, .i32⟩) (.of main_call4_v4 : StableHlo.TRef sig ⟨S1600000, .i32⟩) select,
    StableHlo.TRef.unary main_call4_call0.v0 (.of main_call4_v5 : StableHlo.TRef sig ⟨S1600000x1, .i32⟩) (broadcastInDim S1600000x1 ![0] bcast_S1600000_S1600000x1_0) ]

/-- Its next ten operations: per edge, whether the wrapped index is a node's. -/
abbrev maskOps2 : List (HloOp τ sig (Elt Ideal)) :=
  [ StableHlo.TRef.nullary (.of main_call4_c_1 : StableHlo.TRef sig ⟨S1, .i32⟩) (constantI S1 32 99999#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S1600000x1, .i32⟩) (broadcastInDim S1600000x1 ![] bcast_S_S1600000x1),
    StableHlo.TRef.binary (.of main_call4_v5 : StableHlo.TRef sig ⟨S1600000x1, .i32⟩) (.of main_call4_v6 : StableHlo.TRef sig ⟨S1600000x1, .i32⟩) (.of main_call4_v7 : StableHlo.TRef sig ⟨S1600000x1, .i1⟩) (cmpi .sge),
    StableHlo.TRef.unary (.of main_call4_c_1 : StableHlo.TRef sig ⟨S1, .i32⟩) (.of main_call4_v8 : StableHlo.TRef sig ⟨S1x1, .i32⟩) (broadcastInDim S1x1 ![1] bcast_S1_S1x1_1),
    StableHlo.TRef.unary (.of main_call4_v8 : StableHlo.TRef sig ⟨S1x1, .i32⟩) (.of main_call4_v9 : StableHlo.TRef sig ⟨S1600000x1, .i32⟩) (broadcastInDim S1600000x1 ![0, 1] bcast_S1x1_S1600000x1_0_1),
    StableHlo.TRef.binary (.of main_call4_v5 : StableHlo.TRef sig ⟨S1600000x1, .i32⟩) (.of main_call4_v9 : StableHlo.TRef sig ⟨S1600000x1, .i32⟩) (.of main_call4_v10 : StableHlo.TRef sig ⟨S1600000x1, .i1⟩) (cmpi .sle),
    StableHlo.TRef.binary (.of main_call4_v7 : StableHlo.TRef sig ⟨S1600000x1, .i1⟩) (.of main_call4_v10 : StableHlo.TRef sig ⟨S1600000x1, .i1⟩) (.of main_call4_v11 : StableHlo.TRef sig ⟨S1600000x1, .i1⟩) andi,
    StableHlo.TRef.nullary (.of main_call4_c_3 : StableHlo.TRef sig ⟨S_, .i1⟩) (constantI S_ 1 1#1),
    StableHlo.TRef.binary (.of main_call4_v11 : StableHlo.TRef sig ⟨S1600000x1, .i1⟩) (.of main_call4_c_3 : StableHlo.TRef sig ⟨S_, .i1⟩) (.of main_call4_v12 : StableHlo.TRef sig ⟨S1600000, .i1⟩) (fun x v => Host.reduce IntOp.andi x v reducesTo_S1600000x1_S1600000_d1 h_S_) ]

/-- Its last five operations: the gathered rows, kept where the index is a node's and filled elsewhere. -/
abbrev pickOps2 : List (HloOp τ sig (Elt Ideal)) :=
  [ StableHlo.TRef.binary (.of main_v26 : StableHlo.TRef sig ⟨S100000x128, .f32⟩) (.of main_call4_v5 : StableHlo.TRef sig ⟨S1600000x1, .i32⟩) (.of main_call4_v13 : StableHlo.TRef sig ⟨S1600000x128, .f32⟩) (fun x i => Host.gather gather_S100000x128_S1600000x1_S1600000x128_1_0_n_n_0_1_1128 x i),
    StableHlo.TRef.unary (.of main_call4_v12 : StableHlo.TRef sig ⟨S1600000, .i1⟩) (.of main_call4_v14 : StableHlo.TRef sig ⟨S1600000x128, .i1⟩) (broadcastInDim S1600000x128 ![0] bcast_S1600000_S1600000x128_0),
    StableHlo.TRef.nullary (.of main_call4_cst : StableHlo.TRef sig ⟨S_, .f32⟩) (constant (F := Ideal) S_ .f32 0x7FC00000#32),
    StableHlo.TRef.unary (.of main_call4_cst : StableHlo.TRef sig ⟨S_, .f32⟩) (.of main_call4_v15 : StableHlo.TRef sig ⟨S1600000x128, .f32⟩) (broadcastInDim S1600000x128 ![] bcast_S_S1600000x128),
    StableHlo.TRef.ternary (.of main_call4_v14 : StableHlo.TRef sig ⟨S1600000x128, .i1⟩) (.of main_call4_v13 : StableHlo.TRef sig ⟨S1600000x128, .f32⟩) (.of main_call4_v15 : StableHlo.TRef sig ⟨S1600000x128, .f32⟩) (.of main_v27 : StableHlo.TRef sig ⟨S1600000x128, .f32⟩) select ]

/-- The step's operations are the three stretches in a row. -/
theorem ops2_eq : (hostOps2 (F := Ideal)) = wrapOps2 ++ maskOps2 ++ pickOps2 := rfl

/-- The first stretch leaves the wrapped index column of the source indices it found. -/
theorem wrap2_read (W : Valuation τ sig (Elt Ideal)) :
    StableHlo.after wrapOps2 W (Proc.devRef .tc main_call4_v5) = kIdx (W (Proc.devRef .tc main_arg1)) := by
  after_results
  simp only [TRef.ofBuf, TRef.toBuf, cast_eq]
  rfl

/-- The first stretch does not write the features. -/
theorem wrap2_keeps (W : Valuation τ sig (Elt Ideal)) :
    StableHlo.after wrapOps2 W (Proc.devRef .tc main_v26) = W (Proc.devRef .tc main_v26) := by
  after_results

/-- The second stretch leaves the mask of the index column it found. -/
theorem mask2_read (W : Valuation τ sig (Elt Ideal)) :
    StableHlo.after maskOps2 W (Proc.devRef .tc main_call4_v12) = kMask (W (Proc.devRef .tc main_call4_v5)) := by
  after_results
  simp only [TRef.ofBuf, TRef.toBuf, cast_eq]
  rfl

/-- The second stretch writes neither the index column nor the features. -/
theorem mask2_keeps_idx (W : Valuation τ sig (Elt Ideal)) :
    StableHlo.after maskOps2 W (Proc.devRef .tc main_call4_v5) = W (Proc.devRef .tc main_call4_v5) := by
  after_results

theorem mask2_keeps (W : Valuation τ sig (Elt Ideal)) :
    StableHlo.after maskOps2 W (Proc.devRef .tc main_v26) = W (Proc.devRef .tc main_v26) := by
  after_results

/-- The third stretch leaves the select of the gathered rows and the fill value under the mask it found. -/
theorem pick2_read (W : Valuation τ sig (Elt Ideal)) :
    StableHlo.after pickOps2 W (Proc.devRef .tc main_v27)
      = select (broadcastInDim S1600000x128 ![0] bcast_S1600000_S1600000x128_0 (W (Proc.devRef .tc main_call4_v12)))
          (Host.gather gather_S100000x128_S1600000x1_S1600000x128_1_0_n_n_0_1_1128 (W (Proc.devRef .tc main_v26))
            (W (Proc.devRef .tc main_call4_v5)))
          (broadcastInDim S1600000x128 ![] bcast_S_S1600000x128 (constant (F := Ideal) S_ .f32 0x7FC00000#32)) := by
  after_results
  simp only [TRef.ofBuf, TRef.toBuf, cast_eq]

/-- The third aggregation's gather step. -/
theorem take2 (W : Valuation τ sig (Elt Ideal)) :
    StableHlo.after (hostOps2 (F := Ideal)) W (Proc.devRef .tc main_v27)
      = kTake (W (Proc.devRef .tc main_v26)) (W (Proc.devRef .tc main_arg1)) := by
  rw [ops2_eq, StableHlo.after_append, StableHlo.after_append, pick2_read, mask2_read, mask2_keeps_idx, mask2_keeps,
    wrap2_read, wrap2_keeps]
  rfl

end Cert.GConv.KTake

end
-- ==== Proof.KerTerms.lean ====
/-
  The kernel program's host-side terms: the degree-scale columns, the scaled input features, the aggregation step.
-/
import proofs.«410822_j78529182040196_1_alg».proof.Proof.KerTake

noncomputable section

namespace Cert.GConv.KHost

open Cert.KernelIdeal Cert.KernelIdeal.Gen Cert.GConv.KTake
open Idealize.ShloMosaic Idealize.ShloMosaic.TcCoe

/-- The clamped degrees: the number of edges at each node (ones added up at the edges' indices), at least one. -/
def degK (idx : IVec S1600000 32) : FVec Ideal S100000 .f32 :=
  maximumf
    (broadcastInDim S100000 ![] bcast_S_S100000 (id (constant (F := Ideal) S_ .f32 0x3F800000#32)))
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 idx)
      (broadcastInDim S1600000 ![] bcast_S_S1600000 (constant (F := Ideal) S_ .f32 0x3F800000#32)))

/-- Degrees to the power −1/2, as a column. -/
def colOf (d : FVec Ideal S100000 .f32) : FVec Ideal S100000x1 .f32 :=
  fun i => shapeCast S100000x1
    (Host.powf d (broadcastInDim S100000 ![] bcast_S_S100000 (constant (F := Ideal) S_ .f32 0xBF000000#32)))
    shapeCasts_S100000_S100000x1 i

/-- A column of degree scales: the clamped degrees at the given edge indices, to the power −1/2. -/
def kCol (idx : IVec S1600000 32) : FVec Ideal S100000x1 .f32 := colOf (degK idx)

/-- The input features scaled, row by row, by the out-degree scale. -/
def kH0 (x0 : FVec Ideal S100000x128 .f32) (src : IVec S1600000 32) : FVec Ideal S100000x128 .f32 :=
  mulf x0 (broadcastInDim S100000x128 ![0, 1] bcast_S100000x1_S100000x128_0_1 (kCol src))

/-- The program's aggregation step: the rows of `h` taken at the edges' sources, added into the edges' targets from a
    zero array. -/
def kAgg (src dst : IVec S1600000 32) (h : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst) (kTake h src)

end Cert.GConv.KHost

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.RegionRelu0.lean ====
/-
  The first hidden layer's region: what its output array holds when the region ends.

  At grid point t the kernel body reads rows 2000 t … 2000 t + 1999 of the aggregated features, of the in-degree
  scales and of the out-degree scales, the whole weight matrix and the whole bias, and stores into the same rows of the
  output the rectified linear part scaled by the out-degree scale. The reading goes in three steps: the stored value at
  one index of a block is the hidden layer's entry of the loaded blocks (the format changes are the identity on the
  extended reals, the product into a zero accumulator is a plain sum); a block's entry is the whole arrays' entry at the
  row the block's rectangle names, because an entry reads its own row only; the fifty blocks tile the array, row r lying
  in block r / 2000.
-/
import proofs.«410822_j78529182040196_1_alg».proof.Proof.Gen.KernelIdeal.Frame
import proofs.«410822_j78529182040196_1_alg».proof.Proof.Spec
import proofs.«410822_j78529182040196_1_alg».proof.Proof.LibDot
import Idealize.ShloMosaic.Lib.Pipeline.Value
import Idealize.ShloMosaic.Lib.ValueLayout

set_option maxRecDepth 16384

noncomputable section

namespace Cert.GConv.Region0

open Cert.KernelIdeal Cert.KernelIdeal.Gen Cert.GConv
open Idealize.ShloMosaic Idealize.ShloMosaic.TcCoe Idealize.ShloMosaic.ValueIdx
open Idealize.SL.Sem
open Idealize.ShloMosaic.Pipeline (Dat Cfg Window)

/-! ## The stored value at one index of a block -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at row `p`, column `q` of a block is the hidden layer's entry of the loaded blocks: the
    scaled features times the weights, summed over the feature axis, plus the bias, rectified, times the out-degree
    scale. -/
theorem pay_at (x0 : Vec Ideal S2000x128 .f32) (x1 x2 : Vec Ideal S2000x1 .f32) (x3 : Vec Ideal S128x128 .f32)
    (x4 : Vec Ideal S128 .f32) (p : Fin 2000) (q : Fin 128) :
    k0_pay1 x0 x1 x2 x3 x4 (ix2 p q) = reluAt x0 x1 x2 x3 x4 p q := by
  unfold k0_pay1 reluAt lin
  simp only [matmul]
  rw [mulf_apply, maximumf_apply, addf_apply, broadcast_apply,
    Cert.LibDot.matmul_rows_apply _ rfl rfl rfl rfl rfl rfl, constant_apply, Ideal.ofBits_zero_f32, zero_add]
  simp only [truncf_apply, mulf_apply, shapeCast_self, broadcastTo_a1_ab_apply, broadcastTo_1b_ab_apply,
    shapeCast_a_1a_apply, Ideal.ofBits_def, Ideal.ofBits_zero_f32]

/-- A block's stored value at an index `y` is the whole arrays' hidden-layer entry at an index `i` of the same column,
    when the block's row `y 0` of the features and of the two scales is the arrays' row `i 0` and the block's weights and
    bias are the arrays'. -/
theorem block_entry (agg : FVec Ideal S100000x128 .f32) (ndst nsrc : FVec Ideal S100000x1 .f32)
    (W : FVec Ideal S128x128 .f32) (b : FVec Ideal S128 .f32)
    (x0 : Vec Ideal S2000x128 .f32) (x1 x2 : Vec Ideal S2000x1 .f32) (x3 : Vec Ideal S128x128 .f32)
    (x4 : Vec Ideal S128 .f32) (y : S2000x128.Idx) (i : S100000x128.Idx)
    (h0 : ∀ k : Fin 128, x0 (ix2 (y 0) k) = agg (ix2 (i 0) k))
    (h1 : x1 (ix2 (y 0) (0 : Fin 1)) = ndst (ix2 (i 0) (0 : Fin 1)))
    (h2 : x2 (ix2 (y 0) (0 : Fin 1)) = nsrc (ix2 (i 0) (0 : Fin 1)))
    (h3 : x3 = W) (h4 : x4 = b) (hq : (y 1).val = (i 1).val) :
    k0_pay1 x0 x1 x2 x3 x4 y = reluLayer agg ndst nsrc W b i := by
  subst h3 h4
  obtain ⟨p, q, rfl⟩ : ∃ (p : Fin 2000) (q : Fin 128), y = ix2 p q := ⟨y 0, y 1, eq_ix2 y⟩
  obtain ⟨r, s, rfl⟩ : ∃ (r : Fin 100000) (s : Fin 128), i = ix2 r s := ⟨i 0, i 1, eq_ix2 i⟩
  have h0' : ∀ k : Fin 128, x0 (ix2 p k) = agg (ix2 r k) := h0
  have h1' : x1 (ix2 p (0 : Fin 1)) = ndst (ix2 r (0 : Fin 1)) := h1
  have h2' : x2 (ix2 p (0 : Fin 1)) = nsrc (ix2 r (0 : Fin 1)) := h2
  obtain rfl : s = q := Fin.ext (Eq.symm hq)
  rw [pay_at, reluLayer_apply]
  exact reluAt_congr agg ndst nsrc x0 x1 x2 x3 x4 r p h0' h1' h2' s

-- The TensorCore's buffer contents when the region is entered: every statement here holds at any such contents.
variable (V : (c : Dev nD) → (b : Ref sig .tc) → Buf (Elt Ideal) ((c : Thread nD τ).loc b))

/-! ## From the blocks to the array -/

theorem zeros2 : (![0, 0] : Fin 2 → Nat) = fun _ => 0 := funext fun a => by fin_cases a <;> rfl

theorem zeros1 : (![0] : Fin 1 → Nat) = fun _ => 0 := funext fun a => by fin_cases a <;> rfl

/-- The printed index maps, decided over the fifty grid points: the features', the two scales' and the output's block
    index is the point's number on the row axis and zero on the column axis; the weights' and the bias's is zero. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point `t` writes back is block `t` of the hidden layer of the arrays the region found. -/
theorem flushed_eq (c : Dev nD) (t : Fin cfg0.N) :
    (dat0 (F := Ideal) V c).flushed 5 t
      = ((cfg0.win 5).blk t).view.read (Elt Ideal)
          (reluLayer (V c main_v20) (V c main_v14) (V c main_v11) (V c main_arg3) (V c main_arg4)) := by
  show (cfg0.win 5).cut (grid0.coords t) ((dat0 V c).after 5 t) = _
  rw [after0_5]
  unfold out0_5
  rw [View.canon_unit_zero zeros2]
  simp only [View.ld_unit_zero (S := S2000x128) zeros2, View.ld_unit_zero (S := S2000x1) zeros2,
    View.ld_unit_zero (S := S128x128) zeros2, View.ld_unit_zero (S := S128) zeros1]
  obtain ⟨e00, e01, e10, e11, e20, e21, e30, e31, e40, e50, e51⟩ := block_indices t
  funext j
  show k0_pay1 (iblk0 V c 0 t) (iblk0 V c 1 t) (iblk0 V c 2 t) (iblk0 V c 3 t) (iblk0 V c 4 t)
        ((cfg0.win 5).xinj (grid0.coords t) j)
      = reluLayer (V c main_v20) (V c main_v14) (V c main_v11) (V c main_arg3) (V c main_arg4)
        (((cfg0.win 5).blk t).view.emb j)
  refine block_entry _ _ _ _ _ _ _ _ _ _ _ _ ?_ ?_ ?_ ?_ ?_ ?_
  · intro k
    show V c main_v20 (((cfg0.win 0).blk t).view.emb (ix2 ((cfg0.win 5).xinj (grid0.coords t) j 0) k)) = V c main_v20 _
    refine congrArg _ (funext fun a => Fin.ext ?_)
    match a with
    | ⟨0, _⟩ =>
      show win0_0.index t (0 : Fin 2) * 2000 + 1 * (j 0).val = win0_5.index t (0 : Fin 2) * 2000 + 1 * (j 0).val
      rw [e00, e50]
    | ⟨1, _⟩ =>
      show win0_0.index t (1 : Fin 2) * 128 + 1 * k.val = k.val
      rw [e01]; omega
  · show V c main_v14 (((cfg0.win 1).blk t).view.emb (ix2 ((cfg0.win 5).xinj (grid0.coords t) j 0) (0 : Fin 1)))
      = V c main_v14 _
    refine congrArg _ (funext fun a => Fin.ext ?_)
    match a with
    | ⟨0, _⟩ =>
      show win0_1.index t (0 : Fin 2) * 2000 + 1 * (j 0).val = win0_5.index t (0 : Fin 2) * 2000 + 1 * (j 0).val
      rw [e10, e50]
    | ⟨1, _⟩ =>
      show win0_1.index t (1 : Fin 2) * 1 + 1 * 0 = 0
      rw [e11]
  · show V c main_v11 (((cfg0.win 2).blk t).view.emb (ix2 ((cfg0.win 5).xinj (grid0.coords t) j 0) (0 : Fin 1)))
      = V c main_v11 _
    refine congrArg _ (funext fun a => Fin.ext ?_)
    match a with
    | ⟨0, _⟩ =>
      show win0_2.index t (0 : Fin 2) * 2000 + 1 * (j 0).val = win0_5.index t (0 : Fin 2) * 2000 + 1 * (j 0).val
      rw [e20, e50]
    | ⟨1, _⟩ =>
      show win0_2.index t (1 : Fin 2) * 1 + 1 * 0 = 0
      rw [e21]
  · funext y
    show V c main_arg3 (((cfg0.win 3).blk t).view.emb y) = V c main_arg3 y
    refine congrArg _ (funext fun a => Fin.ext ?_)
    match a with
    | ⟨0, _⟩ =>
      show win0_3.index t (0 : Fin 2) * 128 + 1 * (y 0).val = (y 0).val
      rw [e30]; omega
    | ⟨1, _⟩ =>
      show win0_3.index t (1 : Fin 2) * 128 + 1 * (y 1).val = (y 1).val
      rw [e31]; omega
  · funext y
    show V c main_arg4 (((cfg0.win 4).blk t).view.emb y) = V c main_arg4 y
    refine congrArg _ (funext fun a => Fin.ext ?_)
    match a with
    | ⟨0, _⟩ =>
      show win0_4.index t (0 : Fin 1) * 128 + 1 * (y 0).val = (y 0).val
      rw [e40]; omega
  · show (j 1).val = win0_5.index t (1 : Fin 2) * 128 + 1 * (j 1).val
    rw [e51]; omega

/-- A row-and-column index of the array lies in point `t`'s block exactly when each coordinate lies in the block's range
    on its axis. -/
theorem mem_blk (t : Fin cfg0.N) (i : S100000x128.Idx) :
    i ∈ ((cfg0.win 5).blk t).view.set
      ↔ ∀ a : Fin 2, win0_5.index t a * S2000x128.size a ≤ (i a).val
          ∧ (i a).val < win0_5.index t a * S2000x128.size a + S2000x128.size a := by
  show i ∈ ((View.whole main_v21).slice (win0_5.rect t)).set ↔ _
  rw [View.set_slice_whole, Rect.mem_set_unit]
  exact Iff.rfl

/-- The fifty blocks tile the array: row `r` lies in the block of point `r / 2000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by rw [hN]; omega⟩, rfl⟩
  refine ⟨t, flush0_5 t, ?_⟩
  rw [mem_blk]
  obtain ⟨-, -, -, -, -, -, -, -, -, e50, e51⟩ := block_indices t
  intro a
  match a with
  | ⟨0, _⟩ =>
    show win0_5.index t (0 : Fin 2) * 2000 ≤ (i 0).val ∧ (i 0).val < win0_5.index t (0 : Fin 2) * 2000 + 2000
    rw [e50, ht]; omega
  | ⟨1, _⟩ =>
    show win0_5.index t (1 : Fin 2) * 128 ≤ (i 1).val ∧ (i 1).val < win0_5.index t (1 : Fin 2) * 128 + 128
    rw [e51]; omega

/-- After the first layer's region the output array is the hidden layer of the arrays the region found. -/
theorem region0_value (c : Dev nD) :
    (dat0 (F := Ideal) V c).arrAt 5 cfg0.N
      = reluLayer (V c main_v20) (V c main_v14) (V c main_v11) (V c main_arg3) (V c main_arg4) :=
  (dat0 (F := Ideal) V c).arrAt_eq_of_cover 5
    (reluLayer (V c main_v20) (V c main_v14) (V c main_v11) (V c main_arg3) (V c main_arg4))
    (fun t _ => flushed_eq V c t) covered

end Cert.GConv.Region0

end
-- ==== Proof.RegionRelu1.lean ====
/-
  The second hidden layer's region: what its output array holds when the region ends.

  The region runs its kernel at 50 grid points. At point t the kernel reads rows 2000 t … 2000 t + 1999 of the aggregated
  features, of the in-degree scales and of the out-degree scales, the whole weight matrix and the whole bias, and writes
  the same rows of the output: the rectified linear part, scaled row by row by the out-degree scale. An entry of the
  hidden layer depends on its own row of the features and scales only, so a block's entry is the whole array's entry at
  the row the block's row sits at; the 50 blocks tile the 100000 rows, so the array ends as the hidden layer of the
  arrays the region found.
-/
import proofs.«410822_j78529182040196_1_alg».proof.Proof.Gen.KernelIdeal.Frame
import proofs.«410822_j78529182040196_1_alg».proof.Proof.Spec
import proofs.«410822_j78529182040196_1_alg».proof.Proof.LibDot
import Idealize.ShloMosaic.Lib.Pipeline.Value
import Idealize.ShloMosaic.Lib.ValueLayout

set_option maxRecDepth 16384

noncomputable section

namespace Cert.GConv.Region1

open Cert.KernelIdeal Cert.KernelIdeal.Gen Cert.GConv
open Idealize.ShloMosaic Idealize.ShloMosaic.TcCoe Idealize.ShloMosaic.ValueIdx
open Idealize.SL.Sem
open Idealize.ShloMosaic.Pipeline (Dat Cfg Window)

/-! ## A column broadcast read at an index -/

/-- A column `[a, 1]` broadcast along its unit axis to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The kernel's payload at an index -/

/-- The linear part as the kernel computes it on a block: the features scaled row by row by the in-degree scale, times
    the weights into a zero accumulator, plus the bias row. -/
def linBlk (x0 : Vec Ideal S2000x128 .f32) (x1 : Vec Ideal S2000x1 .f32) (x3 : Vec Ideal S128x128 .f32)
    (x4 : Vec Ideal S128 .f32) : FVec Ideal S2000x128 .f32 :=
  addf
    (matmul dot_S2000x128_S128x128_S2000x128_1_0_0_1_n_n none
      (truncf .bf16 (mulf (shapeCast S2000x128 x0 shapeCasts_S2000x128_S2000x128)
        (broadcastTo S2000x128 (shapeCast S2000x1 x1 shapeCasts_S2000x1_S2000x1) broadcasts_S2000x1_S2000x128)) bitsLt_bf16_f32)
      (truncf .bf16 x3 bitsLt_bf16_f32) (constant (F := Ideal) S2000x128 .f32 0x00000000#32))
    (broadcastTo S2000x128 (shapeCast S1x128 x4 shapeCasts_S128_S1x128) broadcasts_S1x128_S2000x128)

/-- The payload is the linear part, rectified against the zero splat, times the out-degree scale's column broadcast along
    the rows. -/
theorem pay_eq (x0 : Vec Ideal S2000x128 .f32) (x1 x2 : Vec Ideal S2000x1 .f32) (x3 : Vec Ideal S128x128 .f32)
    (x4 : Vec Ideal S128 .f32) :
    k1_pay1 x0 x1 x2 x3 x4
      = mulf (maximumf (linBlk x0 x1 x3 x4) (broadcast S2000x128 (Scalar.ofBits (F := Ideal) .f32 0x00000000#32)))
          (broadcastTo S2000x128 (shapeCast S2000x1 x2 shapeCasts_S2000x1_S2000x1) broadcasts_S2000x1_S2000x128) := rfl

/-- The block's linear part at row `p`, feature `j` is the layer's. -/
theorem linBlk_apply (x0 : Vec Ideal S2000x128 .f32) (x1 : Vec Ideal S2000x1 .f32) (x3 : Vec Ideal S128x128 .f32)
    (x4 : Vec Ideal S128 .f32) (p : Fin 2000) (j : Fin 128) :
    linBlk x0 x1 x3 x4 (ix2 p j) = lin x0 x1 x3 x4 p j := by
  unfold linBlk lin
  rw [addf_apply]
  rw [show (matmul dot_S2000x128_S128x128_S2000x128_1_0_0_1_n_n none
      (truncf .bf16 (mulf (shapeCast S2000x128 x0 shapeCasts_S2000x128_S2000x128)
        (broadcastTo S2000x128 (shapeCast S2000x1 x1 shapeCasts_S2000x1_S2000x1) broadcasts_S2000x1_S2000x128)) bitsLt_bf16_f32)
      (truncf .bf16 x3 bitsLt_bf16_f32) (constant (F := Ideal) S2000x128 .f32 0x00000000#32)) (ix2 p j) = _ from
    Cert.LibDot.matmul_rows_apply dot_S2000x128_S128x128_S2000x128_1_0_0_1_n_n rfl rfl rfl rfl rfl rfl none _ _ _ p j]
  rw [constant_apply, Ideal.ofBits_zero_f32, zero_add, broadcastTo_1b_ab_apply, shapeCast_a_1a_apply]
  congr 1
  refine Finset.sum_congr rfl fun κ _ => ?_
  rw [truncf_apply, truncf_apply, mulf_apply, shapeCast_self, broadcastTo_a1_ab_apply, shapeCast_self]

/-- THE PAYLOAD AT AN INDEX: the kernel's result on a block at row `p`, feature `q` is the hidden layer's entry of the
    block's own arrays. -/
theorem pay_at (x0 : Vec Ideal S2000x128 .f32) (x1 x2 : Vec Ideal S2000x1 .f32) (x3 : Vec Ideal S128x128 .f32)
    (x4 : Vec Ideal S128 .f32) (p : Fin 2000) (q : Fin 128) :
    k1_pay1 x0 x1 x2 x3 x4 (ix2 p q) = reluAt x0 x1 x2 x3 x4 p q := by
  rw [pay_eq]
  unfold reluAt
  rw [mulf_apply, maximumf_apply, broadcast_apply, broadcastTo_a1_ab_apply, shapeCast_self, linBlk_apply]
  rfl

/-! ## From blocks to the array -/

theorem zero_off2 : (![0, 0] : Fin 2 → Nat) = fun _ => 0 := funext fun a => by fin_cases a <;> rfl
theorem zero_off1 : (![0] : Fin 1 → Nat) = fun _ => 0 := funext fun a => by fin_cases a <;> rfl

/-- The windows' block indices at grid point `t`: the features, the two scale columns and the output move along the rows
    with the point; the weights and the bias stay at block zero. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- A block's entry is the whole array's entry at the row the block's row sits at: the entry depends on its own row of
    the features and of the two scale columns only, and the weights and bias are the whole arrays. -/
theorem blk_entry {A : FVec Ideal S100000x128 .f32} {B C : FVec Ideal S100000x1 .f32} {W : FVec Ideal S128x128 .f32}
    {b : FVec Ideal S128 .f32} (x0 : Vec Ideal S2000x128 .f32) (x1 x2 : Vec Ideal S2000x1 .f32)
    (x3 : Vec Ideal S128x128 .f32) (x4 : Vec Ideal S128 .f32) (p : Fin 2000) (q : Fin 128) (r : Fin 100000)
    (h0 : ∀ k : Fin 128, x0 (ix2 p k) = A (ix2 r k)) (h1 : x1 (ix2 p 0) = B (ix2 r 0))
    (h2 : x2 (ix2 p 0) = C (ix2 r 0))
    (h3 : ∀ k j : Fin 128, x3 (ix2 k j) = W (ix2 k j)) (h4 : ∀ j : Fin 128, x4 (ix1 j) = b (ix1 j)) :
    k1_pay1 x0 x1 x2 x3 x4 (ix2 p q) = reluLayer A B C W b (ix2 r q) := by
  have e3 : x3 = W := funext fun y => by
    obtain ⟨k, j, rfl⟩ : ∃ k j : Fin 128, y = ix2 k j := ⟨y 0, y 1, eq_ix2 y⟩
    exact h3 k j
  have e4 : x4 = b := funext fun y => by
    obtain ⟨j, rfl⟩ : ∃ j : Fin 128, y = ix1 j := ⟨y 0, eq_ix1 y⟩
    exact h4 j
  subst e3 e4
  rw [pay_at, reluLayer_apply]
  exact reluAt_congr A B C x0 x1 x2 x3 x4 r p h0 h1 h2 q

-- The TensorCore's buffer contents when the region is entered: every statement here holds at any such contents.
variable (V : (c : Dev nD) → (b : Ref sig .tc) → Buf (Elt Ideal) ((c : Thread nD τ).loc b))

/-- The features' block at point `t` is rows `2000 t … 2000 t + 1999` of the array. -/
theorem agg_blk (c : Dev nD) (t : Fin cfg1.N) (p : Fin 2000) (k : Fin 128) (r : Fin 100000)
    (hr : r.val = t.val * 2000 + p.val) :
    (iblk1 V c 0 t : Vec Ideal S2000x128 .f32) (ix2 p k) = (V c main_v25 : FVec Ideal S100000x128 .f32) (ix2 r k) := by
  obtain ⟨e0, e1, -⟩ := block_index t
  unfold iblk1
  rw [View.read_apply]
  show V c main_v25 _ = V c main_v25 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- The in-degree scales' block at point `t` is rows `2000 t … 2000 t + 1999` of the column. -/
theorem ndst_blk (c : Dev nD) (t : Fin cfg1.N) (p : Fin 2000) (r : Fin 100000)
    (hr : r.val = t.val * 2000 + p.val) :
    (iblk1 V c 1 t : Vec Ideal S2000x1 .f32) (ix2 p (0 : Fin 1)) = (V c main_v14 : FVec Ideal S100000x1 .f32) (ix2 r (0 : Fin 1)) := by
  obtain ⟨-, -, e0, e1, -⟩ := block_index t
  unfold iblk1
  rw [View.read_apply]
  show V c main_v14 _ = V c main_v14 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 1 + 1 * 0 = 0; rw [e1]

/-- The out-degree scales' block at point `t` is rows `2000 t … 2000 t + 1999` of the column. -/
theorem nsrc_blk (c : Dev nD) (t : Fin cfg1.N) (p : Fin 2000) (r : Fin 100000)
    (hr : r.val = t.val * 2000 + p.val) :
    (iblk1 V c 2 t : Vec Ideal S2000x1 .f32) (ix2 p (0 : Fin 1)) = (V c main_v11 : FVec Ideal S100000x1 .f32) (ix2 r (0 : Fin 1)) := by
  obtain ⟨-, -, -, -, e0, e1, -⟩ := block_index t
  unfold iblk1
  rw [View.read_apply]
  show V c main_v11 _ = V c main_v11 _
  congr 1
  funext a
  apply Fin.ext
  match a with
  | ⟨0, _⟩ => show win1_2.index t (0 : Fin 2) * 2000 + 1 * p.val = r.val; rw [e0, hr]; omega
  | ⟨1, _⟩ => show win1_2.index t (1 : Fin 2) * 1 + 1 * 0 = 0; rw [e1]

/-- The weights' block at every point is the whole matrix. -/
theorem w_blk (c : Dev nD) (t : Fin cfg1.N) (k j : Fin 128) :
    (iblk1 V c 3 t : Vec Ideal S128x128 .f32) (ix2 k j) = (V c main_arg5 : FVec Ideal S128x128 .f32) (ix2 k j) := by
  obtain ⟨-, -, -, -, -, -, e0, e1, -⟩ := block_index t
  unfold iblk1
  rw [View.read_apply]
  show V c main_arg5 _ = V c main_arg5 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * j.val = j.val; rw [e1]; omega

/-- The bias's block at every point is the whole vector. -/
theorem b_blk (c : Dev nD) (t : Fin cfg1.N) (j : Fin 128) :
    (iblk1 V c 4 t : Vec Ideal S128 .f32) (ix1 j) = (V c main_arg6 : FVec Ideal S128 .f32) (ix1 j) := by
  obtain ⟨-, -, -, -, -, -, -, -, e0, -⟩ := block_index t
  unfold iblk1
  rw [View.read_apply]
  show V c main_arg6 _ = V c main_arg6 _
  congr 1
  funext a
  apply Fin.ext
  match a with
  | ⟨0, _⟩ => show win1_4.index t (0 : Fin 1) * 128 + 1 * j.val = j.val; rw [e0]; omega

/-- WHAT POINT `t` WRITES BACK is block `t` of the hidden layer of the arrays the region found. -/
theorem flushed_eq (c : Dev nD) (t : Fin cfg1.N) :
    (dat1 (F := Ideal) V c).flushed 5 t
      = ((cfg1.win 5).blk t).view.read (Elt Ideal)
          (reluLayer (V c main_v25) (V c main_v14) (V c main_v11) (V c main_arg5) (V c main_arg6)) := by
  show (cfg1.win 5).cut (grid1.coords t) ((dat1 V c).after 5 t) = _
  rw [after1_5]
  unfold out1_5
  rw [View.canon_unit_zero zero_off2]
  simp only [View.ld_unit_zero (S := S2000x128) zero_off2, View.ld_unit_zero (S := S2000x1) zero_off2,
    View.ld_unit_zero (S := S128x128) zero_off2, View.ld_unit_zero (S := S128) zero_off1]
  obtain ⟨-, -, -, -, -, -, -, -, -, e0, e1⟩ := block_index t
  have hN : cfg1.N = 50 := N_1
  funext y
  obtain ⟨p, q, rfl⟩ : ∃ (p : Fin 2000) (q : Fin 128), y = ix2 p q := ⟨y 0, y 1, eq_ix2 y⟩
  have hr : t.val * 2000 + p.val < 100000 := by have := t.isLt; have := p.isLt; omega
  have hemb : ((cfg1.win 5).blk t).view.emb (ix2 p q) = (ix2 (⟨t.val * 2000 + p.val, hr⟩ : Fin 100000) q : S100000x128.Idx) := by
    funext a
    apply Fin.ext
    match a with
    | ⟨0, _⟩ => show win1_5.index t (0 : Fin 2) * 2000 + 1 * p.val = t.val * 2000 + p.val; rw [e0]; omega
    | ⟨1, _⟩ => show win1_5.index t (1 : Fin 2) * 128 + 1 * q.val = q.val; rw [e1]; omega
  show k1_pay1 (iblk1 V c 0 t) (iblk1 V c 1 t) (iblk1 V c 2 t) (iblk1 V c 3 t) (iblk1 V c 4 t) (ix2 p q)
    = reluLayer (V c main_v25) (V c main_v14) (V c main_v11) (V c main_arg5) (V c main_arg6)
        (((cfg1.win 5).blk t).view.emb (ix2 p q))
  refine Eq.trans ?_
    (congrArg (reluLayer (V c main_v25) (V c main_v14) (V c main_v11) (V c main_arg5) (V c main_arg6)) hemb).symm
  exact blk_entry (iblk1 V c 0 t) (iblk1 V c 1 t) (iblk1 V c 2 t) (iblk1 V c 3 t) (iblk1 V c 4 t) p q
    ⟨t.val * 2000 + p.val, hr⟩
    (fun k => agg_blk V c t p k _ rfl) (ndst_blk V c t p _ rfl) (nsrc_blk V c t p _ rfl)
    (fun k j => w_blk V c t k j) (fun j => b_blk V c t j)

/-- An index of the output array is in point `t`'s block iff each coordinate is in the block's range on its axis. -/
theorem mem_blk (t : Fin cfg1.N) (i : S100000x128.Idx) :
    i ∈ ((cfg1.win 5).blk t).view.set
      ↔ ∀ a : Fin 2, win1_5.index t a * S2000x128.size a ≤ (i a).val
          ∧ (i a).val < win1_5.index t a * S2000x128.size a + S2000x128.size a := by
  show i ∈ ((View.whole main_v26).slice (win1_5.rect t)).set ↔ _
  rw [View.set_slice_whole, Rect.mem_set_unit]
  exact Iff.rfl

/-- The 50 blocks of 2000 rows cover the 100000 rows: row `r` is in the block of point `r / 2000`. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨-, -, -, -, -, -, -, -, -, e0, e1⟩ := block_index ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    rw [e1]
    omega

/-- After the second layer's region the output array is the hidden layer of the arrays the region found. -/
theorem region1_value (c : Dev nD) :
    (dat1 (F := Ideal) V c).arrAt 5 cfg1.N
      = reluLayer (V c main_v25) (V c main_v14) (V c main_v11) (V c main_arg5) (V c main_arg6) :=
  (dat1 (F := Ideal) V c).arrAt_eq_of_cover 5
    (reluLayer (V c main_v25) (V c main_v14) (V c main_v11) (V c main_arg5) (V c main_arg6))
    (fun t _ => flushed_eq V c t) covered

end Cert.GConv.Region1

end
-- ==== Proof.RegionFinal.lean ====
/-
  The last layer's region: what its output array holds when the region ends.

  The region runs its kernel at 50 grid points. At point t the kernel reads rows 2000 t … 2000 t + 1999 of the aggregated
  features and of the in-degree scales, the whole weight matrix and the whole bias, and writes the same rows of the
  output: the row-wise log-softmax of the linear part. An entry of the log-softmax layer depends on its own row of the
  features and scales only, so a block's entry is the whole array's entry at the row the block's row sits at; the 50
  blocks tile the 100000 rows, so the array ends as the log-softmax layer of the arrays the region found.
-/
import proofs.«410822_j78529182040196_1_alg».proof.Proof.Gen.KernelIdeal.Frame
import proofs.«410822_j78529182040196_1_alg».proof.Proof.Spec
import proofs.«410822_j78529182040196_1_alg».proof.Proof.LibDot
import Idealize.ShloMosaic.Lib.Pipeline.Value
import Idealize.ShloMosaic.Lib.ValueLayout

set_option maxRecDepth 16384

noncomputable section

namespace Cert.GConv.Region2

open Cert.KernelIdeal Cert.KernelIdeal.Gen Cert.GConv
open Idealize.ShloMosaic Idealize.ShloMosaic.TcCoe Idealize.ShloMosaic.ValueIdx
open Idealize.SL.Sem
open Idealize.ShloMosaic.Pipeline (Dat Cfg Window)

/-! ## Two column layouts read at an index -/

/-- A column `[a, 1]` broadcast along its unit axis to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The kernel's payload at an index -/

/-- The linear part as the kernel computes it on a block: the features scaled row by row, times the weights into a zero
    accumulator, plus the bias row. -/
def linBlk (x0 : Vec Ideal S2000x128 .f32) (x1 : Vec Ideal S2000x1 .f32) (x2 : Vec Ideal S128x64 .f32)
    (x3 : Vec Ideal S64 .f32) : FVec Ideal S2000x64 .f32 :=
  addf
    (matmul dot_S2000x128_S128x64_S2000x64_1_0_0_1_n_n none
      (truncf .bf16 (mulf (shapeCast S2000x128 x0 shapeCasts_S2000x128_S2000x128)
        (broadcastTo S2000x128 (shapeCast S2000x1 x1 shapeCasts_S2000x1_S2000x1) broadcasts_S2000x1_S2000x128)) bitsLt_bf16_f32)
      (truncf .bf16 x2 bitsLt_bf16_f32) (constant (F := Ideal) S2000x64 .f32 0x00000000#32))
    (broadcastTo S2000x64 (shapeCast S1x64 x3 shapeCasts_S64_S1x64) broadcasts_S1x64_S2000x64)

/-- The block's linear part less each row's maximum (the maximum folded from −∞ along the row). -/
def shiftBlk (v13 : FVec Ideal S2000x64 .f32) : FVec Ideal S2000x64 .f32 :=
  subf v13 (broadcastTo S2000x64
    (shapeCast S2000x1 (multiReduction (F := Ideal) .maximumf [1] S2000 v13 0xFF800000#32 reduces_S2000x64_S2000 (.inl rfl) rfl)
      shapeCasts_S2000_S2000x1) broadcasts_S2000x1_S2000x64)

/-- A block less, row by row, the logarithm of the row's sum of exponentials. -/
def lsmOf (v17 : FVec Ideal S2000x64 .f32) : FVec Ideal S2000x64 .f32 :=
  subf v17 (broadcastTo S2000x64
    (log (shapeCast S2000x1 (multiReduction (F := Ideal) .add [1] S2000 (exp v17) 0x00000000#32 reduces_S2000x64_S2000 (.inl rfl) rfl)
      shapeCasts_S2000_S2000x1)) broadcasts_S2000x1_S2000x64)

/-- The payload is the log-softmax of the linear part: shift by the row maximum, then subtract the log of the row's sum
    of exponentials. -/
theorem pay_eq (x0 : Vec Ideal S2000x128 .f32) (x1 : Vec Ideal S2000x1 .f32) (x2 : Vec Ideal S128x64 .f32)
    (x3 : Vec Ideal S64 .f32) : k2_pay1 x0 x1 x2 x3 = lsmOf (shiftBlk (linBlk x0 x1 x2 x3)) := rfl

/-- The block's linear part at row `p`, feature `j` is the layer's. -/
theorem linBlk_apply (x0 : Vec Ideal S2000x128 .f32) (x1 : Vec Ideal S2000x1 .f32) (x2 : Vec Ideal S128x64 .f32)
    (x3 : Vec Ideal S64 .f32) (p : Fin 2000) (j : Fin 64) :
    linBlk x0 x1 x2 x3 (ix2 p j) = lin x0 x1 x2 x3 p j := by
  unfold linBlk lin
  rw [addf_apply]
  rw [show (matmul dot_S2000x128_S128x64_S2000x64_1_0_0_1_n_n none
      (truncf .bf16 (mulf (shapeCast S2000x128 x0 shapeCasts_S2000x128_S2000x128)
        (broadcastTo S2000x128 (shapeCast S2000x1 x1 shapeCasts_S2000x1_S2000x1) broadcasts_S2000x1_S2000x128)) bitsLt_bf16_f32)
      (truncf .bf16 x2 bitsLt_bf16_f32) (constant (F := Ideal) S2000x64 .f32 0x00000000#32)) (ix2 p j) = _ from
    Cert.LibDot.matmul_rows_apply dot_S2000x128_S128x64_S2000x64_1_0_0_1_n_n rfl rfl rfl rfl rfl rfl none _ _ _ p j]
  rw [constant_apply, Ideal.ofBits_zero_f32, zero_add, broadcastTo_1b_ab_apply, shapeCast_a_1a_apply]
  congr 1
  refine Finset.sum_congr rfl fun κ _ => ?_
  rw [truncf_apply, truncf_apply, mulf_apply, shapeCast_self, broadcastTo_a1_ab_apply, shapeCast_self]

/-- The index a reduction along the columns inserts column `k` into row `p` at is `(p, k)`. -/
theorem lift_row (p : Fin 2000) (k : Fin 64) : reduces_S2000x64_S2000.lift (ix1 p) k = ix2 p k := by
  funext a
  match a with
  | ⟨0, _⟩ => exact Fin.ext rfl
  | ⟨1, _⟩ => exact Fin.ext rfl

/-- A block's row maximum at row `p`: the fold of `max` from −∞ over the row's entries. -/
theorem rowMaxBlk_apply (v13 : FVec Ideal S2000x64 .f32) (p : Fin 2000) :
    multiReduction (F := Ideal) .maximumf [1] S2000 v13 0xFF800000#32 reduces_S2000x64_S2000 (.inl rfl) rfl (ix1 p)
      = (Finset.univ : Finset (Fin 64)).fold max (Ideal.ofBits .f32 0xFF800000#32) (fun k => v13 (ix2 p k)) := by
  refine (Ideal.multiReduction_maximumf_single v13 0xFF800000#32 reduces_S2000x64_S2000 (.inl rfl) rfl (ix1 p)).trans ?_
  exact congrArg (fun f : Fin 64 → EReal => (Finset.univ : Finset (Fin 64)).fold max (Ideal.ofBits .f32 0xFF800000#32) f)
    (funext fun k => congrArg v13 (lift_row p k))

/-- A block's row sum at row `p`: the sum of the row's entries. -/
theorem rowSumBlk_apply (w : FVec Ideal S2000x64 .f32) (p : Fin 2000) :
    multiReduction (F := Ideal) .add [1] S2000 w 0x00000000#32 reduces_S2000x64_S2000 (.inl rfl) rfl (ix1 p)
      = ∑ k : Fin 64, w (ix2 p k) := by
  refine (Ideal.multiReduction_add_single w 0x00000000#32 reduces_S2000x64_S2000 (.inl rfl) rfl (ix1 p)).trans ?_
  exact Finset.sum_congr rfl fun k _ => congrArg w (lift_row p k)

/-- The shifted block at `(p, q)`: the entry less its row's maximum. -/
theorem shiftBlk_apply (v13 : FVec Ideal S2000x64 .f32) (p : Fin 2000) (q : Fin 64) :
    shiftBlk v13 (ix2 p q)
      = v13 (ix2 p q) - (Finset.univ : Finset (Fin 64)).fold max (Ideal.ofBits .f32 0xFF800000#32) (fun k => v13 (ix2 p k)) := by
  unfold shiftBlk
  rw [subf_apply, broadcastTo_a1_ab_apply, shapeCast_a_a1_apply, rowMaxBlk_apply]

/-- The log-softmax of a shifted block at `(p, q)`: the entry less the logarithm of its row's sum of exponentials. -/
theorem lsmOf_apply (v17 : FVec Ideal S2000x64 .f32) (p : Fin 2000) (q : Fin 64) :
    lsmOf v17 (ix2 p q) = v17 (ix2 p q) - Ideal.log (∑ k : Fin 64, Ideal.exp (v17 (ix2 p k))) := by
  unfold lsmOf
  rw [subf_apply, broadcastTo_a1_ab_apply]
  show v17 (ix2 p q) - Ideal.log (shapeCast S2000x1
      (multiReduction (F := Ideal) .add [1] S2000 (exp v17) 0x00000000#32 reduces_S2000x64_S2000 (.inl rfl) rfl)
      shapeCasts_S2000_S2000x1 (ix2 p (0 : Fin 1))) = _
  rw [shapeCast_a_a1_apply, rowSumBlk_apply]
  rfl

/-- THE PAYLOAD AT AN INDEX: the kernel's result on a block at row `p`, feature `q` is the log-softmax layer's entry of
    the block's own arrays. -/
theorem pay_at (x0 : Vec Ideal S2000x128 .f32) (x1 : Vec Ideal S2000x1 .f32) (x2 : Vec Ideal S128x64 .f32)
    (x3 : Vec Ideal S64 .f32) (p : Fin 2000) (q : Fin 64) :
    k2_pay1 x0 x1 x2 x3 (ix2 p q) = finalAt x0 x1 x2 x3 p q := by
  rw [pay_eq, lsmOf_apply]
  unfold finalAt shifted rowMax
  simp only [shiftBlk_apply, linBlk_apply]

/-! ## From blocks to the array -/

theorem zero_off2 : (![0, 0] : Fin 2 → Nat) = fun _ => 0 := funext fun a => by fin_cases a <;> rfl
theorem zero_off1 : (![0] : Fin 1 → Nat) = fun _ => 0 := funext fun a => by fin_cases a <;> rfl

/-- The windows' block indices at grid point `t`: the features, the scales and the output move along the rows with the
    point; the weights and the bias stay at block zero. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- A block's entry is the whole array's entry at the row the block's row sits at: the entry depends on its own row of
    the features and scales only, and the weights and bias are the whole arrays. -/
theorem blk_entry {A : FVec Ideal S100000x128 .f32} {B : FVec Ideal S100000x1 .f32} {W : FVec Ideal S128x64 .f32}
    {b : FVec Ideal S64 .f32} (x0 : Vec Ideal S2000x128 .f32) (x1 : Vec Ideal S2000x1 .f32)
    (x2 : Vec Ideal S128x64 .f32) (x3 : Vec Ideal S64 .f32) (p : Fin 2000) (q : Fin 64) (r : Fin 100000)
    (h0 : ∀ k : Fin 128, x0 (ix2 p k) = A (ix2 r k)) (h1 : x1 (ix2 p 0) = B (ix2 r 0))
    (h2 : ∀ (k : Fin 128) (j : Fin 64), x2 (ix2 k j) = W (ix2 k j)) (h3 : ∀ j : Fin 64, x3 (ix1 j) = b (ix1 j)) :
    k2_pay1 x0 x1 x2 x3 (ix2 p q) = finalLayer A B W b (ix2 r q) := by
  have e2 : x2 = W := funext fun y => by
    obtain ⟨k, j, rfl⟩ : ∃ (k : Fin 128) (j : Fin 64), y = ix2 k j := ⟨y 0, y 1, eq_ix2 y⟩
    exact h2 k j
  have e3 : x3 = b := funext fun y => by
    obtain ⟨j, rfl⟩ : ∃ j : Fin 64, y = ix1 j := ⟨y 0, eq_ix1 y⟩
    exact h3 j
  subst e2 e3
  rw [pay_at, finalLayer_apply]
  exact finalAt_congr A B x0 x1 x2 x3 r p h0 h1 q

-- The TensorCore's buffer contents when the region is entered: every statement here holds at any such contents.
variable (V : (c : Dev nD) → (b : Ref sig .tc) → Buf (Elt Ideal) ((c : Thread nD τ).loc b))

/-- The features' block at point `t` is rows `2000 t … 2000 t + 1999` of the array. -/
theorem agg_blk (c : Dev nD) (t : Fin cfg2.N) (p : Fin 2000) (k : Fin 128) (r : Fin 100000)
    (hr : r.val = t.val * 2000 + p.val) :
    (iblk2 V c 0 t : Vec Ideal S2000x128 .f32) (ix2 p k) = (V c main_v30 : FVec Ideal S100000x128 .f32) (ix2 r k) := by
  obtain ⟨e0, e1, -⟩ := block_index t
  unfold iblk2
  rw [View.read_apply]
  show V c main_v30 _ = V c main_v30 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- The scales' block at point `t` is rows `2000 t … 2000 t + 1999` of the column. -/
theorem ndst_blk (c : Dev nD) (t : Fin cfg2.N) (p : Fin 2000) (r : Fin 100000)
    (hr : r.val = t.val * 2000 + p.val) :
    (iblk2 V c 1 t : Vec Ideal S2000x1 .f32) (ix2 p (0 : Fin 1)) = (V c main_v14 : FVec Ideal S100000x1 .f32) (ix2 r (0 : Fin 1)) := by
  obtain ⟨-, -, e0, e1, -⟩ := block_index t
  unfold iblk2
  rw [View.read_apply]
  show V c main_v14 _ = V c main_v14 _
  congr 1
  funext a
  apply Fin.ext
  match a with
  | ⟨0, _⟩ => show win2_1.index t (0 : Fin 2) * 2000 + 1 * p.val = r.val; rw [e0, hr]; omega
  | ⟨1, _⟩ => show win2_1.index t (1 : Fin 2) * 1 + 1 * 0 = 0; rw [e1]

/-- The weights' block at every point is the whole matrix. -/
theorem w_blk (c : Dev nD) (t : Fin cfg2.N) (k : Fin 128) (j : Fin 64) :
    (iblk2 V c 2 t : Vec Ideal S128x64 .f32) (ix2 k j) = (V c main_arg7 : FVec Ideal S128x64 .f32) (ix2 k j) := by
  obtain ⟨-, -, -, -, e0, e1, -⟩ := block_index t
  unfold iblk2
  rw [View.read_apply]
  show V c main_arg7 _ = V c main_arg7 _
  congr 1
  funext a
  apply Fin.ext
  match a with
  | ⟨0, _⟩ => show win2_2.index t (0 : Fin 2) * 128 + 1 * k.val = k.val; rw [e0]; omega
  | ⟨1, _⟩ => show win2_2.index t (1 : Fin 2) * 64 + 1 * j.val = j.val; rw [e1]; omega

/-- The bias's block at every point is the whole vector. -/
theorem b_blk (c : Dev nD) (t : Fin cfg2.N) (j : Fin 64) :
    (iblk2 V c 3 t : Vec Ideal S64 .f32) (ix1 j) = (V c main_arg8 : FVec Ideal S64 .f32) (ix1 j) := by
  obtain ⟨-, -, -, -, -, -, e0, -⟩ := block_index t
  unfold iblk2
  rw [View.read_apply]
  show V c main_arg8 _ = V c main_arg8 _
  congr 1
  funext a
  apply Fin.ext
  match a with
  | ⟨0, _⟩ => show win2_3.index t (0 : Fin 1) * 64 + 1 * j.val = j.val; rw [e0]; omega

/-- WHAT POINT `t` WRITES BACK is block `t` of the log-softmax layer of the arrays the region found. -/
theorem flushed_eq (c : Dev nD) (t : Fin cfg2.N) :
    (dat2 (F := Ideal) V c).flushed 4 t
      = ((cfg2.win 4).blk t).view.read (Elt Ideal)
          (finalLayer (V c main_v30) (V c main_v14) (V c main_arg7) (V c main_arg8)) := by
  show (cfg2.win 4).cut (grid2.coords t) ((dat2 V c).after 4 t) = _
  rw [after2_4]
  unfold out2_4
  rw [View.canon_unit_zero zero_off2]
  simp only [View.ld_unit_zero (S := S2000x128) zero_off2, View.ld_unit_zero (S := S2000x1) zero_off2,
    View.ld_unit_zero (S := S128x64) zero_off2, View.ld_unit_zero (S := S64) zero_off1]
  obtain ⟨-, -, -, -, -, -, -, e0, e1⟩ := block_index t
  have hN : cfg2.N = 50 := N_2
  funext y
  obtain ⟨p, q, rfl⟩ : ∃ (p : Fin 2000) (q : Fin 64), y = ix2 p q := ⟨y 0, y 1, eq_ix2 y⟩
  have hr : t.val * 2000 + p.val < 100000 := by have := t.isLt; have := p.isLt; omega
  have hemb : ((cfg2.win 4).blk t).view.emb (ix2 p q) = (ix2 (⟨t.val * 2000 + p.val, hr⟩ : Fin 100000) q : S100000x64.Idx) := by
    funext a
    apply Fin.ext
    match a with
    | ⟨0, _⟩ => show win2_4.index t (0 : Fin 2) * 2000 + 1 * p.val = t.val * 2000 + p.val; rw [e0]; omega
    | ⟨1, _⟩ => show win2_4.index t (1 : Fin 2) * 64 + 1 * q.val = q.val; rw [e1]; omega
  show k2_pay1 (iblk2 V c 0 t) (iblk2 V c 1 t) (iblk2 V c 2 t) (iblk2 V c 3 t) (ix2 p q)
    = finalLayer (V c main_v30) (V c main_v14) (V c main_arg7) (V c main_arg8) (((cfg2.win 4).blk t).view.emb (ix2 p q))
  refine Eq.trans ?_ (congrArg (finalLayer (V c main_v30) (V c main_v14) (V c main_arg7) (V c main_arg8)) hemb).symm
  exact blk_entry (iblk2 V c 0 t) (iblk2 V c 1 t) (iblk2 V c 2 t) (iblk2 V c 3 t) p q ⟨t.val * 2000 + p.val, hr⟩
    (fun k => agg_blk V c t p k _ rfl) (ndst_blk V c t p _ rfl) (fun k j => w_blk V c t k j) (fun j => b_blk V c t j)

/-- An index of the output array is in point `t`'s block iff each coordinate is in the block's range on its axis. -/
theorem mem_blk (t : Fin cfg2.N) (i : S100000x64.Idx) :
    i ∈ ((cfg2.win 4).blk t).view.set
      ↔ ∀ a : Fin 2, win2_4.index t a * S2000x64.size a ≤ (i a).val
          ∧ (i a).val < win2_4.index t a * S2000x64.size a + S2000x64.size a := by
  show i ∈ ((View.whole main_v31).slice (win2_4.rect t)).set ↔ _
  rw [View.set_slice_whole, Rect.mem_set_unit]
  exact Iff.rfl

/-- The 50 blocks of 2000 rows cover the 100000 rows: row `r` is in the block of point `r / 2000`. -/
theorem covered (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 50 := N_2
  have ht : (i 0).val / 2000 < cfg2.N := by rw [hN]; omega
  obtain ⟨-, -, -, -, -, -, -, e0, e1⟩ := block_index ⟨(i 0).val / 2000, ht⟩
  refine ⟨⟨(i 0).val / 2000, ht⟩, flush2_4 _, ?_⟩
  rw [mem_blk]
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win2_4.index ⟨(i 0).val / 2000, ht⟩ (1 : Fin 2) * 64 ≤ (i 1).val
      ∧ (i 1).val < win2_4.index ⟨(i 0).val / 2000, ht⟩ (1 : Fin 2) * 64 + 64
    rw [e1]
    omega

/-- After the last layer's region the output array is the log-softmax layer of the arrays the region found. -/
theorem region2_value (c : Dev nD) :
    (dat2 (F := Ideal) V c).arrAt 4 cfg2.N
      = finalLayer (V c main_v30) (V c main_v14) (V c main_arg7) (V c main_arg8) :=
  (dat2 (F := Ideal) V c).arrAt_eq_of_cover 4
    (finalLayer (V c main_v30) (V c main_v14) (V c main_arg7) (V c main_arg8))
    (fun t _ => flushed_eq V c t) covered

end Cert.GConv.Region2

end
-- ==== Proof.KerHost.lean ====
/-
  The kernel program's result as the three-layer network over its own aggregation step.

  The program alternates stretches of host operations with the three layers' regions. The host stretches compute the two
  columns of degree scales, the scaled input features and, before each region, the aggregation of the previous layer's
  rows along the edges; each region leaves its layer of the arrays it finds. Read boundary by boundary, the result array
  ends as the network of the specification over the program's aggregation step.
-/
import proofs.«410822_j78529182040196_1_alg».proof.Proof.Gen.KernelIdeal.Frame
import proofs.«410822_j78529182040196_1_alg».proof.Proof.Spec
import proofs.«410822_j78529182040196_1_alg».proof.Proof.KerTerms
import proofs.«410822_j78529182040196_1_alg».proof.Proof.RegionRelu0
import proofs.«410822_j78529182040196_1_alg».proof.Proof.RegionRelu1
import proofs.«410822_j78529182040196_1_alg».proof.Proof.RegionFinal
import Idealize.ShloMosaic.Lib.StableHlo.Run

set_option maxRecDepth 16384

noncomputable section

namespace Cert.GConv.KHost

open Cert.KernelIdeal Cert.KernelIdeal.Gen Cert.GConv Cert.GConv.KTake
open Idealize.ShloMosaic Idealize.ShloMosaic.TcCoe Idealize.ShloMosaic.StableHlo
open Idealize.SL.Sem

/-! ## Host stretches read from any contents -/

/-- The scales' stretch: the in-degree column from the clamped in-degrees. -/
theorem scale_v14 (W : Valuation τ sig (Elt Ideal)) :
    StableHlo.after (hostOps0_4 (F := Ideal)) W (Proc.devRef .tc main_v14) = colOf (W (Proc.devRef .tc main_v8)) := by
  after_results
  rfl

/-- The scales' stretch: the out-degree column from the clamped out-degrees. -/
theorem scale_v11 (W : Valuation τ sig (Elt Ideal)) :
    StableHlo.after (hostOps0_4 (F := Ideal)) W (Proc.devRef .tc main_v11) = colOf (W (Proc.devRef .tc main_v4)) := by
  after_results
  rfl

/-- The scales' stretch: the input features scaled by the out-degree column. -/
theorem scale_v16 (W : Valuation τ sig (Elt Ideal)) :
    StableHlo.after (hostOps0_4 (F := Ideal)) W (Proc.devRef .tc main_v16)
      = mulf (W (Proc.devRef .tc main_arg0))
          (broadcastInDim S100000x128 ![0, 1] bcast_S100000x1_S100000x128_0_1 (colOf (W (Proc.devRef .tc main_v4)))) := by
  after_results
  rfl

/-- The scatter stretch of the first aggregation. -/
theorem scatter0 (W : Valuation τ sig (Elt Ideal)) :
    StableHlo.after (hostOps0_6 (F := Ideal)) W (Proc.devRef .tc main_v20)
      = Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (W (Proc.devRef .tc main_arg2))) (W (Proc.devRef .tc main_v17)) := by
  after_results

/-- The scatter stretch of the second aggregation. -/
theorem scatter1 (W : Valuation τ sig (Elt Ideal)) :
    StableHlo.after (hostOps1_1 (F := Ideal)) W (Proc.devRef .tc main_v25)
      = Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (W (Proc.devRef .tc main_arg2))) (W (Proc.devRef .tc main_v22)) := by
  after_results

/-- The scatter stretch of the third aggregation. -/
theorem scatter2 (W : Valuation τ sig (Elt Ideal)) :
    StableHlo.after (hostOps2_1 (F := Ideal)) W (Proc.devRef .tc main_v30)
      = Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (W (Proc.devRef .tc main_arg2))) (W (Proc.devRef .tc main_v27)) := by
  after_results

/-! ### Buffers a stretch does not write keep their contents -/

theorem keep0_5_v14 (W : Valuation τ sig (Elt Ideal)) :
    StableHlo.after (hostOps0_5 (F := Ideal)) W (Proc.devRef .tc main_v14) = W (Proc.devRef .tc main_v14) := by
  after_results_simp
theorem keep0_5_v11 (W : Valuation τ sig (Elt Ideal)) :
    StableHlo.after (hostOps0_5 (F := Ideal)) W (Proc.devRef .tc main_v11) = W (Proc.devRef .tc main_v11) := by
  after_results_simp
theorem keep0_5_arg2 (W : Valuation τ sig (Elt Ideal)) :
    StableHlo.after (hostOps0_5 (F := Ideal)) W (Proc.devRef .tc main_arg2) = W (Proc.devRef .tc main_arg2) := by
  after_results_simp
theorem keep0_6_v14 (W : Valuation τ sig (Elt Ideal)) :
    StableHlo.after (hostOps0_6 (F := Ideal)) W (Proc.devRef .tc main_v14) = W (Proc.devRef .tc main_v14) := by
  after_results_simp
theorem keep0_6_v11 (W : Valuation τ sig (Elt Ideal)) :
    StableHlo.after (hostOps0_6 (F := Ideal)) W (Proc.devRef .tc main_v11) = W (Proc.devRef .tc main_v11) := by
  after_results_simp
theorem keep1_v14 (W : Valuation τ sig (Elt Ideal)) :
    StableHlo.after (hostOps1 (F := Ideal)) W (Proc.devRef .tc main_v14) = W (Proc.devRef .tc main_v14) := by
  after_results_simp
theorem keep1_v11 (W : Valuation τ sig (Elt Ideal)) :
    StableHlo.after (hostOps1 (F := Ideal)) W (Proc.devRef .tc main_v11) = W (Proc.devRef .tc main_v11) := by
  after_results_simp
theorem keep1_arg2 (W : Valuation τ sig (Elt Ideal)) :
    StableHlo.after (hostOps1 (F := Ideal)) W (Proc.devRef .tc main_arg2) = W (Proc.devRef .tc main_arg2) := by
  after_results_simp
theorem keep1_arg5 (W : Valuation τ sig (Elt Ideal)) :
    StableHlo.after (hostOps1 (F := Ideal)) W (Proc.devRef .tc main_arg5) = W (Proc.devRef .tc main_arg5) := by
  after_results_simp
theorem keep1_arg6 (W : Valuation τ sig (Elt Ideal)) :
    StableHlo.after (hostOps1 (F := Ideal)) W (Proc.devRef .tc main_arg6) = W (Proc.devRef .tc main_arg6) := by
  after_results_simp
theorem keep1_1_v14 (W : Valuation τ sig (Elt Ideal)) :
    StableHlo.after (hostOps1_1 (F := Ideal)) W (Proc.devRef .tc main_v14) = W (Proc.devRef .tc main_v14) := by
  after_results_simp
theorem keep1_1_v11 (W : Valuation τ sig (Elt Ideal)) :
    StableHlo.after (hostOps1_1 (F := Ideal)) W (Proc.devRef .tc main_v11) = W (Proc.devRef .tc main_v11) := by
  after_results_simp
theorem keep1_1_arg5 (W : Valuation τ sig (Elt Ideal)) :
    StableHlo.after (hostOps1_1 (F := Ideal)) W (Proc.devRef .tc main_arg5) = W (Proc.devRef .tc main_arg5) := by
  after_results_simp
theorem keep1_1_arg6 (W : Valuation τ sig (Elt Ideal)) :
    StableHlo.after (hostOps1_1 (F := Ideal)) W (Proc.devRef .tc main_arg6) = W (Proc.devRef .tc main_arg6) := by
  after_results_simp
theorem keep2_v14 (W : Valuation τ sig (Elt Ideal)) :
    StableHlo.after (hostOps2 (F := Ideal)) W (Proc.devRef .tc main_v14) = W (Proc.devRef .tc main_v14) := by
  after_results_simp
theorem keep2_arg2 (W : Valuation τ sig (Elt Ideal)) :
    StableHlo.after (hostOps2 (F := Ideal)) W (Proc.devRef .tc main_arg2) = W (Proc.devRef .tc main_arg2) := by
  after_results_simp
theorem keep2_arg7 (W : Valuation τ sig (Elt Ideal)) :
    StableHlo.after (hostOps2 (F := Ideal)) W (Proc.devRef .tc main_arg7) = W (Proc.devRef .tc main_arg7) := by
  after_results_simp
theorem keep2_arg8 (W : Valuation τ sig (Elt Ideal)) :
    StableHlo.after (hostOps2 (F := Ideal)) W (Proc.devRef .tc main_arg8) = W (Proc.devRef .tc main_arg8) := by
  after_results_simp
theorem keep2_1_v14 (W : Valuation τ sig (Elt Ideal)) :
    StableHlo.after (hostOps2_1 (F := Ideal)) W (Proc.devRef .tc main_v14) = W (Proc.devRef .tc main_v14) := by
  after_results_simp
theorem keep2_1_arg7 (W : Valuation τ sig (Elt Ideal)) :
    StableHlo.after (hostOps2_1 (F := Ideal)) W (Proc.devRef .tc main_arg7) = W (Proc.devRef .tc main_arg7) := by
  after_results_simp
theorem keep2_1_arg8 (W : Valuation τ sig (Elt Ideal)) :
    StableHlo.after (hostOps2_1 (F := Ideal)) W (Proc.devRef .tc main_arg8) = W (Proc.devRef .tc main_arg8) := by
  after_results_simp

theorem keep1_arg1 (W : Valuation τ sig (Elt Ideal)) :
    StableHlo.after (hostOps1 (F := Ideal)) W (Proc.devRef .tc main_arg1) = W (Proc.devRef .tc main_arg1) := by
  after_results_simp
theorem keep1_arg7 (W : Valuation τ sig (Elt Ideal)) :
    StableHlo.after (hostOps1 (F := Ideal)) W (Proc.devRef .tc main_arg7) = W (Proc.devRef .tc main_arg7) := by
  after_results_simp
theorem keep1_arg8 (W : Valuation τ sig (Elt Ideal)) :
    StableHlo.after (hostOps1 (F := Ideal)) W (Proc.devRef .tc main_arg8) = W (Proc.devRef .tc main_arg8) := by
  after_results_simp
theorem keep1_1_arg1 (W : Valuation τ sig (Elt Ideal)) :
    StableHlo.after (hostOps1_1 (F := Ideal)) W (Proc.devRef .tc main_arg1) = W (Proc.devRef .tc main_arg1) := by
  after_results_simp
theorem keep1_1_arg2 (W : Valuation τ sig (Elt Ideal)) :
    StableHlo.after (hostOps1_1 (F := Ideal)) W (Proc.devRef .tc main_arg2) = W (Proc.devRef .tc main_arg2) := by
  after_results_simp
theorem keep1_1_arg7 (W : Valuation τ sig (Elt Ideal)) :
    StableHlo.after (hostOps1_1 (F := Ideal)) W (Proc.devRef .tc main_arg7) = W (Proc.devRef .tc main_arg7) := by
  after_results_simp
theorem keep1_1_arg8 (W : Valuation τ sig (Elt Ideal)) :
    StableHlo.after (hostOps1_1 (F := Ideal)) W (Proc.devRef .tc main_arg8) = W (Proc.devRef .tc main_arg8) := by
  after_results_simp
theorem keep0_2_v4 (W : Valuation τ sig (Elt Ideal)) :
    StableHlo.after (hostOps0_2 (F := Ideal)) W (Proc.devRef .tc main_v4) = W (Proc.devRef .tc main_v4) := by
  after_results_simp
theorem keep0_3_v4 (W : Valuation τ sig (Elt Ideal)) :
    StableHlo.after (hostOps0_3 (F := Ideal)) W (Proc.devRef .tc main_v4) = W (Proc.devRef .tc main_v4) := by
  after_results_simp

/-- The clamp of a vector of degrees: the maximum with (the broadcast of) one. -/
def clampK (one : FVec Ideal S_ .f32) (d : FVec Ideal S100000 .f32) : FVec Ideal S100000 .f32 :=
  maximumf (broadcastInDim S100000 ![] bcast_S_S100000 (id one)) d

/-- The clamp of the out-degrees. -/
theorem clip1 (W : Valuation τ sig (Elt Ideal)) :
    StableHlo.after (hostOps0_1 (F := Ideal)) W (Proc.devRef .tc main_v4) = clampK (W (Proc.devRef .tc main_cst_1)) (W (Proc.devRef .tc main_v3)) := by
  after_results
  simp only [TRef.ofBuf, TRef.toBuf, cast_eq]
  rfl

/-- The clamp of the in-degrees. -/
theorem clip3 (W : Valuation τ sig (Elt Ideal)) :
    StableHlo.after (hostOps0_3 (F := Ideal)) W (Proc.devRef .tc main_v8) = clampK (W (Proc.devRef .tc main_cst_3)) (W (Proc.devRef .tc main_v7)) := by
  after_results
  simp only [TRef.ofBuf, TRef.toBuf, cast_eq]
  rfl

variable (m : (ℓ : Loc nD τ sig) → Buf (Elt Ideal) ℓ) (ρ : Dev nD → PrngReg)

/-! ## The first region's entry -/

theorem W1_cst1 (c : Dev nD) : W1 m ρ c (Proc.devRef .tc main_cst_1) = constant (F := Ideal) S_ .f32 0x3F800000#32 := by
  dsimp only [W1]
  after_results_simp

theorem W1_v3 (c : Dev nD) : W1 m ρ c (Proc.devRef .tc main_v3)
    = Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (m ((c : Thread nD τ).loc main_arg1)))
        (broadcastInDim S1600000 ![] bcast_S_S1600000 (constant (F := Ideal) S_ .f32 0x3F800000#32)) := by
  dsimp only [W1]
  after_results_simp

theorem W3_cst3 (c : Dev nD) : W3 m ρ c (Proc.devRef .tc main_cst_3) = constant (F := Ideal) S_ .f32 0x3F800000#32 := by
  dsimp only [W3, W2, W1]
  after_results_simp

theorem W3_v7 (c : Dev nD) : W3 m ρ c (Proc.devRef .tc main_v7)
    = Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (m ((c : Thread nD τ).loc main_arg2)))
        (broadcastInDim S1600000 ![] bcast_S_S1600000 (constant (F := Ideal) S_ .f32 0x3F800000#32)) := by
  dsimp only [W3, W2, W1]
  after_results_simp

theorem W2_v4 (c : Dev nD) : W2 m ρ c (Proc.devRef .tc main_v4) = degK (m ((c : Thread nD τ).loc main_arg1)) := by
  refine (clip1 (W1 m ρ c)).trans ?_
  rw [W1_cst1, W1_v3]
  rfl

theorem W4_v8 (c : Dev nD) : W4 m ρ c (Proc.devRef .tc main_v8) = degK (m ((c : Thread nD τ).loc main_arg2)) := by
  refine (clip3 (W3 m ρ c)).trans ?_
  rw [W3_cst3, W3_v7]
  rfl

theorem W4_v4 (c : Dev nD) : W4 m ρ c (Proc.devRef .tc main_v4) = degK (m ((c : Thread nD τ).loc main_arg1)) :=
  (keep0_3_v4 (W3 m ρ c)).trans ((keep0_2_v4 (W2 m ρ c)).trans (W2_v4 m ρ c))

theorem W4_arg0 (c : Dev nD) : W4 m ρ c (Proc.devRef .tc main_arg0) = (m ((c : Thread nD τ).loc main_arg0)) := by
  dsimp only [W4, W3, W2, W1]
  after_results_simp

theorem W5_arg1 (c : Dev nD) : W5 m ρ c (Proc.devRef .tc main_arg1) = (m ((c : Thread nD τ).loc main_arg1)) := by
  dsimp only [W5, W4, W3, W2, W1]
  after_results_simp

theorem W5_arg2 (c : Dev nD) : W5 m ρ c (Proc.devRef .tc main_arg2) = (m ((c : Thread nD τ).loc main_arg2)) := by
  dsimp only [W5, W4, W3, W2, W1]
  after_results_simp

theorem W7_arg1 (c : Dev nD) : W7 m ρ c (Proc.devRef .tc main_arg1) = (m ((c : Thread nD τ).loc main_arg1)) := by
  dsimp only [W7, W6, W5, W4, W3, W2, W1]
  after_results_simp

theorem W7_arg2 (c : Dev nD) : W7 m ρ c (Proc.devRef .tc main_arg2) = (m ((c : Thread nD τ).loc main_arg2)) := by
  dsimp only [W7, W6, W5, W4, W3, W2, W1]
  after_results_simp

theorem W7_arg3 (c : Dev nD) : W7 m ρ c (Proc.devRef .tc main_arg3) = (m ((c : Thread nD τ).loc main_arg3)) := by
  dsimp only [W7, W6, W5, W4, W3, W2, W1]
  after_results_simp

theorem W7_arg4 (c : Dev nD) : W7 m ρ c (Proc.devRef .tc main_arg4) = (m ((c : Thread nD τ).loc main_arg4)) := by
  dsimp only [W7, W6, W5, W4, W3, W2, W1]
  after_results_simp

theorem W7_arg5 (c : Dev nD) : W7 m ρ c (Proc.devRef .tc main_arg5) = (m ((c : Thread nD τ).loc main_arg5)) := by
  dsimp only [W7, W6, W5, W4, W3, W2, W1]
  after_results_simp

theorem W7_arg6 (c : Dev nD) : W7 m ρ c (Proc.devRef .tc main_arg6) = (m ((c : Thread nD τ).loc main_arg6)) := by
  dsimp only [W7, W6, W5, W4, W3, W2, W1]
  after_results_simp

theorem W7_arg7 (c : Dev nD) : W7 m ρ c (Proc.devRef .tc main_arg7) = (m ((c : Thread nD τ).loc main_arg7)) := by
  dsimp only [W7, W6, W5, W4, W3, W2, W1]
  after_results_simp

theorem W7_arg8 (c : Dev nD) : W7 m ρ c (Proc.devRef .tc main_arg8) = (m ((c : Thread nD τ).loc main_arg8)) := by
  dsimp only [W7, W6, W5, W4, W3, W2, W1]
  after_results_simp

theorem W5_v14 (c : Dev nD) : W5 m ρ c (Proc.devRef .tc main_v14) = kCol (m ((c : Thread nD τ).loc main_arg2)) :=
  (scale_v14 (W4 m ρ c)).trans (congrArg colOf (W4_v8 m ρ c))

theorem W5_v11 (c : Dev nD) : W5 m ρ c (Proc.devRef .tc main_v11) = kCol (m ((c : Thread nD τ).loc main_arg1)) :=
  (scale_v11 (W4 m ρ c)).trans (congrArg colOf (W4_v4 m ρ c))

theorem W5_v16 (c : Dev nD) : W5 m ρ c (Proc.devRef .tc main_v16) = kH0 (m ((c : Thread nD τ).loc main_arg0)) (m ((c : Thread nD τ).loc main_arg1)) := by
  refine (scale_v16 (W4 m ρ c)).trans ?_
  rw [W4_arg0, W4_v4]
  rfl

theorem V7_v14 (c : Dev nD) : V7 m ρ c main_v14 = kCol (m ((c : Thread nD τ).loc main_arg2)) :=
  (keep0_6_v14 (W6 m ρ c)).trans ((keep0_5_v14 (W5 m ρ c)).trans (W5_v14 m ρ c))

theorem V7_v11 (c : Dev nD) : V7 m ρ c main_v11 = kCol (m ((c : Thread nD τ).loc main_arg1)) :=
  (keep0_6_v11 (W6 m ρ c)).trans ((keep0_5_v11 (W5 m ρ c)).trans (W5_v11 m ρ c))

theorem V7_v20 (c : Dev nD) : V7 m ρ c main_v20 = kAgg (m ((c : Thread nD τ).loc main_arg1)) (m ((c : Thread nD τ).loc main_arg2)) (kH0 (m ((c : Thread nD τ).loc main_arg0)) (m ((c : Thread nD τ).loc main_arg1))) := by
  refine (scatter0 (W6 m ρ c)).trans ?_
  rw [show W6 m ρ c (Proc.devRef .tc main_arg2) = (m ((c : Thread nD τ).loc main_arg2)) from (keep0_5_arg2 (W5 m ρ c)).trans (W5_arg2 m ρ c)]
  rw [show W6 m ρ c (Proc.devRef .tc main_v17) = kTake (kH0 (m ((c : Thread nD τ).loc main_arg0)) (m ((c : Thread nD τ).loc main_arg1))) (m ((c : Thread nD τ).loc main_arg1)) from by
    refine (take0 (W5 m ρ c)).trans ?_
    rw [W5_v16, W5_arg1]]
  rfl

/-! ## The first region, and the second region's entry -/

theorem W8_v21 (c : Dev nD) : W8 m ρ c (Proc.devRef .tc main_v21) = (reluLayer (kAgg (m ((c : Thread nD τ).loc main_arg1)) (m ((c : Thread nD τ).loc main_arg2)) (kH0 (m ((c : Thread nD τ).loc main_arg0)) (m ((c : Thread nD τ).loc main_arg1)))) (kCol (m ((c : Thread nD τ).loc main_arg2))) (kCol (m ((c : Thread nD τ).loc main_arg1))) (m ((c : Thread nD τ).loc main_arg3)) (m ((c : Thread nD τ).loc main_arg4))) := by
  refine (W8_arr m ρ c 5).trans ?_
  rw [Cert.GConv.Region0.region0_value (V7 m ρ) c, V7_v20, V7_v14, V7_v11,
    show V7 m ρ c main_arg3 = (m ((c : Thread nD τ).loc main_arg3)) from W7_arg3 m ρ c, show V7 m ρ c main_arg4 = (m ((c : Thread nD τ).loc main_arg4)) from W7_arg4 m ρ c]

theorem W8_v14 (c : Dev nD) : W8 m ρ c (Proc.devRef .tc main_v14) = kCol (m ((c : Thread nD τ).loc main_arg2)) :=
  (W8_arr m ρ c 1).trans (((dat0 (V7 m ρ) c).arrAt_in 1 rfl _).trans ((A_eq0 (V7 m ρ) c 1).trans (V7_v14 m ρ c)))

theorem W8_v11 (c : Dev nD) : W8 m ρ c (Proc.devRef .tc main_v11) = kCol (m ((c : Thread nD τ).loc main_arg1)) :=
  (W8_arr m ρ c 2).trans (((dat0 (V7 m ρ) c).arrAt_in 2 rfl _).trans ((A_eq0 (V7 m ρ) c 2).trans (V7_v11 m ρ c)))

theorem W8_arg1 (c : Dev nD) : W8 m ρ c (Proc.devRef .tc main_arg1) = (m ((c : Thread nD τ).loc main_arg1)) :=
  (W8_of_ne m ρ c main_arg1 (by decide)).trans (W7_arg1 m ρ c)
theorem W8_arg2 (c : Dev nD) : W8 m ρ c (Proc.devRef .tc main_arg2) = (m ((c : Thread nD τ).loc main_arg2)) :=
  (W8_of_ne m ρ c main_arg2 (by decide)).trans (W7_arg2 m ρ c)
theorem W8_arg5 (c : Dev nD) : W8 m ρ c (Proc.devRef .tc main_arg5) = (m ((c : Thread nD τ).loc main_arg5)) :=
  (W8_of_ne m ρ c main_arg5 (by decide)).trans (W7_arg5 m ρ c)
theorem W8_arg6 (c : Dev nD) : W8 m ρ c (Proc.devRef .tc main_arg6) = (m ((c : Thread nD τ).loc main_arg6)) :=
  (W8_of_ne m ρ c main_arg6 (by decide)).trans (W7_arg6 m ρ c)
theorem W8_arg7 (c : Dev nD) : W8 m ρ c (Proc.devRef .tc main_arg7) = (m ((c : Thread nD τ).loc main_arg7)) :=
  (W8_of_ne m ρ c main_arg7 (by decide)).trans (W7_arg7 m ρ c)
theorem W8_arg8 (c : Dev nD) : W8 m ρ c (Proc.devRef .tc main_arg8) = (m ((c : Thread nD τ).loc main_arg8)) :=
  (W8_of_ne m ρ c main_arg8 (by decide)).trans (W7_arg8 m ρ c)

theorem V10_v25 (c : Dev nD) : V10 m ρ c main_v25 = kAgg (m ((c : Thread nD τ).loc main_arg1)) (m ((c : Thread nD τ).loc main_arg2)) (reluLayer (kAgg (m ((c : Thread nD τ).loc main_arg1)) (m ((c : Thread nD τ).loc main_arg2)) (kH0 (m ((c : Thread nD τ).loc main_arg0)) (m ((c : Thread nD τ).loc main_arg1)))) (kCol (m ((c : Thread nD τ).loc main_arg2))) (kCol (m ((c : Thread nD τ).loc main_arg1))) (m ((c : Thread nD τ).loc main_arg3)) (m ((c : Thread nD τ).loc main_arg4))) := by
  refine (scatter1 (W9 m ρ c)).trans ?_
  rw [show W9 m ρ c (Proc.devRef .tc main_arg2) = (m ((c : Thread nD τ).loc main_arg2)) from (keep1_arg2 (W8 m ρ c)).trans (W8_arg2 m ρ c)]
  rw [show W9 m ρ c (Proc.devRef .tc main_v22) = kTake (reluLayer (kAgg (m ((c : Thread nD τ).loc main_arg1)) (m ((c : Thread nD τ).loc main_arg2)) (kH0 (m ((c : Thread nD τ).loc main_arg0)) (m ((c : Thread nD τ).loc main_arg1)))) (kCol (m ((c : Thread nD τ).loc main_arg2))) (kCol (m ((c : Thread nD τ).loc main_arg1))) (m ((c : Thread nD τ).loc main_arg3)) (m ((c : Thread nD τ).loc main_arg4))) (m ((c : Thread nD τ).loc main_arg1)) from by
    refine (take1 (W8 m ρ c)).trans ?_
    rw [W8_v21, W8_arg1]]
  rfl

theorem V10_v14 (c : Dev nD) : V10 m ρ c main_v14 = kCol (m ((c : Thread nD τ).loc main_arg2)) :=
  (keep1_1_v14 (W9 m ρ c)).trans ((keep1_v14 (W8 m ρ c)).trans (W8_v14 m ρ c))

theorem V10_v11 (c : Dev nD) : V10 m ρ c main_v11 = kCol (m ((c : Thread nD τ).loc main_arg1)) :=
  (keep1_1_v11 (W9 m ρ c)).trans ((keep1_v11 (W8 m ρ c)).trans (W8_v11 m ρ c))

theorem V10_arg1 (c : Dev nD) : V10 m ρ c main_arg1 = (m ((c : Thread nD τ).loc main_arg1)) :=
  (keep1_1_arg1 (W9 m ρ c)).trans ((keep1_arg1 (W8 m ρ c)).trans (W8_arg1 m ρ c))
theorem V10_arg2 (c : Dev nD) : V10 m ρ c main_arg2 = (m ((c : Thread nD τ).loc main_arg2)) :=
  (keep1_1_arg2 (W9 m ρ c)).trans ((keep1_arg2 (W8 m ρ c)).trans (W8_arg2 m ρ c))
theorem V10_arg5 (c : Dev nD) : V10 m ρ c main_arg5 = (m ((c : Thread nD τ).loc main_arg5)) :=
  (keep1_1_arg5 (W9 m ρ c)).trans ((keep1_arg5 (W8 m ρ c)).trans (W8_arg5 m ρ c))
theorem V10_arg6 (c : Dev nD) : V10 m ρ c main_arg6 = (m ((c : Thread nD τ).loc main_arg6)) :=
  (keep1_1_arg6 (W9 m ρ c)).trans ((keep1_arg6 (W8 m ρ c)).trans (W8_arg6 m ρ c))
theorem V10_arg7 (c : Dev nD) : V10 m ρ c main_arg7 = (m ((c : Thread nD τ).loc main_arg7)) :=
  (keep1_1_arg7 (W9 m ρ c)).trans ((keep1_arg7 (W8 m ρ c)).trans (W8_arg7 m ρ c))
theorem V10_arg8 (c : Dev nD) : V10 m ρ c main_arg8 = (m ((c : Thread nD τ).loc main_arg8)) :=
  (keep1_1_arg8 (W9 m ρ c)).trans ((keep1_arg8 (W8 m ρ c)).trans (W8_arg8 m ρ c))

/-! ## The second region, and the third region's entry -/

theorem W11_v26 (c : Dev nD) : W11 m ρ c (Proc.devRef .tc main_v26) = (reluLayer (kAgg (m ((c : Thread nD τ).loc main_arg1)) (m ((c : Thread nD τ).loc main_arg2)) (reluLayer (kAgg (m ((c : Thread nD τ).loc main_arg1)) (m ((c : Thread nD τ).loc main_arg2)) (kH0 (m ((c : Thread nD τ).loc main_arg0)) (m ((c : Thread nD τ).loc main_arg1)))) (kCol (m ((c : Thread nD τ).loc main_arg2))) (kCol (m ((c : Thread nD τ).loc main_arg1))) (m ((c : Thread nD τ).loc main_arg3)) (m ((c : Thread nD τ).loc main_arg4)))) (kCol (m ((c : Thread nD τ).loc main_arg2))) (kCol (m ((c : Thread nD τ).loc main_arg1))) (m ((c : Thread nD τ).loc main_arg5)) (m ((c : Thread nD τ).loc main_arg6))) := by
  refine (W11_arr m ρ c 5).trans ?_
  rw [Cert.GConv.Region1.region1_value (V10 m ρ) c, V10_v25, V10_v14, V10_v11, V10_arg5, V10_arg6]

theorem W11_v14 (c : Dev nD) : W11 m ρ c (Proc.devRef .tc main_v14) = kCol (m ((c : Thread nD τ).loc main_arg2)) :=
  (W11_arr m ρ c 1).trans (((dat1 (V10 m ρ) c).arrAt_in 1 rfl _).trans ((A_eq1 (V10 m ρ) c 1).trans (V10_v14 m ρ c)))

theorem W11_arg1 (c : Dev nD) : W11 m ρ c (Proc.devRef .tc main_arg1) = (m ((c : Thread nD τ).loc main_arg1)) :=
  (W11_of_ne m ρ c main_arg1 (by decide)).trans (V10_arg1 m ρ c)
theorem W11_arg2 (c : Dev nD) : W11 m ρ c (Proc.devRef .tc main_arg2) = (m ((c : Thread nD τ).loc main_arg2)) :=
  (W11_of_ne m ρ c main_arg2 (by decide)).trans (V10_arg2 m ρ c)
theorem W11_arg7 (c : Dev nD) : W11 m ρ c (Proc.devRef .tc main_arg7) = (m ((c : Thread nD τ).loc main_arg7)) :=
  (W11_of_ne m ρ c main_arg7 (by decide)).trans (V10_arg7 m ρ c)
theorem W11_arg8 (c : Dev nD) : W11 m ρ c (Proc.devRef .tc main_arg8) = (m ((c : Thread nD τ).loc main_arg8)) :=
  (W11_of_ne m ρ c main_arg8 (by decide)).trans (V10_arg8 m ρ c)

theorem V13_v30 (c : Dev nD) : V13 m ρ c main_v30 = kAgg (m ((c : Thread nD τ).loc main_arg1)) (m ((c : Thread nD τ).loc main_arg2)) (reluLayer (kAgg (m ((c : Thread nD τ).loc main_arg1)) (m ((c : Thread nD τ).loc main_arg2)) (reluLayer (kAgg (m ((c : Thread nD τ).loc main_arg1)) (m ((c : Thread nD τ).loc main_arg2)) (kH0 (m ((c : Thread nD τ).loc main_arg0)) (m ((c : Thread nD τ).loc main_arg1)))) (kCol (m ((c : Thread nD τ).loc main_arg2))) (kCol (m ((c : Thread nD τ).loc main_arg1))) (m ((c : Thread nD τ).loc main_arg3)) (m ((c : Thread nD τ).loc main_arg4)))) (kCol (m ((c : Thread nD τ).loc main_arg2))) (kCol (m ((c : Thread nD τ).loc main_arg1))) (m ((c : Thread nD τ).loc main_arg5)) (m ((c : Thread nD τ).loc main_arg6))) := by
  refine (scatter2 (W12 m ρ c)).trans ?_
  rw [show W12 m ρ c (Proc.devRef .tc main_arg2) = (m ((c : Thread nD τ).loc main_arg2)) from (keep2_arg2 (W11 m ρ c)).trans (W11_arg2 m ρ c)]
  rw [show W12 m ρ c (Proc.devRef .tc main_v27) = kTake (reluLayer (kAgg (m ((c : Thread nD τ).loc main_arg1)) (m ((c : Thread nD τ).loc main_arg2)) (reluLayer (kAgg (m ((c : Thread nD τ).loc main_arg1)) (m ((c : Thread nD τ).loc main_arg2)) (kH0 (m ((c : Thread nD τ).loc main_arg0)) (m ((c : Thread nD τ).loc main_arg1)))) (kCol (m ((c : Thread nD τ).loc main_arg2))) (kCol (m ((c : Thread nD τ).loc main_arg1))) (m ((c : Thread nD τ).loc main_arg3)) (m ((c : Thread nD τ).loc main_arg4)))) (kCol (m ((c : Thread nD τ).loc main_arg2))) (kCol (m ((c : Thread nD τ).loc main_arg1))) (m ((c : Thread nD τ).loc main_arg5)) (m ((c : Thread nD τ).loc main_arg6))) (m ((c : Thread nD τ).loc main_arg1)) from by
    refine (take2 (W11 m ρ c)).trans ?_
    rw [W11_v26, W11_arg1]]
  rfl

theorem V13_v14 (c : Dev nD) : V13 m ρ c main_v14 = kCol (m ((c : Thread nD τ).loc main_arg2)) :=
  (keep2_1_v14 (W12 m ρ c)).trans ((keep2_v14 (W11 m ρ c)).trans (W11_v14 m ρ c))

theorem V13_arg7 (c : Dev nD) : V13 m ρ c main_arg7 = (m ((c : Thread nD τ).loc main_arg7)) :=
  (keep2_1_arg7 (W12 m ρ c)).trans ((keep2_arg7 (W11 m ρ c)).trans (W11_arg7 m ρ c))
theorem V13_arg8 (c : Dev nD) : V13 m ρ c main_arg8 = (m ((c : Thread nD τ).loc main_arg8)) :=
  (keep2_1_arg8 (W12 m ρ c)).trans ((keep2_arg8 (W11 m ρ c)).trans (W11_arg8 m ρ c))

/-! ## The last region: the result -/

/-- The result array at the last boundary is the network over the program's aggregation step, from the scaled input
    features, with the two columns of degree scales. -/
theorem kernel_result (c : Dev nD) :
    W14 m ρ c (Proc.devRef .tc main_v31)
      = network (kAgg (m ((c : Thread nD τ).loc main_arg1)) (m ((c : Thread nD τ).loc main_arg2))) (kH0 (m ((c : Thread nD τ).loc main_arg0)) (m ((c : Thread nD τ).loc main_arg1))) (kCol (m ((c : Thread nD τ).loc main_arg2))) (kCol (m ((c : Thread nD τ).loc main_arg1)))
          (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W14_arr m ρ c 4).trans ?_
  rw [Cert.GConv.Region2.region2_value (V13 m ρ) c, V13_v30, V13_v14, V13_arg7, V13_arg8]
  rfl

end Cert.GConv.KHost

end
-- ==== Proof.RefRun.lean ====
/-
  The reference program's run, read back stage by stage.

  The reference is a straight line of 114 host operations. Every weakly fair execution of it terminates, each buffer
  ending at what the operations, in order, leave in it; read one stretch of operations at a time, the result buffer ends at
  the last stage's value of the argument arrays, and the argument arrays end as launched.
-/
import proofs.«410822_j78529182040196_1_alg».proof.Proof.RefOps
import proofs.«410822_j78529182040196_1_alg».proof.Proof.RefRead

noncomputable section

namespace Cert.GConv.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The operations, cut into stretches at the stage boundaries -/

/-- Operations 1–27: the degrees, the two degree scales and the scaled input features. -/
def opsScales : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg1 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.binary (TRef.of (T := ⟨S100000, .f32⟩) main_call0_v1) (TRef.of (T := ⟨S100000, .f32⟩) main_v3) (TRef.of (T := ⟨S100000, .f32⟩) main_v4) maximumf,
    nullary main_cst_2 (constant S_ .f32 0x00000000#32),
    unary main_cst_2 main_v5 (broadcastInDim S100000 ![] bcast_S_S100000 : (⟨S_, .f32⟩ : BufTy).Contents (Elt F) → (⟨S100000, .f32⟩ : BufTy).Contents (Elt F)),
    unary main_arg2 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v0 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_v7) (TRef.of (T := ⟨S100000, .f32⟩) main_v8) maximumf,
    nullary main_cst_4 (constant S_ .f32 0xBF000000#32),
    unary main_cst_4 main_v9 (broadcastInDim S100000 ![] bcast_S_S100000 : (⟨S_, .f32⟩ : BufTy).Contents (Elt F) → (⟨S100000, .f32⟩ : BufTy).Contents (Elt F)),
    binary main_v4 main_v9 main_v10 (Host.powf : (⟨S100000, .f32⟩ : BufTy).Contents (Elt F) → (⟨S100000, .f32⟩ : BufTy).Contents (Elt F) → (⟨S100000, .f32⟩ : BufTy).Contents (Elt F)),
    nullary main_cst_5 (constant S_ .f32 0xBF000000#32),
    unary main_cst_5 main_v11 (broadcastInDim S100000 ![] bcast_S_S100000 : (⟨S_, .f32⟩ : BufTy).Contents (Elt F) → (⟨S100000, .f32⟩ : BufTy).Contents (Elt F)),
    binary main_v8 main_v11 main_v12 (Host.powf : (⟨S100000, .f32⟩ : BufTy).Contents (Elt F) → (⟨S100000, .f32⟩ : BufTy).Contents (Elt F) → (⟨S100000, .f32⟩ : BufTy).Contents (Elt F)),
    unary main_v10 main_v13 (broadcastInDim S100000x1 ![0] bcast_S100000_S100000x1_0 : (⟨S100000, .f32⟩ : BufTy).Contents (Elt F) → (⟨S100000x1, .f32⟩ : BufTy).Contents (Elt F)),
    unary main_v13 main_v14 (broadcastInDim S100000x128 ![0, 1] bcast_S100000x1_S100000x128_0_1 : (⟨S100000x1, .f32⟩ : BufTy).Contents (Elt F) → (⟨S100000x128, .f32⟩ : BufTy).Contents (Elt F)),
    binary main_arg0 main_v14 main_v15 (mulf : (⟨S100000x128, .f32⟩ : BufTy).Contents (Elt F) → (⟨S100000x128, .f32⟩ : BufTy).Contents (Elt F) → (⟨S100000x128, .f32⟩ : BufTy).Contents (Elt F)) ]

/-- Operations 28–40: the first aggregation: the edges' source rows gathered and added into the edges' target rows. -/
def opsAgg1 : List (HloOp τ sig (Elt F)) :=
  [ nullary main_c (constantI S_ 32 0#32),
    unary main_c main_v16 (broadcastInDim S1600000 ![] bcast_S_S1600000 : (⟨S_, .i32⟩ : BufTy).Contents (Elt F) → (⟨S1600000, .i32⟩ : BufTy).Contents (Elt F)),
    binary main_arg1 main_v16 main_v17 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v18 (broadcastInDim S1600000 ![] bcast_S_S1600000 : (⟨S_, .i32⟩ : BufTy).Contents (Elt F) → (⟨S1600000, .i32⟩ : BufTy).Contents (Elt F)),
    binary main_arg1 main_v18 main_v19 (addi : (⟨S1600000, .i32⟩ : BufTy).Contents (Elt F) → (⟨S1600000, .i32⟩ : BufTy).Contents (Elt F) → (⟨S1600000, .i32⟩ : BufTy).Contents (Elt F)),
    ternary main_v17 main_v19 main_arg1 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v20 main_v21 (broadcastInDim S1600000x1 ![0] bcast_S1600000_S1600000x1_0 : (⟨S1600000, .i32⟩ : BufTy).Contents (Elt F) → (⟨S1600000x1, .i32⟩ : BufTy).Contents (Elt F)),
    binary main_v15 main_v21 main_v22 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v23 (broadcastInDim S100000x128 ![] bcast_S_S100000x128 : (⟨S_, .f32⟩ : BufTy).Contents (Elt F) → (⟨S100000x128, .f32⟩ : BufTy).Contents (Elt F)),
    unary main_arg2 main_v24 (broadcastInDim S1600000x1 ![0] bcast_S1600000_S1600000x1_0 : (⟨S1600000, .i32⟩ : BufTy).Contents (Elt F) → (⟨S1600000x1, .i32⟩ : BufTy).Contents (Elt F)),
    ternary main_v23 main_v24 main_v22 main_v25 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Operations 41–53: the first hidden layer's dense part. -/
def opsDense1 : List (HloOp τ sig (Elt F)) :=
  [ unary main_v12 main_v26 (broadcastInDim S100000x1 ![0] bcast_S100000_S100000x1_0 : (⟨S100000, .f32⟩ : BufTy).Contents (Elt F) → (⟨S100000x1, .f32⟩ : BufTy).Contents (Elt F)),
    unary main_v26 main_v27 (broadcastInDim S100000x128 ![0, 1] bcast_S100000x1_S100000x128_0_1 : (⟨S100000x1, .f32⟩ : BufTy).Contents (Elt F) → (⟨S100000x128, .f32⟩ : BufTy).Contents (Elt F)),
    binary main_v25 main_v27 main_v28 (mulf : (⟨S100000x128, .f32⟩ : BufTy).Contents (Elt F) → (⟨S100000x128, .f32⟩ : BufTy).Contents (Elt F) → (⟨S100000x128, .f32⟩ : BufTy).Contents (Elt F)),
    binary main_v28 main_arg3 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v30 (broadcastInDim S1x128 ![1] bcast_S128_S1x128_1 : (⟨S128, .f32⟩ : BufTy).Contents (Elt F) → (⟨S1x128, .f32⟩ : BufTy).Contents (Elt F)),
    unary main_v30 main_v31 (broadcastInDim S100000x128 ![0, 1] bcast_S1x128_S100000x128_0_1 : (⟨S1x128, .f32⟩ : BufTy).Contents (Elt F) → (⟨S100000x128, .f32⟩ : BufTy).Contents (Elt F)),
    binary main_v29 main_v31 main_v32 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v32) (TRef.of (T := ⟨S100000x128, .f32⟩) main_call2_v0) (TRef.of (T := ⟨S100000x128, .f32⟩) main_v33) maximumf,
    unary main_v10 main_v34 (broadcastInDim S100000x1 ![0] bcast_S100000_S100000x1_0 : (⟨S100000, .f32⟩ : BufTy).Contents (Elt F) → (⟨S100000x1, .f32⟩ : BufTy).Contents (Elt F)),
    unary main_v34 main_v35 (broadcastInDim S100000x128 ![0, 1] bcast_S100000x1_S100000x128_0_1 : (⟨S100000x1, .f32⟩ : BufTy).Contents (Elt F) → (⟨S100000x128, .f32⟩ : BufTy).Contents (Elt F)),
    binary main_v33 main_v35 main_v36 (mulf : (⟨S100000x128, .f32⟩ : BufTy).Contents (Elt F) → (⟨S100000x128, .f32⟩ : BufTy).Contents (Elt F) → (⟨S100000x128, .f32⟩ : BufTy).Contents (Elt F)) ]

/-- Operations 54–66: the second aggregation. -/
def opsAgg2 : List (HloOp τ sig (Elt F)) :=
  [ nullary main_c_8 (constantI S_ 32 0#32),
    unary main_c_8 main_v37 (broadcastInDim S1600000 ![] bcast_S_S1600000 : (⟨S_, .i32⟩ : BufTy).Contents (Elt F) → (⟨S1600000, .i32⟩ : BufTy).Contents (Elt F)),
    binary main_arg1 main_v37 main_v38 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v39 (broadcastInDim S1600000 ![] bcast_S_S1600000 : (⟨S_, .i32⟩ : BufTy).Contents (Elt F) → (⟨S1600000, .i32⟩ : BufTy).Contents (Elt F)),
    binary main_arg1 main_v39 main_v40 (addi : (⟨S1600000, .i32⟩ : BufTy).Contents (Elt F) → (⟨S1600000, .i32⟩ : BufTy).Contents (Elt F) → (⟨S1600000, .i32⟩ : BufTy).Contents (Elt F)),
    ternary main_v38 main_v40 main_arg1 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v41 main_v42 (broadcastInDim S1600000x1 ![0] bcast_S1600000_S1600000x1_0 : (⟨S1600000, .i32⟩ : BufTy).Contents (Elt F) → (⟨S1600000x1, .i32⟩ : BufTy).Contents (Elt F)),
    binary main_v36 main_v42 main_v43 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_10 (constant S_ .f32 0x00000000#32),
    unary main_cst_10 main_v44 (broadcastInDim S100000x128 ![] bcast_S_S100000x128 : (⟨S_, .f32⟩ : BufTy).Contents (Elt F) → (⟨S100000x128, .f32⟩ : BufTy).Contents (Elt F)),
    unary main_arg2 main_v45 (broadcastInDim S1600000x1 ![0] bcast_S1600000_S1600000x1_0 : (⟨S1600000, .i32⟩ : BufTy).Contents (Elt F) → (⟨S1600000x1, .i32⟩ : BufTy).Contents (Elt F)),
    ternary main_v44 main_v45 main_v43 main_v46 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Operations 67–79: the second hidden layer's dense part. -/
def opsDense2 : List (HloOp τ sig (Elt F)) :=
  [ unary main_v12 main_v47 (broadcastInDim S100000x1 ![0] bcast_S100000_S100000x1_0 : (⟨S100000, .f32⟩ : BufTy).Contents (Elt F) → (⟨S100000x1, .f32⟩ : BufTy).Contents (Elt F)),
    unary main_v47 main_v48 (broadcastInDim S100000x128 ![0, 1] bcast_S100000x1_S100000x128_0_1 : (⟨S100000x1, .f32⟩ : BufTy).Contents (Elt F) → (⟨S100000x128, .f32⟩ : BufTy).Contents (Elt F)),
    binary main_v46 main_v48 main_v49 (mulf : (⟨S100000x128, .f32⟩ : BufTy).Contents (Elt F) → (⟨S100000x128, .f32⟩ : BufTy).Contents (Elt F) → (⟨S100000x128, .f32⟩ : BufTy).Contents (Elt F)),
    binary main_v49 main_arg5 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v50 main_v52 main_v53 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v53) (TRef.of (T := ⟨S100000x128, .f32⟩) main_call3_v0) (TRef.of (T := ⟨S100000x128, .f32⟩) main_v54) maximumf,
    unary main_v10 main_v55 (broadcastInDim S100000x1 ![0] bcast_S100000_S100000x1_0 : (⟨S100000, .f32⟩ : BufTy).Contents (Elt F) → (⟨S100000x1, .f32⟩ : BufTy).Contents (Elt F)),
    unary main_v55 main_v56 (broadcastInDim S100000x128 ![0, 1] bcast_S100000x1_S100000x128_0_1 : (⟨S100000x1, .f32⟩ : BufTy).Contents (Elt F) → (⟨S100000x128, .f32⟩ : BufTy).Contents (Elt F)),
    binary main_v54 main_v56 main_v57 (mulf : (⟨S100000x128, .f32⟩ : BufTy).Contents (Elt F) → (⟨S100000x128, .f32⟩ : BufTy).Contents (Elt F) → (⟨S100000x128, .f32⟩ : BufTy).Contents (Elt F)) ]

/-- Operations 80–92: the third aggregation. -/
def opsAgg3 : List (HloOp τ sig (Elt F)) :=
  [ nullary main_c_11 (constantI S_ 32 0#32),
    unary main_c_11 main_v58 (broadcastInDim S1600000 ![] bcast_S_S1600000 : (⟨S_, .i32⟩ : BufTy).Contents (Elt F) → (⟨S1600000, .i32⟩ : BufTy).Contents (Elt F)),
    binary main_arg1 main_v58 main_v59 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v60 (broadcastInDim S1600000 ![] bcast_S_S1600000 : (⟨S_, .i32⟩ : BufTy).Contents (Elt F) → (⟨S1600000, .i32⟩ : BufTy).Contents (Elt F)),
    binary main_arg1 main_v60 main_v61 (addi : (⟨S1600000, .i32⟩ : BufTy).Contents (Elt F) → (⟨S1600000, .i32⟩ : BufTy).Contents (Elt F) → (⟨S1600000, .i32⟩ : BufTy).Contents (Elt F)),
    ternary main_v59 main_v61 main_arg1 main_v62 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v62 main_v63 (broadcastInDim S1600000x1 ![0] bcast_S1600000_S1600000x1_0 : (⟨S1600000, .i32⟩ : BufTy).Contents (Elt F) → (⟨S1600000x1, .i32⟩ : BufTy).Contents (Elt F)),
    binary main_v57 main_v63 main_v64 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_13 (constant S_ .f32 0x00000000#32),
    unary main_cst_13 main_v65 (broadcastInDim S100000x128 ![] bcast_S_S100000x128 : (⟨S_, .f32⟩ : BufTy).Contents (Elt F) → (⟨S100000x128, .f32⟩ : BufTy).Contents (Elt F)),
    unary main_arg2 main_v66 (broadcastInDim S1600000x1 ![0] bcast_S1600000_S1600000x1_0 : (⟨S1600000, .i32⟩ : BufTy).Contents (Elt F) → (⟨S1600000x1, .i32⟩ : BufTy).Contents (Elt F)),
    ternary main_v65 main_v66 main_v64 main_v67 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Operations 93–99: the last layer's linear part. -/
def opsDense3 : List (HloOp τ sig (Elt F)) :=
  [ unary main_v12 main_v68 (broadcastInDim S100000x1 ![0] bcast_S100000_S100000x1_0 : (⟨S100000, .f32⟩ : BufTy).Contents (Elt F) → (⟨S100000x1, .f32⟩ : BufTy).Contents (Elt F)),
    unary main_v68 main_v69 (broadcastInDim S100000x128 ![0, 1] bcast_S100000x1_S100000x128_0_1 : (⟨S100000x1, .f32⟩ : BufTy).Contents (Elt F) → (⟨S100000x128, .f32⟩ : BufTy).Contents (Elt F)),
    binary main_v67 main_v69 main_v70 (mulf : (⟨S100000x128, .f32⟩ : BufTy).Contents (Elt F) → (⟨S100000x128, .f32⟩ : BufTy).Contents (Elt F) → (⟨S100000x128, .f32⟩ : BufTy).Contents (Elt F)),
    binary main_v70 main_arg7 main_v71 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v71 main_v73 main_v74 (addf : (⟨S100000x64, .f32⟩ : BufTy).Contents (Elt F) → (⟨S100000x64, .f32⟩ : BufTy).Contents (Elt F) → (⟨S100000x64, .f32⟩ : BufTy).Contents (Elt F)) ]

/-- Operations 100–107: the linear part less each row's maximum. -/
def opsShift : List (HloOp τ sig (Elt F)) :=
  [ TRef.nullary (TRef.of (T := ⟨S_, .f32⟩) main_call4_cst) (constant S_ .f32 0xFF800000#32),
    TRef.binary (TRef.of (T := ⟨S100000x64, .f32⟩) main_v74) (TRef.of (T := ⟨S_, .f32⟩) main_call4_cst) (TRef.of (T := ⟨S100000, .f32⟩) main_call4_v0) (fun x v => Host.reduce FloatOps.maximumf x v reducesTo_S100000x64_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x64, .f32⟩) main_call4_v4) (broadcastInDim S100000x64 ![0, 1] bcast_S100000x1_S100000x64_0_1),
    TRef.binary (TRef.of (T := ⟨S100000x64, .f32⟩) main_v74) (TRef.of (T := ⟨S100000x64, .f32⟩) main_call4_v4) (TRef.of (T := ⟨S100000x64, .f32⟩) main_call4_v5) subf ]

/-- Operations 108–114: the shifted part less the logarithm of each row's sum of exponentials. -/
def opsLogNorm : List (HloOp τ sig (Elt F)) :=
  [ TRef.unary (TRef.of (T := ⟨S100000x64, .f32⟩) main_call4_v5) (TRef.of (T := ⟨S100000x64, .f32⟩) main_call4_v6) Host.exp,
    TRef.nullary (TRef.of (T := ⟨S_, .f32⟩) main_call4_cst_1) (constant S_ .f32 0x00000000#32),
    TRef.binary (TRef.of (T := ⟨S100000x64, .f32⟩) main_call4_v6) (TRef.of (T := ⟨S_, .f32⟩) main_call4_cst_1) (TRef.of (T := ⟨S100000, .f32⟩) main_call4_v7) (fun x v => Host.reduceAdd x v reducesTo_S100000x64_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x64, .f32⟩) main_call4_v10) (broadcastInDim S100000x64 ![0, 1] bcast_S100000x1_S100000x64_0_1),
    TRef.binary (TRef.of (T := ⟨S100000x64, .f32⟩) main_call4_v5) (TRef.of (T := ⟨S100000x64, .f32⟩) main_call4_v10) (TRef.of (T := ⟨S100000x64, .f32⟩) main_v75) subf ]

set_option maxRecDepth 8192 in
/-- The reference's operations are the nine stretches in order. -/
theorem ops_cut : (ops : List (HloOp τ sig (Elt F)))
    = opsScales ++ (opsAgg1 ++ (opsDense1 ++ (opsAgg2 ++ (opsDense2 ++ (opsAgg3 ++ (opsDense3 ++ (opsShift ++ opsLogNorm))))))) := rfl

/-- Two lines run one after the other leave what the second leaves from what the first left. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## What a stretch leaves alone -/

/-- An operation that writes one buffer of a list writes inside the list. -/
theorem writes_sub_of_mem {Wl : List (Ref sig .tc)} {y : Ref sig .tc} (op : HloOp τ sig (Elt F))
    (hw : op.writes = {Proc.devRef .tc y}) (hy : y ∈ Wl) :
    op.writes ⊆ (Wl.map (Proc.devRef (τ := τ) .tc)).toFinset := by
  rw [hw, Finset.singleton_subset_iff, List.mem_toFinset]
  exact List.mem_map_of_mem hy

/-- The buffers the stretch writes. -/
def scalesWritten : List (Ref sig .tc) :=
  [main_cst, main_v0, main_cst_0, main_v1, main_v2, main_v3, main_cst_1, main_call0_v0, main_call0_v1, main_v4, main_cst_2, main_v5, main_v6, main_v7, main_cst_3, main_call1_v0, main_call1_v1, main_v8, main_cst_4, main_v9, main_v10, main_cst_5, main_v11, main_v12, main_v13, main_v14, main_v15]

theorem scales_writes : (opsScales : List (HloOp τ sig (Elt F))).Forall fun op =>
    op.writes ⊆ (scalesWritten.map (Proc.devRef (τ := τ) .tc)).toFinset := by
  unfold opsScales
  simp only [List.Forall]
  repeat' apply And.intro
  all_goals exact writes_sub_of_mem _ rfl (by decide)

/-- A buffer the stretch does not write keeps its contents. -/
theorem scales_kept (W : Valuation τ sig (Elt F)) {r : Ref sig .tc} (hr : r ∉ scalesWritten) :
    after opsScales W (Proc.devRef .tc r) = W (Proc.devRef .tc r) :=
  after_of_writes_sub opsScales W scales_writes hr

/-- The buffers the stretch writes. -/
def agg1Written : List (Ref sig .tc) :=
  [main_c, main_v16, main_v17, main_c_6, main_v18, main_v19, main_v20, main_v21, main_v22, main_cst_7, main_v23, main_v24, main_v25]

theorem agg1_writes : (opsAgg1 : List (HloOp τ sig (Elt F))).Forall fun op =>
    op.writes ⊆ (agg1Written.map (Proc.devRef (τ := τ) .tc)).toFinset := by
  unfold opsAgg1
  simp only [List.Forall]
  repeat' apply And.intro
  all_goals exact writes_sub_of_mem _ rfl (by decide)

/-- A buffer the stretch does not write keeps its contents. -/
theorem agg1_kept (W : Valuation τ sig (Elt F)) {r : Ref sig .tc} (hr : r ∉ agg1Written) :
    after opsAgg1 W (Proc.devRef .tc r) = W (Proc.devRef .tc r) :=
  after_of_writes_sub opsAgg1 W agg1_writes hr

/-- The buffers the stretch writes. -/
def dense1Written : List (Ref sig .tc) :=
  [main_v26, main_v27, main_v28, main_v29, main_v30, main_v31, main_v32, main_call2_cst, main_call2_v0, main_v33, main_v34, main_v35, main_v36]

theorem dense1_writes : (opsDense1 : List (HloOp τ sig (Elt F))).Forall fun op =>
    op.writes ⊆ (dense1Written.map (Proc.devRef (τ := τ) .tc)).toFinset := by
  unfold opsDense1
  simp only [List.Forall]
  repeat' apply And.intro
  all_goals exact writes_sub_of_mem _ rfl (by decide)

/-- A buffer the stretch does not write keeps its contents. -/
theorem dense1_kept (W : Valuation τ sig (Elt F)) {r : Ref sig .tc} (hr : r ∉ dense1Written) :
    after opsDense1 W (Proc.devRef .tc r) = W (Proc.devRef .tc r) :=
  after_of_writes_sub opsDense1 W dense1_writes hr

/-- The buffers the stretch writes. -/
def agg2Written : List (Ref sig .tc) :=
  [main_c_8, main_v37, main_v38, main_c_9, main_v39, main_v40, main_v41, main_v42, main_v43, main_cst_10, main_v44, main_v45, main_v46]

theorem agg2_writes : (opsAgg2 : List (HloOp τ sig (Elt F))).Forall fun op =>
    op.writes ⊆ (agg2Written.map (Proc.devRef (τ := τ) .tc)).toFinset := by
  unfold opsAgg2
  simp only [List.Forall]
  repeat' apply And.intro
  all_goals exact writes_sub_of_mem _ rfl (by decide)

/-- A buffer the stretch does not write keeps its contents. -/
theorem agg2_kept (W : Valuation τ sig (Elt F)) {r : Ref sig .tc} (hr : r ∉ agg2Written) :
    after opsAgg2 W (Proc.devRef .tc r) = W (Proc.devRef .tc r) :=
  after_of_writes_sub opsAgg2 W agg2_writes hr

/-- The buffers the stretch writes. -/
def dense2Written : List (Ref sig .tc) :=
  [main_v47, main_v48, main_v49, main_v50, main_v51, main_v52, main_v53, main_call3_cst, main_call3_v0, main_v54, main_v55, main_v56, main_v57]

theorem dense2_writes : (opsDense2 : List (HloOp τ sig (Elt F))).Forall fun op =>
    op.writes ⊆ (dense2Written.map (Proc.devRef (τ := τ) .tc)).toFinset := by
  unfold opsDense2
  simp only [List.Forall]
  repeat' apply And.intro
  all_goals exact writes_sub_of_mem _ rfl (by decide)

/-- A buffer the stretch does not write keeps its contents. -/
theorem dense2_kept (W : Valuation τ sig (Elt F)) {r : Ref sig .tc} (hr : r ∉ dense2Written) :
    after opsDense2 W (Proc.devRef .tc r) = W (Proc.devRef .tc r) :=
  after_of_writes_sub opsDense2 W dense2_writes hr

/-- The buffers the stretch writes. -/
def agg3Written : List (Ref sig .tc) :=
  [main_c_11, main_v58, main_v59, main_c_12, main_v60, main_v61, main_v62, main_v63, main_v64, main_cst_13, main_v65, main_v66, main_v67]

theorem agg3_writes : (opsAgg3 : List (HloOp τ sig (Elt F))).Forall fun op =>
    op.writes ⊆ (agg3Written.map (Proc.devRef (τ := τ) .tc)).toFinset := by
  unfold opsAgg3
  simp only [List.Forall]
  repeat' apply And.intro
  all_goals exact writes_sub_of_mem _ rfl (by decide)

/-- A buffer the stretch does not write keeps its contents. -/
theorem agg3_kept (W : Valuation τ sig (Elt F)) {r : Ref sig .tc} (hr : r ∉ agg3Written) :
    after opsAgg3 W (Proc.devRef .tc r) = W (Proc.devRef .tc r) :=
  after_of_writes_sub opsAgg3 W agg3_writes hr

/-- The buffers the stretch writes. -/
def dense3Written : List (Ref sig .tc) :=
  [main_v68, main_v69, main_v70, main_v71, main_v72, main_v73, main_v74]

theorem dense3_writes : (opsDense3 : List (HloOp τ sig (Elt F))).Forall fun op =>
    op.writes ⊆ (dense3Written.map (Proc.devRef (τ := τ) .tc)).toFinset := by
  unfold opsDense3
  simp only [List.Forall]
  repeat' apply And.intro
  all_goals exact writes_sub_of_mem _ rfl (by decide)

/-- A buffer the stretch does not write keeps its contents. -/
theorem dense3_kept (W : Valuation τ sig (Elt F)) {r : Ref sig .tc} (hr : r ∉ dense3Written) :
    after opsDense3 W (Proc.devRef .tc r) = W (Proc.devRef .tc r) :=
  after_of_writes_sub opsDense3 W dense3_writes hr

/-- The buffers the stretch writes. -/
def shiftWritten : List (Ref sig .tc) :=
  [main_call4_cst, main_call4_v0, main_call4_cst_0, main_call4_v1, main_call4_v2, main_call4_v3, main_call4_v4, main_call4_v5]

theorem shift_writes : (opsShift : List (HloOp τ sig (Elt F))).Forall fun op =>
    op.writes ⊆ (shiftWritten.map (Proc.devRef (τ := τ) .tc)).toFinset := by
  unfold opsShift
  simp only [List.Forall]
  repeat' apply And.intro
  all_goals exact writes_sub_of_mem _ rfl (by decide)

/-- A buffer the stretch does not write keeps its contents. -/
theorem shift_kept (W : Valuation τ sig (Elt F)) {r : Ref sig .tc} (hr : r ∉ shiftWritten) :
    after opsShift W (Proc.devRef .tc r) = W (Proc.devRef .tc r) :=
  after_of_writes_sub opsShift W shift_writes hr

/-- The buffers the stretch writes. -/
def logNormWritten : List (Ref sig .tc) :=
  [main_call4_v6, main_call4_cst_1, main_call4_v7, main_call4_v8, main_call4_v9, main_call4_v10, main_v75]

theorem logNorm_writes : (opsLogNorm : List (HloOp τ sig (Elt F))).Forall fun op =>
    op.writes ⊆ (logNormWritten.map (Proc.devRef (τ := τ) .tc)).toFinset := by
  unfold opsLogNorm
  simp only [List.Forall]
  repeat' apply And.intro
  all_goals exact writes_sub_of_mem _ rfl (by decide)

/-- A buffer the stretch does not write keeps its contents. -/
theorem logNorm_kept (W : Valuation τ sig (Elt F)) {r : Ref sig .tc} (hr : r ∉ logNormWritten) :
    after opsLogNorm W (Proc.devRef .tc r) = W (Proc.devRef .tc r) :=
  after_of_writes_sub opsLogNorm W logNorm_writes hr

/-- The argument arrays. -/
def argRefs : List (Ref sig .tc) :=
  [main_arg0, main_arg1, main_arg2, main_arg3, main_arg4, main_arg5, main_arg6, main_arg7, main_arg8]

/-- No stretch writes an argument array. -/
theorem args_notWritten : ∀ r ∈ argRefs, r ∉ scalesWritten ∧ r ∉ agg1Written ∧ r ∉ dense1Written ∧ r ∉ agg2Written
    ∧ r ∉ dense2Written ∧ r ∉ agg3Written ∧ r ∉ dense3Written ∧ r ∉ shiftWritten ∧ r ∉ logNormWritten := by
  decide

/-- So every argument array ends as it started. -/
theorem arg_kept (V : Valuation τ sig (Elt F)) {r : Ref sig .tc} (hr : r ∈ argRefs) :
    after ops V (Proc.devRef .tc r) = V (Proc.devRef .tc r) := by
  obtain ⟨n1, n2, n3, n4, n5, n6, n7, n8, n9⟩ := args_notWritten r hr
  rw [ops_cut]
  simp only [after_app]
  rw [logNorm_kept _ n9, shift_kept _ n8, dense3_kept _ n7, agg3_kept _ n6, dense2_kept _ n5, agg2_kept _ n4,
    dense1_kept _ n3, agg1_kept _ n2, scales_kept _ n1]

/-- The argument arrays the later stretches read are at given contents. -/
structure ArgsAt (W : Valuation τ sig (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x64, .f32⟩ : BufTy).Contents (Elt F)) (x8 : (⟨S64, .f32⟩ : BufTy).Contents (Elt F)) : Prop where
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8

/-- They stay there through a line that writes none of them. -/
theorem ArgsAt.through {W : Valuation τ sig (Elt F)} {x1 x2 : (⟨S1600000, .i32⟩ : BufTy).Contents (Elt F)}
    {x3 : (⟨S128x128, .f32⟩ : BufTy).Contents (Elt F)} {x4 : (⟨S128, .f32⟩ : BufTy).Contents (Elt F)}
    {x5 : (⟨S128x128, .f32⟩ : BufTy).Contents (Elt F)} {x6 : (⟨S128, .f32⟩ : BufTy).Contents (Elt F)}
    {x7 : (⟨S128x64, .f32⟩ : BufTy).Contents (Elt F)} {x8 : (⟨S64, .f32⟩ : BufTy).Contents (Elt F)}
    (h : ArgsAt W x1 x2 x3 x4 x5 x6 x7 x8) (l : List (HloOp τ sig (Elt F))) {Wl : List (Ref sig .tc)}
    (hW : l.Forall fun op => op.writes ⊆ (Wl.map (Proc.devRef (τ := τ) .tc)).toFinset)
    (hr : ∀ r ∈ argRefs, r ∉ Wl) : ArgsAt (after l W) x1 x2 x3 x4 x5 x6 x7 x8 :=
  ⟨(after_of_writes_sub l W hW (hr main_arg1 (by decide))).trans h.a1,
    (after_of_writes_sub l W hW (hr main_arg2 (by decide))).trans h.a2,
    (after_of_writes_sub l W hW (hr main_arg3 (by decide))).trans h.a3,
    (after_of_writes_sub l W hW (hr main_arg4 (by decide))).trans h.a4,
    (after_of_writes_sub l W hW (hr main_arg5 (by decide))).trans h.a5,
    (after_of_writes_sub l W hW (hr main_arg6 (by decide))).trans h.a6,
    (after_of_writes_sub l W hW (hr main_arg7 (by decide))).trans h.a7,
    (after_of_writes_sub l W hW (hr main_arg8 (by decide))).trans h.a8⟩

/-! ## What a stretch computes, from any contents that hold its inputs' stages -/

/-- Contents moved to a typed reference's buffer type and back are the contents. -/
theorem ofBuf_toBuf {T : BufTy} (x : TRef sig T) (v : T.Contents (Elt F)) : x.ofBuf (x.toBuf v) = v := by
  obtain ⟨r, rfl, _, _⟩ := x
  rfl

set_option maxHeartbeats 400000 in
/-- The first stretch leaves the in-degree scale at its stage of the edges' targets … -/
theorem scales_v10 (W : Valuation τ sig (Elt F)) (x1 : (⟨S1600000, .i32⟩ : BufTy).Contents (Elt F))
    (h1 : W (Proc.devRef .tc main_arg1) = x1) :
    after opsScales W (Proc.devRef .tc main_v10) = val_main_v10 x1 := by
  unfold opsScales
  after_results
  rw [h1]
  simp only [ofBuf_toBuf]
  rfl

set_option maxHeartbeats 400000 in
/-- … the out-degree scale at its stage of the edges' sources … -/
theorem scales_v12 (W : Valuation τ sig (Elt F)) (x2 : (⟨S1600000, .i32⟩ : BufTy).Contents (Elt F))
    (h2 : W (Proc.devRef .tc main_arg2) = x2) :
    after opsScales W (Proc.devRef .tc main_v12) = val_main_v12 x2 := by
  unfold opsScales
  after_results
  rw [h2]
  simp only [ofBuf_toBuf]
  rfl

set_option maxHeartbeats 400000 in
/-- … and the scaled input features at theirs. -/
theorem scales_v15 (W : Valuation τ sig (Elt F)) (x0 : (⟨S100000x128, .f32⟩ : BufTy).Contents (Elt F)) (x1 : (⟨S1600000, .i32⟩ : BufTy).Contents (Elt F))
    (h0 : W (Proc.devRef .tc main_arg0) = x0) (h1 : W (Proc.devRef .tc main_arg1) = x1) :
    after opsScales W (Proc.devRef .tc main_v15) = val_main_v15 x0 x1 := by
  unfold opsScales
  after_results
  rw [h0, h1]
  simp only [ofBuf_toBuf]
  rfl

set_option maxHeartbeats 400000 in
/-- The first aggregation leaves in its result the aggregation of the scaled features. -/
theorem agg1_read (W : Valuation τ sig (Elt F)) (x0 : (⟨S100000x128, .f32⟩ : BufTy).Contents (Elt F)) (x1 x2 : (⟨S1600000, .i32⟩ : BufTy).Contents (Elt F))
    (h15 : W (Proc.devRef .tc main_v15) = val_main_v15 x0 x1)
    (h1 : W (Proc.devRef .tc main_arg1) = x1) (h2 : W (Proc.devRef .tc main_arg2) = x2) :
    after opsAgg1 W (Proc.devRef .tc main_v25) = val_main_v25 x0 x1 x2 := by
  unfold opsAgg1
  after_results
  rw [h15, h1, h2]
  rfl

set_option maxHeartbeats 400000 in
/-- The first hidden layer's dense part leaves in its result the first hidden layer. -/
theorem dense1_read (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F))
    (h25 : W (Proc.devRef .tc main_v25) = val_main_v25 x0 x1 x2)
    (h10 : W (Proc.devRef .tc main_v10) = val_main_v10 x1) (h12 : W (Proc.devRef .tc main_v12) = val_main_v12 x2)
    (h3 : W (Proc.devRef .tc main_arg3) = x3) (h4 : W (Proc.devRef .tc main_arg4) = x4) :
    after opsDense1 W (Proc.devRef .tc main_v36) = val_main_v36 x0 x1 x2 x3 x4 := by
  unfold opsDense1
  after_results
  rw [h25, h10, h12, h3, h4]
  simp only [ofBuf_toBuf]
  rfl

set_option maxHeartbeats 400000 in
/-- The second aggregation leaves in its result the aggregation of the first hidden layer. -/
theorem agg2_read (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F))
    (h36 : W (Proc.devRef .tc main_v36) = val_main_v36 x0 x1 x2 x3 x4)
    (h1 : W (Proc.devRef .tc main_arg1) = x1) (h2 : W (Proc.devRef .tc main_arg2) = x2) :
    after opsAgg2 W (Proc.devRef .tc main_v46) = val_main_v46 x0 x1 x2 x3 x4 := by
  unfold opsAgg2
  after_results
  rw [h36, h1, h2]
  rfl

set_option maxHeartbeats 400000 in
/-- The second hidden layer's dense part leaves in its result the second hidden layer. -/
theorem dense2_read (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h46 : W (Proc.devRef .tc main_v46) = val_main_v46 x0 x1 x2 x3 x4)
    (h10 : W (Proc.devRef .tc main_v10) = val_main_v10 x1) (h12 : W (Proc.devRef .tc main_v12) = val_main_v12 x2)
    (h5 : W (Proc.devRef .tc main_arg5) = x5) (h6 : W (Proc.devRef .tc main_arg6) = x6) :
    after opsDense2 W (Proc.devRef .tc main_v57) = val_main_v57 x0 x1 x2 x3 x4 x5 x6 := by
  unfold opsDense2
  after_results
  rw [h46, h10, h12, h5, h6]
  simp only [ofBuf_toBuf]
  rfl

set_option maxHeartbeats 400000 in
/-- The third aggregation leaves in its result the aggregation of the second hidden layer. -/
theorem agg3_read (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h57 : W (Proc.devRef .tc main_v57) = val_main_v57 x0 x1 x2 x3 x4 x5 x6)
    (h1 : W (Proc.devRef .tc main_arg1) = x1) (h2 : W (Proc.devRef .tc main_arg2) = x2) :
    after opsAgg3 W (Proc.devRef .tc main_v67) = val_main_v67 x0 x1 x2 x3 x4 x5 x6 := by
  unfold opsAgg3
  after_results
  rw [h57, h1, h2]
  rfl

set_option maxHeartbeats 400000 in
/-- The last layer's linear part. -/
theorem dense3_read (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x64, .f32⟩ : BufTy).Contents (Elt F)) (x8 : (⟨S64, .f32⟩ : BufTy).Contents (Elt F))
    (h67 : W (Proc.devRef .tc main_v67) = val_main_v67 x0 x1 x2 x3 x4 x5 x6)
    (h12 : W (Proc.devRef .tc main_v12) = val_main_v12 x2)
    (h7 : W (Proc.devRef .tc main_arg7) = x7) (h8 : W (Proc.devRef .tc main_arg8) = x8) :
    after opsDense3 W (Proc.devRef .tc main_v74) = val_main_v74 x0 x1 x2 x3 x4 x5 x6 x7 x8 := by
  unfold opsDense3
  after_results
  rw [h67, h12, h7, h8]
  rfl

set_option maxHeartbeats 400000 in
/-- The linear part less each row's maximum. -/
theorem shift_read (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x64, .f32⟩ : BufTy).Contents (Elt F)) (x8 : (⟨S64, .f32⟩ : BufTy).Contents (Elt F))
    (h74 : W (Proc.devRef .tc main_v74) = val_main_v74 x0 x1 x2 x3 x4 x5 x6 x7 x8) :
    after opsShift W (Proc.devRef .tc main_call4_v5) = val_main_call4_v5 x0 x1 x2 x3 x4 x5 x6 x7 x8 := by
  unfold opsShift
  after_results
  rw [h74]
  simp only [ofBuf_toBuf]
  rfl

set_option maxHeartbeats 400000 in
/-- The shifted part less the logarithm of each row's sum of exponentials: the row-wise log-softmax. -/
theorem logNorm_read (W : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x64, .f32⟩ : BufTy).Contents (Elt F)) (x8 : (⟨S64, .f32⟩ : BufTy).Contents (Elt F))
    (h5 : W (Proc.devRef .tc main_call4_v5) = val_main_call4_v5 x0 x1 x2 x3 x4 x5 x6 x7 x8) :
    after opsLogNorm W (Proc.devRef .tc main_v75) = val_main_v75 x0 x1 x2 x3 x4 x5 x6 x7 x8 := by
  unfold opsLogNorm
  after_results
  rw [h5]
  simp only [ofBuf_toBuf]
  rfl

/-! ## The stretches threaded -/

/-- From any contents, after all the operations the result buffer holds the last stage's value of the contents' argument
    arrays: each stretch finds its inputs at their stages and leaves its result at its stage; the two degree scales and
    the argument arrays pass through the stretches that do not write them. -/
theorem result_of (V : Valuation τ sig (Elt F)) (x0 : (⟨S100000x128, .f32⟩ : BufTy).Contents (Elt F)) (x1 x2 : (⟨S1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x64, .f32⟩ : BufTy).Contents (Elt F)) (x8 : (⟨S64, .f32⟩ : BufTy).Contents (Elt F))
    (a0 : V (Proc.devRef .tc main_arg0) = x0) (A : ArgsAt V x1 x2 x3 x4 x5 x6 x7 x8) :
    after ops V (Proc.devRef .tc main_v75) = val_main_v75 x0 x1 x2 x3 x4 x5 x6 x7 x8 := by
  rw [ops_cut]
  simp only [after_app]
  -- the scales and the scaled features
  have h10 := scales_v10 V x1 A.a1
  have h12 := scales_v12 V x2 A.a2
  have h15 := scales_v15 V x0 x1 a0 A.a1
  have A := A.through opsScales scales_writes (fun r hr => (args_notWritten r hr).1)
  generalize after opsScales V = W at h10 h12 h15 A ⊢
  -- the first aggregation
  have h25 := agg1_read W x0 x1 x2 h15 A.a1 A.a2
  have h10 := (agg1_kept W (r := main_v10) (by decide)).trans h10
  have h12 := (agg1_kept W (r := main_v12) (by decide)).trans h12
  have A := A.through opsAgg1 agg1_writes (fun r hr => (args_notWritten r hr).2.1)
  clear h15
  generalize after opsAgg1 W = W at h25 h10 h12 A ⊢
  -- the first hidden layer
  have h36 := dense1_read W x0 x1 x2 x3 x4 h25 h10 h12 A.a3 A.a4
  have h10 := (dense1_kept W (r := main_v10) (by decide)).trans h10
  have h12 := (dense1_kept W (r := main_v12) (by decide)).trans h12
  have A := A.through opsDense1 dense1_writes (fun r hr => (args_notWritten r hr).2.2.1)
  clear h25
  generalize after opsDense1 W = W at h36 h10 h12 A ⊢
  -- the second aggregation
  have h46 := agg2_read W x0 x1 x2 x3 x4 h36 A.a1 A.a2
  have h10 := (agg2_kept W (r := main_v10) (by decide)).trans h10
  have h12 := (agg2_kept W (r := main_v12) (by decide)).trans h12
  have A := A.through opsAgg2 agg2_writes (fun r hr => (args_notWritten r hr).2.2.2.1)
  clear h36
  generalize after opsAgg2 W = W at h46 h10 h12 A ⊢
  -- the second hidden layer
  have h57 := dense2_read W x0 x1 x2 x3 x4 x5 x6 h46 h10 h12 A.a5 A.a6
  have h12 := (dense2_kept W (r := main_v12) (by decide)).trans h12
  have A := A.through opsDense2 dense2_writes (fun r hr => (args_notWritten r hr).2.2.2.2.1)
  clear h46 h10
  generalize after opsDense2 W = W at h57 h12 A ⊢
  -- the third aggregation
  have h67 := agg3_read W x0 x1 x2 x3 x4 x5 x6 h57 A.a1 A.a2
  have h12 := (agg3_kept W (r := main_v12) (by decide)).trans h12
  have A := A.through opsAgg3 agg3_writes (fun r hr => (args_notWritten r hr).2.2.2.2.2.1)
  clear h57
  generalize after opsAgg3 W = W at h67 h12 A ⊢
  -- the last layer's linear part, then its log-softmax
  have h74 := dense3_read W x0 x1 x2 x3 x4 x5 x6 x7 x8 h67 h12 A.a7 A.a8
  have h5 := shift_read (after opsDense3 W) x0 x1 x2 x3 x4 x5 x6 x7 x8 h74
  exact logNorm_read (after opsShift (after opsDense3 W)) x0 x1 x2 x3 x4 x5 x6 x7 x8 h5

/-- From any memory with zero counters every weakly fair execution of the reference terminates with the result buffer at
    the last stage's value of the argument arrays, the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v75)
          = val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono (fun _ h c =>
      ⟨(h c main_v75).trans (result_of (launchContents m c) _ _ _ _ _ _ _ _ _ rfl ⟨rfl, rfl, rfl, rfl, rfl, rfl, rfl, rfl⟩),
        (h c main_arg0).trans (arg_kept (launchContents m c) (by decide)),
        (h c main_arg1).trans (arg_kept (launchContents m c) (by decide)),
        (h c main_arg2).trans (arg_kept (launchContents m c) (by decide)),
        (h c main_arg3).trans (arg_kept (launchContents m c) (by decide)),
        (h c main_arg4).trans (arg_kept (launchContents m c) (by decide)),
        (h c main_arg5).trans (arg_kept (launchContents m c) (by decide)),
        (h c main_arg6).trans (arg_kept (launchContents m c) (by decide)),
        (h c main_arg7).trans (arg_kept (launchContents m c) (by decide)),
        (h c main_arg8).trans (arg_kept (launchContents m c) (by decide))⟩)
    (run_seq scopedRefs_eq scopedSems_eq defs main (fun _ => ops) main_eq (fun _ => ops_sub) m ρ)

end Cert.GConv.RefRun

end
-- ==== Proof.MaskPre.lean ====
/-
  The source indices are nodes': what the precondition says, and what it gives the gather step.

  The precondition says every edge's source index lies between 0 and 99999. Then no index is wrapped, every edge's mask
  bit is set, and the kernel program's gather step returns the gathered rows themselves: the fill value is never taken.
-/
import proofs.«410822_j78529182040196_1_alg».proof.Defs
import proofs.«410822_j78529182040196_1_alg».proof.Proof.Gen.KernelIdeal
import proofs.«410822_j78529182040196_1_alg».proof.Proof.Gen.Pre_finite_inputs
import proofs.«410822_j78529182040196_1_alg».proof.Proof.KerTake
import Idealize.ShloMosaic.Lib.ReduceAll
import Idealize.ShloMosaic.Lib.StableHlo.Predicate
import Idealize.ShloMosaic.Lib.ValueIdx

noncomputable section

namespace Cert.GConv.Mask

open Cert.KernelIdeal Cert.GConv.KTake
open Idealize.ShloMosaic Idealize.ShloMosaic.TcCoe Idealize.ShloMosaic.ValueIdx
open Idealize.SL.Sem

/-- Every edge's source index is a node's: at least 0 and at most 99999, as signed words. -/
def SrcInRange (src : IVec S1600000 32) : Prop :=
  ∀ e : S1600000.Idx, IntOp.cmpi .sge (src e) 0#32 = 1#1 ∧ IntOp.cmpi .sle (src e) 99999#32 = 1#1

/-! ## The precondition's last conjunct

  The precondition is a chain of conjunctions, printed in three parts; the last part's result is the conjunction of
  everything before it with one bit: the conjunction over all edges of "the source index is at least 0 and at most
  99999". The whole being 1, that bit is 1, so every edge's two comparisons are 1. -/

/-- The precondition's last part holds, of some value of the conjuncts before it. -/
theorem pre_lastPart (a0 : FVec Ideal Cert.Pre_finite_inputs.S100000x128 .f32) (a1 a2 : IVec Cert.Pre_finite_inputs.S1600000 32)
    (a3 : FVec Ideal Cert.Pre_finite_inputs.S128x128 .f32) (a4 : FVec Ideal Cert.Pre_finite_inputs.S128 .f32)
    (a5 : FVec Ideal Cert.Pre_finite_inputs.S128x128 .f32) (a6 : FVec Ideal Cert.Pre_finite_inputs.S128 .f32)
    (a7 : FVec Ideal Cert.Pre_finite_inputs.S128x64 .f32) (a8 : FVec Ideal Cert.Pre_finite_inputs.S64 .f32)
    (hfn : Cert.Pre_finite_inputs.fn (F := Ideal) a0 a1 a2 a3 a4 a5 a6 a7 a8 = fun _ => 1#1) :
    ∃ v : IVec Cert.Pre_finite_inputs.S_ 1, Cert.Pre_finite_inputs.fn_part2 (F := Ideal) a1 v = fun _ => 1#1 :=
  ⟨_, hfn⟩

/-- The last part read at an edge: both comparisons of the edge's source index are 1. -/
theorem lastPart_reads (a1 : IVec Cert.Pre_finite_inputs.S1600000 32) (v : IVec Cert.Pre_finite_inputs.S_ 1)
    (hp : Cert.Pre_finite_inputs.fn_part2 (F := Ideal) a1 v = fun _ => 1#1) (e : Cert.Pre_finite_inputs.S1600000.Idx) :
    IntOp.cmpi .sge (a1 e) 0#32 = 1#1 ∧ IntOp.cmpi .sle (a1 e) 99999#32 = 1#1 := by
  haveI : Subsingleton Cert.Pre_finite_inputs.S_.Idx := ⟨fun a b => funext fun d => d.elim0⟩
  have e1 := congrFun hp ix0
  unfold Cert.Pre_finite_inputs.fn_part2 at e1
  dsimp only at e1
  have e2 := (IntOp.andi_eq_one.1 e1).2
  have e3 := Host.reduce_andi_all _ _ _ _ _ e2 e
  exact IntOp.andi_eq_one.1 e3

/-- The precondition's last conjunct, decoded: on every device the source indices are nodes'. -/
theorem srcInRange_of_pre (m : (ℓ : Loc Cert.KernelIdeal.nD Cert.KernelIdeal.τ Cert.KernelIdeal.sig) → Buf (Elt Ideal) ℓ)
    (h : Cert.Pre_KernelIdeal m) (c : Dev Cert.KernelIdeal.nD) :
    SrcInRange (m ((c.tc : Thread Cert.KernelIdeal.nD Cert.KernelIdeal.τ).loc Cert.KernelIdeal.main_arg1)) := by
  unfold SrcInRange
  intro e
  obtain ⟨v, hv⟩ := pre_lastPart _ _ _ _ _ _ _ _ _ (h c)
  exact lastPart_reads _ v hv e

/-! ## Every mask bit is set

  A source index that is at least 0 is not below 0, so it is not wrapped: the index column holds the source indices
  themselves. Both of the mask's comparisons are then 1 at every entry, and a conjunction of ones from 1 is 1. -/

/-- A word that is at least 0 is not below 0. -/
theorem slt_zero_of_sge (x : BitVec 32) (h : IntOp.cmpi .sge x 0#32 = 1#1) : IntOp.cmpi .slt x 0#32 = 0#1 := by
  rcases BitVec.eq_zero_or_eq_one (IntOp.cmpi .slt x 0#32) with h0 | h1
  · exact h0
  · exfalso
    have a := IntOp.cmpi_slt.1 h1
    have b := IntOp.cmpi_sge.1 h
    omega

/-- A broadcast reads its operand somewhere. -/
theorem bcast_reads {α : Type} {s t : Shape} (dims : Fin s.rank → Fin t.rank) (hb : s.BroadcastsInDim t dims) (x : s.Idx → α)
    (j : t.Idx) : ∃ k : s.Idx, broadcastInDim t dims hb x j = x k := ⟨_, rfl⟩

/-- Every entry of the index column is a source index. -/
theorem kIdx_reads (src : IVec S1600000 32) (hs : SrcInRange src) (i : S1600000x1.Idx) :
    ∃ k : S1600000.Idx, kIdx src i = src k := by
  have h1 : ∃ k : S1600000.Idx, kIdx src i
      = Scalar.select (IntOp.cmpi .slt (src k) 0#32) (IntOp.addi (src k) 100000#32) (src k) := ⟨_, rfl⟩
  obtain ⟨k, hk⟩ := h1
  exact ⟨k, by rw [hk, slt_zero_of_sge _ (hs k).1, select_zero]⟩

/-- A left fold of the conjunction over entries that are all 1, from 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- Every edge's mask bit is set. -/
theorem kMask_one (src : IVec S1600000 32) (hs : SrcInRange src) (e : S1600000.Idx) : kMask (kIdx src) e = 1#1 := by
  unfold kMask
  rw [Host.reduce_eq_foldl]
  refine foldl_andi_ones _ (fun i => ?_) _
  obtain ⟨k, hk⟩ := kIdx_reads src hs i
  show IntOp.andi (IntOp.cmpi .sge (kIdx src i) 0#32) (IntOp.cmpi .sle (kIdx src i) 99999#32) = 1#1
  rw [hk, (hs k).1, (hs k).2]
  decide

/-- With the source indices nodes', the gather step returns the gathered rows: every mask bit is set. -/
theorem kTake_eq_gather (h : FVec Ideal S100000x128 .f32) (src : IVec S1600000 32) (hs : SrcInRange src) :
    kTake h src = Host.gather gather_S100000x128_S1600000x1_S1600000x128_1_0_n_n_0_1_1128 h (kIdx src) := by
  funext y
  unfold kTake
  rw [select_apply]
  obtain ⟨e, he⟩ := bcast_reads _ Cert.KernelIdeal.Gen.bcast_S1600000_S1600000x128_0 (kMask (kIdx src)) y
  rw [he, kMask_one src hs e, select_one]

end Cert.GConv.Mask

end
-- ==== Proof.RefValue.lean ====
/-
  The reference program's result as the three-layer network over its own aggregation step.

  The reference computes, per layer, the aggregation (gather the scaled rows at the edges' sources, add them into the
  edges' targets), the in-degree scaling, the product with the weights, the bias, and then either the rectification and
  the out-degree scaling or the row-wise log-softmax. Read index by index these are the layers of the specification.
-/
import proofs.«410822_j78529182040196_1_alg».proof.Defs
import proofs.«410822_j78529182040196_1_alg».proof.Proof.RefRead
import proofs.«410822_j78529182040196_1_alg».proof.Proof.Spec
import proofs.«410822_j78529182040196_1_alg».proof.Proof.LibDot

noncomputable section

namespace Cert.GConv.Ref

open Cert.ReferenceIdeal Cert.ReferenceIdeal.ReadP Cert.GConv
open Idealize.ShloMosaic Idealize.ShloMosaic.TcCoe Idealize.ShloMosaic.ValueIdx

/-- The reference's aggregation step: the rows of `h` gathered at the edges' (wrapped) sources, added into the edges'
    targets from a zero array. -/
def rAgg (x1 x2 : (⟨S1600000, .i32⟩ : BufTy).Contents (Elt Ideal)) (h : (⟨S100000x128, .f32⟩ : BufTy).Contents (Elt Ideal)) :
    (⟨S100000x128, .f32⟩ : BufTy).Contents (Elt Ideal) :=
  Host.scatterAdd (F := Ideal) (φ := .f32) scatter_S100000x128_S1600000x1_S1600000x128_1_0_0_1 (val_main_v23 (F := Ideal)) (val_main_v24 (F := Ideal) x2)
    (Host.gather gather_S100000x128_S1600000x1_S1600000x128_1_0_n_n_0_1_1128 h (val_main_v21 (F := Ideal) x1))

/-! ## The three aggregation steps are the one function

  Each layer rebuilds the zero array, the column of targets and the column of wrapped sources under new names; the terms
  are the same, so each layer's gather-then-scatter is rAgg x1 x2 of the layer's input. -/

section Names

variable {F : FTy → Type} [FloatOps F]

theorem zeros2_eq : val_main_v44 (F := F) = val_main_v23 (F := F) := by
  unfold val_main_v44 val_main_v23 val_main_cst_10 val_main_cst_7
  rfl

theorem zeros3_eq : val_main_v65 (F := F) = val_main_v23 (F := F) := by
  unfold val_main_v65 val_main_v23 val_main_cst_13 val_main_cst_7
  rfl

theorem targets2_eq (x2 : (⟨S1600000, .i32⟩ : BufTy).Contents (Elt F)) :
    val_main_v45 (F := F) x2 = val_main_v24 (F := F) x2 := by
  unfold val_main_v45 val_main_v24
  rfl

theorem targets3_eq (x2 : (⟨S1600000, .i32⟩ : BufTy).Contents (Elt F)) :
    val_main_v66 (F := F) x2 = val_main_v24 (F := F) x2 := by
  unfold val_main_v66 val_main_v24
  rfl

theorem sources2_eq (x1 : (⟨S1600000, .i32⟩ : BufTy).Contents (Elt F)) :
    val_main_v42 (F := F) x1 = val_main_v21 (F := F) x1 := by
  unfold val_main_v42 val_main_v21 val_main_v41 val_main_v20 val_main_v38 val_main_v17 val_main_v40 val_main_v19
    val_main_v37 val_main_v16 val_main_v39 val_main_v18 val_main_c_8 val_main_c val_main_c_9 val_main_c_6
  rfl

theorem sources3_eq (x1 : (⟨S1600000, .i32⟩ : BufTy).Contents (Elt F)) :
    val_main_v63 (F := F) x1 = val_main_v21 (F := F) x1 := by
  unfold val_main_v63 val_main_v21 val_main_v62 val_main_v20 val_main_v59 val_main_v17 val_main_v61 val_main_v19
    val_main_v58 val_main_v16 val_main_v60 val_main_v18 val_main_c_11 val_main_c val_main_c_12 val_main_c_6
  rfl

/-- The out-degree column is built once per hidden layer, from the same degrees. -/
theorem nsrc1_eq (x1 : (⟨S1600000, .i32⟩ : BufTy).Contents (Elt F)) :
    val_main_v34 (F := F) x1 = val_main_v13 (F := F) x1 := by
  unfold val_main_v34 val_main_v13
  rfl

theorem nsrc2_eq (x1 : (⟨S1600000, .i32⟩ : BufTy).Contents (Elt F)) :
    val_main_v55 (F := F) x1 = val_main_v13 (F := F) x1 := by
  unfold val_main_v55 val_main_v13
  rfl

/-- The in-degree column is built once per layer, from the same degrees. -/
theorem ndst2_eq (x2 : (⟨S1600000, .i32⟩ : BufTy).Contents (Elt F)) :
    val_main_v47 (F := F) x2 = val_main_v26 (F := F) x2 := by
  unfold val_main_v47 val_main_v26
  rfl

theorem ndst3_eq (x2 : (⟨S1600000, .i32⟩ : BufTy).Contents (Elt F)) :
    val_main_v68 (F := F) x2 = val_main_v26 (F := F) x2 := by
  unfold val_main_v68 val_main_v26
  rfl

end Names

section Stages

variable (x0 : (⟨S100000x128, .f32⟩ : BufTy).Contents (Elt Ideal)) (x1 x2 : (⟨S1600000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x64, .f32⟩ : BufTy).Contents (Elt Ideal)) (x8 : (⟨S64, .f32⟩ : BufTy).Contents (Elt Ideal))

theorem agg1_eq : val_main_v25 (F := Ideal) x0 x1 x2 = rAgg x1 x2 (val_main_v15 (F := Ideal) x0 x1) := by
  unfold val_main_v25 val_main_v22 rAgg
  rfl

theorem agg2_eq :
    val_main_v46 (F := Ideal) x0 x1 x2 x3 x4 = rAgg x1 x2 (val_main_v36 (F := Ideal) x0 x1 x2 x3 x4) := by
  unfold val_main_v46 val_main_v43 rAgg
  rw [zeros2_eq, targets2_eq, sources2_eq]

theorem agg3_eq :
    val_main_v67 (F := Ideal) x0 x1 x2 x3 x4 x5 x6 = rAgg x1 x2 (val_main_v57 (F := Ideal) x0 x1 x2 x3 x4 x5 x6) := by
  unfold val_main_v67 val_main_v64 rAgg
  rw [zeros3_eq, targets3_eq, sources3_eq]

/-! ## The indices the stages read at

  At the point (n, j) the product reads its left operand at (n, k) and its right at (k, j); a column broadcast along
  the rows reads (n, 0), a row broadcast along the columns reads j. -/

theorem lidx1 (n : Fin 100000) (j k : Fin 128) : lidx_main_v29 (ix2 n j) k = ix2 n k :=
  funext fun a => Fin.ext (by match a with | ⟨0, _⟩ => rfl | ⟨1, _⟩ => rfl)
theorem ridx1 (n : Fin 100000) (j k : Fin 128) : ridx_main_v29 (ix2 n j) k = ix2 k j :=
  funext fun a => Fin.ext (by match a with | ⟨0, _⟩ => rfl | ⟨1, _⟩ => rfl)
theorem ndstIdx1 (n : Fin 100000) (k : Fin 128) : idx_main_v27 (ix2 n k) = ix2 n (0 : Fin 1) :=
  funext fun a => Fin.ext (by match a with | ⟨0, _⟩ => rfl | ⟨1, _⟩ => rfl)
theorem biasIdx1 (n : Fin 100000) (j : Fin 128) : idx_main_v30 (idx_main_v31 (ix2 n j)) = ix1 j :=
  funext fun a => Fin.ext (by match a with | ⟨0, _⟩ => rfl)
theorem nsrcIdx1 (n : Fin 100000) (j : Fin 128) : idx_main_v35 (ix2 n j) = ix2 n (0 : Fin 1) :=
  funext fun a => Fin.ext (by match a with | ⟨0, _⟩ => rfl | ⟨1, _⟩ => rfl)

theorem lidx2 (n : Fin 100000) (j k : Fin 128) : lidx_main_v50 (ix2 n j) k = ix2 n k :=
  funext fun a => Fin.ext (by match a with | ⟨0, _⟩ => rfl | ⟨1, _⟩ => rfl)
theorem ridx2 (n : Fin 100000) (j k : Fin 128) : ridx_main_v50 (ix2 n j) k = ix2 k j :=
  funext fun a => Fin.ext (by match a with | ⟨0, _⟩ => rfl | ⟨1, _⟩ => rfl)
theorem ndstIdx2 (n : Fin 100000) (k : Fin 128) : idx_main_v48 (ix2 n k) = ix2 n (0 : Fin 1) :=
  funext fun a => Fin.ext (by match a with | ⟨0, _⟩ => rfl | ⟨1, _⟩ => rfl)
theorem biasIdx2 (n : Fin 100000) (j : Fin 128) : idx_main_v51 (idx_main_v52 (ix2 n j)) = ix1 j :=
  funext fun a => Fin.ext (by match a with | ⟨0, _⟩ => rfl)
theorem nsrcIdx2 (n : Fin 100000) (j : Fin 128) : idx_main_v56 (ix2 n j) = ix2 n (0 : Fin 1) :=
  funext fun a => Fin.ext (by match a with | ⟨0, _⟩ => rfl | ⟨1, _⟩ => rfl)

theorem lidx3 (n : Fin 100000) (j : Fin 64) (k : Fin 128) : lidx_main_v71 (ix2 n j) k = ix2 n k :=
  funext fun a => Fin.ext (by match a with | ⟨0, _⟩ => rfl | ⟨1, _⟩ => rfl)
theorem ridx3 (n : Fin 100000) (j : Fin 64) (k : Fin 128) : ridx_main_v71 (ix2 n j) k = ix2 k j :=
  funext fun a => Fin.ext (by match a with | ⟨0, _⟩ => rfl | ⟨1, _⟩ => rfl)
theorem ndstIdx3 (n : Fin 100000) (k : Fin 128) : idx_main_v69 (ix2 n k) = ix2 n (0 : Fin 1) :=
  funext fun a => Fin.ext (by match a with | ⟨0, _⟩ => rfl | ⟨1, _⟩ => rfl)
theorem biasIdx3 (n : Fin 100000) (j : Fin 64) : idx_main_v72 (idx_main_v73 (ix2 n j)) = ix1 j :=
  funext fun a => Fin.ext (by match a with | ⟨0, _⟩ => rfl)

theorem maxColIdx (n : Fin 100000) (j : Fin 64) : idx_main_call4_v4 (ix2 n j) = ix2 n (0 : Fin 1) :=
  funext fun a => Fin.ext (by match a with | ⟨0, _⟩ => rfl | ⟨1, _⟩ => rfl)
theorem maxRowIdx (n : Fin 100000) : idx_main_call4_v3 (ix2 n (0 : Fin 1)) = ix1 n :=
  funext fun a => Fin.ext (by match a with | ⟨0, _⟩ => rfl)
theorem sumColIdx (n : Fin 100000) (j : Fin 64) : idx_main_call4_v10 (ix2 n j) = ix2 n (0 : Fin 1) :=
  funext fun a => Fin.ext (by match a with | ⟨0, _⟩ => rfl | ⟨1, _⟩ => rfl)
theorem sumRowIdx (n : Fin 100000) : idx_main_call4_v8 (ix2 n (0 : Fin 1)) = ix1 n :=
  funext fun a => Fin.ext (by match a with | ⟨0, _⟩ => rfl)
theorem sumIdx (n : Fin 100000) (k : Fin 64) : idx_main_call4_v7 (ix1 n) k = ix2 n k :=
  funext fun a => Fin.ext (by match a with | ⟨0, _⟩ => rfl | ⟨1, _⟩ => rfl)

/-! ## The two hidden layers -/

/-- The first hidden layer: the stage after the rectification and the out-degree scaling is the specification's layer
    over the first aggregate. -/
theorem layer1_eq :
    val_main_v36 (F := Ideal) x0 x1 x2 x3 x4
      = reluLayer (val_main_v25 (F := Ideal) x0 x1 x2) (val_main_v26 (F := Ideal) x2) (val_main_v34 (F := Ideal) x1) x3 x4 := by
  funext y
  obtain ⟨n, j, rfl⟩ : ∃ (n : Fin 100000) (j : Fin 128), y = ix2 n j := ⟨y 0, y 1, eq_ix2 y⟩
  have hk : ∀ k : Fin 128,
      val_main_v28 (F := Ideal) x0 x1 x2 (lidx_main_v29 (ix2 n j) k) * x3 (ridx_main_v29 (ix2 n j) k)
        = val_main_v25 (F := Ideal) x0 x1 x2 (ix2 n k) * val_main_v26 (F := Ideal) x2 (ix2 n (0 : Fin 1)) * x3 (ix2 k j) := by
    intro k
    rw [lidx1 n j k, ridx1 n j k, val_main_v28_apply, val_main_v27_apply, ndstIdx1 n k, Ideal.mulf_def]
  rw [reluLayer_apply, val_main_v36_apply, val_main_v33_apply, val_main_v32_apply, val_main_v29_apply,
    Finset.sum_congr rfl (fun k _ => hk k), val_main_v31_apply, val_main_v30_apply, biasIdx1 n j,
    val_main_call2_v0_apply, val_main_call2_cst_apply, val_main_v35_apply, nsrcIdx1 n j]
  unfold reluAt lin
  simp only [Ideal.mulf_def, Ideal.addf_def, Ideal.maximumf_def, Ideal.ofBits_def]

/-- The second hidden layer, over the second aggregate. -/
theorem layer2_eq :
    val_main_v57 (F := Ideal) x0 x1 x2 x3 x4 x5 x6
      = reluLayer (val_main_v46 (F := Ideal) x0 x1 x2 x3 x4) (val_main_v47 (F := Ideal) x2) (val_main_v55 (F := Ideal) x1) x5 x6 := by
  funext y
  obtain ⟨n, j, rfl⟩ : ∃ (n : Fin 100000) (j : Fin 128), y = ix2 n j := ⟨y 0, y 1, eq_ix2 y⟩
  have hk : ∀ k : Fin 128,
      val_main_v49 (F := Ideal) x0 x1 x2 x3 x4 (lidx_main_v50 (ix2 n j) k) * x5 (ridx_main_v50 (ix2 n j) k)
        = val_main_v46 (F := Ideal) x0 x1 x2 x3 x4 (ix2 n k) * val_main_v47 (F := Ideal) x2 (ix2 n (0 : Fin 1)) * x5 (ix2 k j) := by
    intro k
    rw [lidx2 n j k, ridx2 n j k, val_main_v49_apply, val_main_v48_apply, ndstIdx2 n k, Ideal.mulf_def]
  rw [reluLayer_apply, val_main_v57_apply, val_main_v54_apply, val_main_v53_apply, val_main_v50_apply,
    Finset.sum_congr rfl (fun k _ => hk k), val_main_v52_apply, val_main_v51_apply, biasIdx2 n j,
    val_main_call3_v0_apply, val_main_call3_cst_apply, val_main_v56_apply, nsrcIdx2 n j]
  unfold reluAt lin
  simp only [Ideal.mulf_def, Ideal.addf_def, Ideal.maximumf_def, Ideal.ofBits_def]

/-! ## The last layer

  Its linear part is read as the hidden layers' is. The row maximum is a fold of the maximum over the row's 64 entries
  from −∞; the maximum of −∞ with that fold is the fold, which is at least its initial value. The row sum of the
  exponentials is a sum over the 64 entries from zero. -/

/-- The last layer's linear part. -/
theorem lin3_eq (n : Fin 100000) (j : Fin 64) :
    val_main_v74 (F := Ideal) x0 x1 x2 x3 x4 x5 x6 x7 x8 (ix2 n j)
      = lin (val_main_v67 (F := Ideal) x0 x1 x2 x3 x4 x5 x6) (val_main_v68 (F := Ideal) x2) x7 x8 n j := by
  have hk : ∀ k : Fin 128,
      val_main_v70 (F := Ideal) x0 x1 x2 x3 x4 x5 x6 (lidx_main_v71 (ix2 n j) k) * x7 (ridx_main_v71 (ix2 n j) k)
        = val_main_v67 (F := Ideal) x0 x1 x2 x3 x4 x5 x6 (ix2 n k) * val_main_v68 (F := Ideal) x2 (ix2 n (0 : Fin 1)) * x7 (ix2 k j) := by
    intro k
    rw [lidx3 n j k, ridx3 n j k, val_main_v70_apply, val_main_v69_apply, ndstIdx3 n k, Ideal.mulf_def]
  rw [val_main_v74_apply, val_main_v71_apply, Finset.sum_congr rfl (fun k _ => hk k), val_main_v73_apply,
    val_main_v72_apply, biasIdx3 n j, Ideal.addf_def]
  unfold lin
  rfl

/-- Row n with the column k put back is the point (n, k). -/
theorem lift_row (h : S100000x64.Reduces [1] S100000) (n : Fin 100000) (k : Fin (S100000x64.size 1)) :
    h.lift (ix1 n) k = ix2 n (⟨k.val, k.isLt⟩ : Fin 64) := by
  funext c
  apply Fin.ext
  match c with
  | ⟨0, _⟩ => rfl
  | ⟨1, _⟩ => rfl

/-- The host's reduction of an array of rows by the maximum, at row n: the fold of the maximum over the row's
    entries from the initial value. -/
theorem hostRowMax (g : FVec Ideal S100000x64 .f32) (init : FVec Ideal S_ .f32)
    (h' : S100000x64.ReducesTo [1] S100000) (hu : 0 < S_.numel) (n : Fin 100000) :
    Host.reduce (FloatOps.maximumf (F := Ideal) (φ := .f32)) g init h' hu (ix1 n)
      = (Finset.univ : Finset (Fin 64)).fold max (init (Shape.Idx.first hu)) (fun j => g (ix2 n j)) := by
  have h : S100000x64.Reduces [1] S100000 := by decide
  rw [Host.reduce_eq_fold_single (FloatOps.maximumf (F := Ideal) (φ := .f32)) g init h' h hu]
  have hf : (g ∘ h.lift (ix1 n)) = fun k : Fin 64 => g (ix2 n k) :=
    funext fun k => congrArg g (lift_row h n k)
  exact congrArg (fun f => Finset.fold max (init (Shape.Idx.first hu)) f (Finset.univ : Finset (Fin 64))) hf

/-- The row maximum the reference subtracts is the specification's. -/
theorem rowMax3_eq (n : Fin 100000) :
    val_main_call4_v2 (F := Ideal) x0 x1 x2 x3 x4 x5 x6 x7 x8 (ix1 n)
      = rowMax (val_main_v67 (F := Ideal) x0 x1 x2 x3 x4 x5 x6) (val_main_v68 (F := Ideal) x2) x7 x8 n := by
  have hf : (fun j : Fin 64 => val_main_v74 (F := Ideal) x0 x1 x2 x3 x4 x5 x6 x7 x8 (ix2 n j))
      = fun j : Fin 64 => lin (val_main_v67 (F := Ideal) x0 x1 x2 x3 x4 x5 x6) (val_main_v68 (F := Ideal) x2) x7 x8 n j :=
    funext fun j => lin3_eq x0 x1 x2 x3 x4 x5 x6 x7 x8 n j
  rw [val_main_call4_v2_apply, val_main_call4_v1_apply, val_main_call4_cst_0_apply]
  unfold val_main_call4_v0
  rw [hostRowMax, hf, val_main_call4_cst_apply, Ideal.maximumf_def, Ideal.ofBits_def,
    max_eq_right ((Finset.le_fold_max _).2 (Or.inl le_rfl))]
  rfl

/-- The last layer: the stage after the log-softmax is the specification's layer over the third aggregate. -/
theorem final_eq :
    val_main_v75 (F := Ideal) x0 x1 x2 x3 x4 x5 x6 x7 x8
      = finalLayer (val_main_v67 (F := Ideal) x0 x1 x2 x3 x4 x5 x6) (val_main_v68 (F := Ideal) x2) x7 x8 := by
  funext y
  obtain ⟨n, j, rfl⟩ : ∃ (n : Fin 100000) (j : Fin 64), y = ix2 n j := ⟨y 0, y 1, eq_ix2 y⟩
  have hs : ∀ j' : Fin 64, val_main_call4_v5 (F := Ideal) x0 x1 x2 x3 x4 x5 x6 x7 x8 (ix2 n j')
      = shifted (val_main_v67 (F := Ideal) x0 x1 x2 x3 x4 x5 x6) (val_main_v68 (F := Ideal) x2) x7 x8 n j' := by
    intro j'
    rw [val_main_call4_v5_apply, val_main_call4_v4_apply, maxColIdx n j', val_main_call4_v3_apply, maxRowIdx n,
      rowMax3_eq, lin3_eq, Ideal.subf_def]
    rfl
  have he : ∀ k : Fin 64, val_main_call4_v6 (F := Ideal) x0 x1 x2 x3 x4 x5 x6 x7 x8 (idx_main_call4_v7 (ix1 n) k)
      = Ideal.exp (shifted (val_main_v67 (F := Ideal) x0 x1 x2 x3 x4 x5 x6) (val_main_v68 (F := Ideal) x2) x7 x8 n k) := by
    intro k
    rw [sumIdx n k, val_main_call4_v6_apply, hs k, Ideal.hostUnary_exp_def]
  rw [finalLayer_apply, val_main_v75_apply, hs j, val_main_call4_v10_apply, sumColIdx n j, val_main_call4_v9_apply,
    val_main_call4_v8_apply, sumRowIdx n, val_main_call4_v7_apply, val_main_call4_cst_1_apply,
    Finset.sum_congr rfl (fun k _ => he k), Ideal.ofBits_def, Ideal.ofBits_zero_f32, zero_add,
    Ideal.hostUnary_log_def, Ideal.subf_def]
  rfl

end Stages

/-- The reference's result is the network over its aggregation step, from its scaled input features, with its two
    columns of degree scales. -/
theorem ref_result (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x64, .f32⟩ : BufTy).Contents (Elt Ideal)) (x8 : (⟨S64, .f32⟩ : BufTy).Contents (Elt Ideal)) :
    val_main_v75 (F := Ideal) x0 x1 x2 x3 x4 x5 x6 x7 x8
      = network (rAgg x1 x2) (val_main_v15 (F := Ideal) x0 x1) (val_main_v26 (F := Ideal) x2) (val_main_v13 (F := Ideal) x1)
          x3 x4 x5 x6 x7 x8 := by
  unfold network
  rw [final_eq, agg3_eq, layer2_eq, agg2_eq, layer1_eq, agg1_eq, ndst3_eq, ndst2_eq, nsrc2_eq, nsrc1_eq]

end Cert.GConv.Ref

end
-- ==== Proof.Bridge.lean ====
/-
  The kernel program's network is the reference's.

  The two programs' degree-scale columns are one function of the edge indices (the kernel program casts the vector of
  scales to a column, the reference broadcasts it to one: the same column), their scaled input features are one array,
  and — the source indices being nodes' — their aggregation steps are one function: the kernel program's gather step
  never takes its fill value, and the gathered rows are then added into the targets by the same operation. So the
  network over the kernel program's terms is the reference's last stage.
-/
import proofs.«410822_j78529182040196_1_alg».proof.Proof.KerTerms
import proofs.«410822_j78529182040196_1_alg».proof.Proof.MaskPre
import proofs.«410822_j78529182040196_1_alg».proof.Proof.RefValue

noncomputable section

namespace Cert.GConv.Bridge

open Cert.GConv Cert.GConv.KTake Cert.GConv.KHost Cert.GConv.Mask Cert.GConv.Ref
open Idealize.ShloMosaic Idealize.ShloMosaic.TcCoe Idealize.ShloMosaic.ValueIdx

section Terms

open Cert.ReferenceIdeal.ReadP

/-! ## A vector as a column, two ways

  A vector of length 100000 cast to a column and the same vector broadcast to a column are one function: at (n, 0) both
  read the vector at n. -/

theorem cast_col_eq_bcast {α : Type} (v : (⟨1, ![100000]⟩ : Shape).Idx → α)
    (hc : (⟨1, ![100000]⟩ : Shape).ShapeCasts ⟨2, ![100000, 1]⟩)
    (hb : (⟨1, ![100000]⟩ : Shape).BroadcastsInDim ⟨2, ![100000, 1]⟩ ![0]) :
    (fun i => shapeCast ⟨2, ![100000, 1]⟩ v hc i) = broadcastInDim ⟨2, ![100000, 1]⟩ ![0] hb v := by
  funext y
  obtain ⟨n, u, rfl⟩ : ∃ (n : Fin 100000) (u : Fin 1), y = ix2 n u := ⟨y 0, y 1, eq_ix2 y⟩
  have hcast : shapeCast ⟨2, ![100000, 1]⟩ v hc (ix2 n u) = v (ix1 n) :=
    shapeCast_apply v hc (ix2 n u) (ix1 n) (by
      have hu : u.val = 0 := by omega
      rw [Shape.rowMajor_val_one, Shape.rowMajor_val_two]
      show n.val = n.val * 1 + u.val
      omega)
  have hbc : broadcastInDim ⟨2, ![100000, 1]⟩ ![0] hb v (ix2 n u) = v (ix1 n) :=
    broadcastInDim_apply _ hb v (ix2 n u) (ix1 n) (fun a => match a with
      | ⟨0, _⟩ => by show n.val = if (100000 : Nat) = 1 then 0 else n.val; rw [if_neg (by decide)])
  exact hcast.trans hbc.symm

/-! ## The degree-scale columns

  The kernel program and the reference count the edges at each node by the same operations, clamp the counts at one
  and raise them to the power −1/2 in the same way; the two programs' shape records are the same literals. -/

/-- The in-degree column. -/
theorem kCol_ndst (idx : IVec Cert.KernelIdeal.S1600000 32) : kCol idx = val_main_v26 (F := Ideal) idx := by
  unfold kCol colOf
  refine (cast_col_eq_bcast _ _ Cert.ReferenceIdeal.Gen.bcast_S100000_S100000x1_0).trans ?_
  unfold val_main_v26 val_main_v12 val_main_v8 val_main_call1_v1 val_main_call1_v0 val_main_cst_3 val_main_v7 val_main_v5
    val_main_cst_2 val_main_v6 val_main_v0 val_main_cst val_main_v11 val_main_cst_5 degK
  rfl

/-- The out-degree column. -/
theorem kCol_nsrc (idx : IVec Cert.KernelIdeal.S1600000 32) : kCol idx = val_main_v13 (F := Ideal) idx := by
  unfold kCol colOf
  refine (cast_col_eq_bcast _ _ Cert.ReferenceIdeal.Gen.bcast_S100000_S100000x1_0).trans ?_
  unfold val_main_v13 val_main_v10 val_main_v4 val_main_call0_v1 val_main_call0_v0 val_main_cst_1 val_main_v3 val_main_v1
    val_main_cst_0 val_main_v2 val_main_v0 val_main_cst val_main_v9 val_main_cst_4 degK
  rfl

/-! ## The scaled input features -/

theorem kH0_eq (x0 : FVec Ideal Cert.KernelIdeal.S100000x128 .f32) (x1 : IVec Cert.KernelIdeal.S1600000 32) :
    kH0 x0 x1 = val_main_v15 (F := Ideal) x0 x1 := by
  unfold kH0 val_main_v15 val_main_v14
  rw [kCol_nsrc x1]

/-! ## The aggregation step -/

/-- The wrapped index column is the reference's. -/
theorem kIdx_eq (x1 : IVec Cert.KernelIdeal.S1600000 32) : kIdx x1 = val_main_v21 (F := Ideal) x1 := by
  unfold kIdx val_main_v21 val_main_v20 val_main_v17 val_main_v16 val_main_c val_main_v19 val_main_v18 val_main_c_6
  rfl

/-- With the source indices nodes', the gather step takes no fill value, and the two programs' aggregation steps are one
    function. -/
theorem kAgg_eq (x1 x2 : IVec Cert.KernelIdeal.S1600000 32) (hs : SrcInRange x1) : kAgg x1 x2 = rAgg x1 x2 := by
  funext h
  unfold kAgg rAgg
  rw [kTake_eq_gather h x1 hs, kIdx_eq x1]
  unfold val_main_v23 val_main_cst_7 val_main_v24
  rfl

end Terms

/-- With the source indices nodes', the network over the kernel program's host-side terms is the reference's result
    stage. -/
theorem network_eq (x0 : FVec Ideal Cert.KernelIdeal.S100000x128 .f32) (x1 x2 : IVec Cert.KernelIdeal.S1600000 32)
    (x3 : FVec Ideal Cert.KernelIdeal.S128x128 .f32) (x4 : FVec Ideal Cert.KernelIdeal.S128 .f32)
    (x5 : FVec Ideal Cert.KernelIdeal.S128x128 .f32) (x6 : FVec Ideal Cert.KernelIdeal.S128 .f32)
    (x7 : FVec Ideal Cert.KernelIdeal.S128x64 .f32) (x8 : FVec Ideal Cert.KernelIdeal.S64 .f32)
    (hs : SrcInRange x1) :
    network (kAgg x1 x2) (kH0 x0 x1) (kCol x2) (kCol x1) x3 x4 x5 x6 x7 x8
      = Cert.ReferenceIdeal.ReadP.val_main_v75 (F := Ideal) x0 x1 x2 x3 x4 x5 x6 x7 x8 := by
  rw [ref_result x0 x1 x2 x3 x4 x5 x6 x7 x8, kAgg_eq x1 x2 hs, kH0_eq x0 x1, kCol_ndst x2, kCol_nsrc x1]

end Cert.GConv.Bridge

end
-- ==== Proof.lean ====
/-
  The certificate's claims, assembled.

  The kernel program is a three-layer graph convolution: the edge aggregation (gather the rows at the edges' sources, add
  them into the edges' targets) runs as host operations, and each layer's dense part — the in-degree scaling, the product
  with the weights, the bias, then the rectification with the out-degree scaling or, last, the row-wise log-softmax — is
  a pipelined region over blocks of 2000 nodes. Over the extended reals the bf16 roundings are the identity and a block
  product into a zero accumulator is the plain sum, so each region leaves the specification's layer of the arrays it finds;
  the reference computes the same layers on the host. The two programs differ in one place: the kernel program's gather
  replaces a row whose source index is not a node's by a fill value where the reference's gather clamps the index; under
  the precondition that every source index is a node's the fill value is never taken, and the two results are one array.
-/
import proofs.«410822_j78529182040196_1_alg».proof.Defs
import proofs.«410822_j78529182040196_1_alg».proof.Proof.Gen.Kernel
import proofs.«410822_j78529182040196_1_alg».proof.Proof.Gen.Kernel.Skeleton
import proofs.«410822_j78529182040196_1_alg».proof.Proof.Gen.Kernel.Launch
import proofs.«410822_j78529182040196_1_alg».proof.Proof.Gen.Kernel.Points
import proofs.«410822_j78529182040196_1_alg».proof.Proof.Gen.Kernel.Frame
import proofs.«410822_j78529182040196_1_alg».proof.Proof.Gen.KernelIdeal
import proofs.«410822_j78529182040196_1_alg».proof.Proof.Gen.KernelIdeal.Skeleton
import proofs.«410822_j78529182040196_1_alg».proof.Proof.Gen.KernelIdeal.Launch
import proofs.«410822_j78529182040196_1_alg».proof.Proof.Gen.KernelIdeal.Points
import proofs.«410822_j78529182040196_1_alg».proof.Proof.Gen.KernelIdeal.Frame
import proofs.«410822_j78529182040196_1_alg».proof.Proof.Gen.ReferenceIdeal
import proofs.«410822_j78529182040196_1_alg».proof.Proof.Gen.Pre_finite_inputs
import proofs.«410822_j78529182040196_1_alg».proof.Proof.KerRun
import proofs.«410822_j78529182040196_1_alg».proof.Proof.KerHost
import proofs.«410822_j78529182040196_1_alg».proof.Proof.RefRun
import proofs.«410822_j78529182040196_1_alg».proof.Proof.Bridge
import proofs.«410822_j78529182040196_1_alg».proof.Proof.MaskPre
import Idealize.ShloMosaic.Adequacy
import Idealize.ShloMosaic.Init

noncomputable section

namespace Cert.Proof

open Idealize.ShloMosaic Idealize.ShloMosaic.TcCoe Idealize.SL.Sem

/-- The word-level kernel program terminates without a fault, its arguments unchanged. -/
theorem frame_kernel : Cert.frame_Kernel := fun m ρ _ => Cert.Kernel.Gen.frame m ρ

/-- The idealized kernel program terminates without a fault, its arguments unchanged. -/
theorem frame_kernelIdeal : Cert.frame_KernelIdeal := fun m ρ _ => Cert.KernelIdeal.Gen.frame m ρ

/-- The reference terminates without a fault, its arguments unchanged: its run with the result dropped. -/
theorem frame_reference : Cert.frame_ReferenceIdeal := fun m ρ _ =>
  (θ_run Cert.ReferenceIdeal.defs _ _).mono (fun _ h c => (h c).2) (Cert.GConv.RefRun.run m ρ)

/-- The idealization rewrote nothing. -/
theorem preserves : Cert.preserves_Kernel_KernelIdeal := trivial

/-- From memories agreeing on the arguments, both programs end with the network's result: the kernel program's by its
    regions and host stretches, the reference's by its stages, the two networks one array because every source index is a
    node's. -/
theorem algebraic : Cert.algebraic_KernelIdeal_ReferenceIdeal := by
  intro m ρ m' ρ' hpre hagree
  refine ⟨fun c => Cert.KernelIdeal.Gen.W14 m ρ c (Proc.devRef .tc Cert.KernelIdeal.main_v31),
    Cert.GConv.KRun.run_value m ρ, ?_⟩
  refine (θ_run Cert.ReferenceIdeal.defs _ _).mono (fun _ h c => ⟨(h c).1.trans ?_, (h c).2⟩)
    (Cert.GConv.RefRun.run m' ρ')
  obtain ⟨h0, h1, h2, h3, h4, h5, h6, h7, h8⟩ := hagree c
  rw [h0, h1, h2, h3, h4, h5, h6, h7, h8]
  exact ((Cert.GConv.KHost.kernel_result m ρ c).trans
    (Cert.GConv.Bridge.network_eq _ _ _ _ _ _ _ _ _ (Cert.GConv.Mask.srcInRange_of_pre m hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
